-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x8 : Shape := ⟨2, ![800000, 8]⟩
abbrev S50000 : Shape := ⟨1, ![50000]⟩
abbrev S64x128 : Shape := ⟨2, ![64, 128]⟩
abbrev S128 : Shape := ⟨1, ![128]⟩
abbrev S8x64 : Shape := ⟨2, ![8, 64]⟩
abbrev S64 : Shape := ⟨1, ![64]⟩
abbrev S128x128 : Shape := ⟨2, ![128, 128]⟩
abbrev S8x128 : Shape := ⟨2, ![8, 128]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S8x128 : S_.BroadcastsInDim S8x128 (![] : Fin 0 → Fin S8x128.rank)
  reducesTo_S8x128_S_d0_1 : S8x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg1 : IVec S2x800000 32) (main_v63 : IVec S_ 1) (main_v67 : IVec S_ 1) : IVec S_ 1 :=
  let main_v68 : IVec S_ 1 := andi main_v63 main_v67
  let main_v69 : IVec S1x800000 32 := (extractStridedSlice S1x800000 ![0, 0] · slices_S2x800000_S1x800000_0_0) main_arg1
  let main_v70 : IVec S800000 32 := shapeCast S800000 main_v69 shapeCasts_S1x800000_S800000
  let main_c_26 : IVec S_ 32 := constantI S_ 32 0#32
  let main_v71 : IVec S800000 32 := broadcastInDim S800000 ![] bcast_S_S800000 main_c_26
  let main_v72 : IVec S800000 1 := cmpi .sge main_v70 main_v71
  let main_v73 : IVec S1x800000 32 := (extractStridedSlice S1x800000 ![0, 0] · slices_S2x800000_S1x800000_0_0) main_arg1
  let main_v74 : IVec S800000 32 := shapeCast S800000 main_v73 shapeCasts_S1x800000_S800000
  let main_c_27 : IVec S_ 32 := constantI S_ 32 50000#32
  let main_v75 : IVec S800000 32 := broadcastInDim S800000 ![] bcast_S_S800000 main_c_27
  let main_v76 : IVec S800000 1 := cmpi .slt main_v74 main_v75
  let main_v77 : IVec S800000 1 := andi main_v72 main_v76
  let main_c_28 : IVec S_ 1 := constantI S_ 1 1#1
  let main_v78 : IVec S_ 1 := (fun x v => Host.reduce IntOp.andi x v reducesTo_S800000_S_d0 h_S_) main_v77 main_c_28
  let main_v79 : IVec S_ 1 := andi main_v68 main_v78
  main_v79

def fn_part3 {F : FTy → Type} [FloatOps F] (main_arg1 : IVec S2x800000 32) (main_arg13 : FVec F S128 .f32) (main_arg14 : FVec F S8x128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S8x128 .f32 := Host.absf main_arg14
  let main_cst_22 : FVec F S_ .f32 := constant S_ .f32 0x7F800000#32
  let main_v60 : FVec F S8x128 .f32 := broadcastInDim S8x128 ![] bcast_S_S8x128 main_cst_22
  let main_v61 : IVec S8x128 1 := cmpf .olt main_v59 main_v60
  let main_c_23 : IVec S_ 1 := constantI S_ 1 1#1
  let main_v62 : IVec S_ 1 := (fun x v => Host.reduce IntOp.andi x v reducesTo_S8x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_v63 main_v67

def fn_part2 {F : FTy → Type} [FloatOps F] (main_arg1 : IVec S2x800000 32) (main_arg9 : FVec F S128 .f32) (main_arg10 : FVec F S8x128 .f32) (main_arg11 : FVec F S128 .f32) (main_arg12 : FVec F S128x128 .f32) (main_arg13 : FVec F S128 .f32) (main_arg14 : FVec F S8x128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S8x128 .f32 := Host.absf main_arg10
  let main_cst_14 : FVec F S_ .f32 := constant S_ .f32 0x7F800000#32
  let main_v40 : FVec F S8x128 .f32 := broadcastInDim S8x128 ![] bcast_S_S8x128 main_cst_14
  let main_v41 : IVec S8x128 1 := cmpf .olt main_v39 main_v40
  let main_c_15 : IVec S_ 1 := constantI S_ 1 1#1
  let main_v42 : IVec S_ 1 := (fun x v => Host.reduce IntOp.andi x v reducesTo_S8x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg1 main_arg13 main_arg14 main_arg15 main_v48 main_v49 main_v50

def fn_part1 {F : FTy → Type} [FloatOps F] (main_arg1 : IVec S2x800000 32) (main_arg6 : FVec F S8x64 .f32) (main_arg7 : FVec F S64 .f32) (main_arg8 : FVec F S128x128 .f32) (main_arg9 : FVec F S128 .f32) (main_arg10 : FVec F S8x128 .f32) (main_arg11 : FVec F S128 .f32) (main_arg12 : FVec F S128x128 .f32) (main_arg13 : FVec F S128 .f32) (main_arg14 : FVec F S8x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S8x64 .f32 := Host.absf main_arg6
  let main_cst_6 : FVec F S_ .f32 := constant S_ .f32 0x7F800000#32
  let main_v20 : FVec F S8x64 .f32 := broadcastInDim S8x64 ![] bcast_S_S8x64 main_cst_6
  let main_v21 : IVec S8x64 1 := cmpf .olt main_v19 main_v20
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_arg10 main_arg11 main_arg12 main_arg13 main_arg14 main_arg15 main_v33

def fn {F : FTy → Type} [FloatOps F] (main_arg0 : FVec F S50000x64 .f32) (main_arg1 : IVec S2x800000 32) (main_arg2 : FVec F S800000x8 .f32) (main_arg3 : IVec S50000 32) (main_arg4 : FVec F S64x128 .f32) (main_arg5 : FVec F S128 .f32) (main_arg6 : FVec F S8x64 .f32) (main_arg7 : FVec F S64 .f32) (main_arg8 : FVec F S128x128 .f32) (main_arg9 : FVec F S128 .f32) (main_arg10 : FVec F S8x128 .f32) (main_arg11 : FVec F S128 .f32) (main_arg12 : FVec F S128x128 .f32) (main_arg13 : FVec F S128 .f32) (main_arg14 : FVec F S8x128 .f32) (main_arg15 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x8 .f32 := Host.absf main_arg2
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S800000x8 : Shape := ⟨2, ![800000, 8]⟩
abbrev S50000 : Shape := ⟨1, ![50000]⟩
abbrev S64x128 : Shape := ⟨2, ![64, 128]⟩
abbrev S128 : Shape := ⟨1, ![128]⟩
abbrev S8x64 : Shape := ⟨2, ![8, 64]⟩
abbrev S64 : Shape := ⟨1, ![64]⟩
abbrev S128x128 : Shape := ⟨2, ![128, 128]⟩
abbrev S8x128 : Shape := ⟨2, ![8, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x64 : Shape := ⟨2, ![1, 64]⟩
abbrev S4000x64 : Shape := ⟨2, ![4000, 64]⟩
abbrev S4000x8 : Shape := ⟨2, ![4000, 8]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S4000x128 : Shape := ⟨2, ![4000, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩

abbrev nBuf : Space → Nat
  | .hbm => 129
  | .vmem => 48
  | .smem => 0
  | _ => 0

abbrev hbmTy0_0 (i : Nat) : BufTy := match i % 128 with
  | 0 => ⟨S50000x64, .f32⟩
  | 1 => ⟨S2x800000, .i32⟩
  | 2 => ⟨S800000x8, .f32⟩
  | 3 => ⟨S50000, .i32⟩
  | 4 => ⟨S64x128, .f32⟩
  | 5 => ⟨S128, .f32⟩
  | 6 => ⟨S8x64, .f32⟩
  | 7 => ⟨S64, .f32⟩
  | 8 => ⟨S128x128, .f32⟩
  | 9 => ⟨S128, .f32⟩
  | 10 => ⟨S8x128, .f32⟩
  | 11 => ⟨S128, .f32⟩
  | 12 => ⟨S128x128, .f32⟩
  | 13 => ⟨S128, .f32⟩
  | 14 => ⟨S8x128, .f32⟩
  | 15 => ⟨S128, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S1, .i32⟩
  | 29 => ⟨S_, .i32⟩
  | 30 => ⟨S800000x1, .i32⟩
  | 31 => ⟨S800000x1, .i1⟩
  | 32 => ⟨S1x1, .i32⟩
  | 33 => ⟨S800000x1, .i32⟩
  | 34 => ⟨S800000x1, .i1⟩
  | 35 => ⟨S800000x1, .i1⟩
  | 36 => ⟨S_, .i1⟩
  | 37 => ⟨S800000, .i1⟩
  | 38 => ⟨S800000x64, .f32⟩
  | 39 => ⟨S800000x64, .i1⟩
  | 40 => ⟨S_, .f32⟩
  | 41 => ⟨S800000x64, .f32⟩
  | 42 => ⟨S800000x64, .f32⟩
  | 43 => ⟨S1x64, .f32⟩
  | 44 => ⟨S800000x64, .f32⟩
  | 45 => ⟨S_, .f32⟩
  | 46 => ⟨S50000x64, .f32⟩
  | 47 => ⟨S800000x1, .i32⟩
  | 48 => ⟨S50000x64, .f32⟩
  | 49 => ⟨S1x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S1, .i32⟩
  | 60 => ⟨S_, .i32⟩
  | 61 => ⟨S800000x1, .i32⟩
  | 62 => ⟨S800000x1, .i1⟩
  | 63 => ⟨S1x1, .i32⟩
  | 64 => ⟨S800000x1, .i32⟩
  | 65 => ⟨S800000x1, .i1⟩
  | 66 => ⟨S800000x1, .i1⟩
  | 67 => ⟨S_, .i1⟩
  | 68 => ⟨S800000, .i1⟩
  | 69 => ⟨S800000x128, .f32⟩
  | 70 => ⟨S800000x128, .i1⟩
  | 71 => ⟨S_, .f32⟩
  | 72 => ⟨S800000x128, .f32⟩
  | 73 => ⟨S800000x128, .f32⟩
  | 74 => ⟨S1x128, .f32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S1x128, .f32⟩
  | 81 => ⟨S50000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S1, .i32⟩
  | 91 => ⟨S_, .i32⟩
  | 92 => ⟨S800000x1, .i32⟩
  | 93 => ⟨S800000x1, .i1⟩
  | 94 => ⟨S1x1, .i32⟩
  | 95 => ⟨S800000x1, .i32⟩
  | 96 => ⟨S800000x1, .i1⟩
  | 97 => ⟨S800000x1, .i1⟩
  | 98 => ⟨S_, .i1⟩
  | 99 => ⟨S800000, .i1⟩
  | 100 => ⟨S800000x128, .f32⟩
  | 101 => ⟨S800000x128, .i1⟩
  | 102 => ⟨S_, .f32⟩
  | 103 => ⟨S800000x128, .f32⟩
  | 104 => ⟨S800000x128, .f32⟩
  | 105 => ⟨S1x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S1x128, .f32⟩
  | 112 => ⟨S50000x128, .f32⟩
  | 113 => ⟨S_, .f32⟩
  | 114 => ⟨S256x128, .f32⟩
  | 115 => ⟨S50000x1, .i32⟩
  | 116 => ⟨S256x128, .f32⟩
  | 117 => ⟨S_, .f32⟩
  | 118 => ⟨S50000, .f32⟩
  | 119 => ⟨S_, .f32⟩
  | 120 => ⟨S256, .f32⟩
  | 121 => ⟨S50000x1, .i32⟩
  | 122 => ⟨S256, .f32⟩
  | 123 => ⟨S_, .f32⟩
  | 124 => ⟨S256, .f32⟩
  | 125 => ⟨S256, .f32⟩
  | 126 => ⟨S256x1, .f32⟩
  | 127 => ⟨S256x128, .f32⟩
  | _ => ⟨S50000x64, .f32⟩

abbrev hbmTy0_1 (i : Nat) : BufTy := match i % 128 with
  | 0 => ⟨S256x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x8, .f32⟩
  | .local _ .vmem, ⟨3, _⟩ => ⟨S4000x8, .f32⟩
  | .local _ .vmem, ⟨4, _⟩ => ⟨S8x64, .f32⟩
  | .local _ .vmem, ⟨5, _⟩ => ⟨S1x64, .f32⟩
  | .local _ .vmem, ⟨6, _⟩ => ⟨S4000x64, .f32⟩
  | .local _ .vmem, ⟨7, _⟩ => ⟨S4000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S4000x128, .f32⟩
  | .local _ .vmem, ⟨17, _⟩ => ⟨S4000x128, .f32⟩
  | .local _ .vmem, ⟨18, _⟩ => ⟨S4000x8, .f32⟩
  | .local _ .vmem, ⟨19, _⟩ => ⟨S4000x8, .f32⟩
  | .local _ .vmem, ⟨20, _⟩ => ⟨S8x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S4000x128, .f32⟩
  | .local _ .vmem, ⟨33, _⟩ => ⟨S4000x128, .f32⟩
  | .local _ .vmem, ⟨34, _⟩ => ⟨S4000x8, .f32⟩
  | .local _ .vmem, ⟨35, _⟩ => ⟨S4000x8, .f32⟩
  | .local _ .vmem, ⟨36, _⟩ => ⟨S8x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_cst_0 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_cst_1 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_cst_2 : Ref sig .tc := ⟨.hbm, 113, rfl⟩
abbrev main_v28 : Ref sig .tc := ⟨.hbm, 114, rfl⟩
abbrev main_v29 : Ref sig .tc := ⟨.hbm, 115, rfl⟩
abbrev main_v30 : Ref sig .tc := ⟨.hbm, 116, rfl⟩
abbrev main_cst_3 : Ref sig .tc := ⟨.hbm, 117, rfl⟩
abbrev main_v31 : Ref sig .tc := ⟨.hbm, 118, rfl⟩
abbrev main_cst_4 : Ref sig .tc := ⟨.hbm, 119, rfl⟩
abbrev main_v32 : Ref sig .tc := ⟨.hbm, 120, rfl⟩
abbrev main_v33 : Ref sig .tc := ⟨.hbm, 121, rfl⟩
abbrev main_v34 : Ref sig .tc := ⟨.hbm, 122, rfl⟩
abbrev main_cst_5 : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x8 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S8x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x8_S4000x8_0_0 : ∀ a, (![0, 0] : Fin 2 → Nat) a + S4000x8.size a ≤ S4000x8.size a
  h_S4000x8 : 0 < S4000x8.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S8x128_S8x128_0_0 : ∀ a, (![0, 0] : Fin 2 → Nat) a + S8x128.size a ≤ S8x128.size a
  h_S8x128 : 0 < S8x128.numel
  broadcasts_S1x128_S4000x128 : S1x128.Broadcasts S4000x128
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  gather_S50000x64_S800000x1_S800000x64_1_0_n_n_0_1_164_wf : GatherDims.WF S50000x64 S800000x1 S800000x64 [1] [0] [] [0] [] 1 ![1, 64]
  dot_S4000x8_S8x64_S4000x64_1_0_0_1_n_n_wf : DotDims.WF S4000x8 S8x64 S4000x64 [1] [0] [0] [1] [] []
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  dot_S4000x8_S8x128_S4000x128_1_0_0_1_n_n_wf : DotDims.WF S4000x8 S8x128 S4000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x8.size a ≤ S800000x8.size a
  hwx0_1 : ∀ i : grid0.Coords, EltTy.bits .f32 = 32 ∨ (Rect.block (s := S800000x8) S4000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S800000x64.size a
  hwx0_4 : ∀ i : grid0.Coords, EltTy.bits .f32 = 32 ∨ (Rect.block (s := S800000x64) S4000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S800000x128.size a
  hwx2_0 : ∀ i : grid2.Coords, EltTy.bits .f32 = 32 ∨ (Rect.block (s := S800000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x8.size a ≤ S800000x8.size a
  hwx2_1 : ∀ i : grid2.Coords, EltTy.bits .f32 = 32 ∨ (Rect.block (s := S800000x8) S4000x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S8x128.size a
  hwx2_2 : ∀ i : grid2.Coords, EltTy.bits .f32 = 32 ∨ (Rect.block (s := S8x128) S8x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S800000x128.size a
  hwx2_4 : ∀ i : grid2.Coords, EltTy.bits .f32 = 32 ∨ (Rect.block (s := S800000x128) S4000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S800000x128.size a
  hwx4_0 : ∀ i : grid4.Coords, EltTy.bits .f32 = 32 ∨ (Rect.block (s := S800000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x8.size a ≤ S800000x8.size a
  hwx4_1 : ∀ i : grid4.Coords, EltTy.bits .f32 = 32 ∨ (Rect.block (s := S800000x8) S4000x8.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S8x128.size a ≤ S8x128.size a
  hwx4_2 : ∀ i : grid4.Coords, EltTy.bits .f32 = 32 ∨ (Rect.block (s := S8x128) S8x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x128.size a ≤ S800000x128.size a
  hwx4_4 : ∀ i : grid4.Coords, EltTy.bits .f32 = 32 ∨ (Rect.block (s := S800000x128) S4000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x8_S8x64_S4000x64_1_0_0_1_n_n : DotDims S4000x8 S8x64 S4000x64 where
  lhsContracting := [1]
  rhsContracting := [0]
  lhsNonContracting := [0]
  rhsNonContracting := [1]
  lhsBatch := []
  rhsBatch := []
  wf := dot_S4000x8_S8x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf

abbrev win0_0 : Pipeline.Window sig grid0 :=
  Pipeline.Window.ofSpec (Memref.whole main_v4) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S8x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v12) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S4000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S8x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v11) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v20) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S4000x8.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S8x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v21) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v22) S4000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v19) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v26) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v27) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x8 : Shape := ⟨2, ![800000, 8]⟩
abbrev S50000 : Shape := ⟨1, ![50000]⟩
abbrev S64x128 : Shape := ⟨2, ![64, 128]⟩
abbrev S128 : Shape := ⟨1, ![128]⟩
abbrev S8x64 : Shape := ⟨2, ![8, 64]⟩
abbrev S64 : Shape := ⟨1, ![64]⟩
abbrev S128x128 : Shape := ⟨2, ![128, 128]⟩
abbrev S8x128 : Shape := ⟨2, ![8, 128]⟩
abbrev S1x800000 : Shape := ⟨2, ![1, 800000]⟩
abbrev S800000 : Shape := ⟨1, ![800000]⟩
abbrev S800000x64 : Shape := ⟨2, ![800000, 64]⟩
abbrev S1x64 : Shape := ⟨2, ![1, 64]⟩
abbrev S_ : Shape := ⟨0, ![]⟩
abbrev S800000x1 : Shape := ⟨2, ![800000, 1]⟩
abbrev S50000x128 : Shape := ⟨2, ![50000, 128]⟩
abbrev S1x128 : Shape := ⟨2, ![1, 128]⟩
abbrev S800000x128 : Shape := ⟨2, ![800000, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩

abbrev nBuf : Space → Nat
  | .hbm => 123
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x8, .f32⟩
  | .hbm, ⟨3, _⟩ => ⟨S50000, .i32⟩
  | .hbm, ⟨4, _⟩ => ⟨S64x128, .f32⟩
  | .hbm, ⟨5, _⟩ => ⟨S128, .f32⟩
  | .hbm, ⟨6, _⟩ => ⟨S8x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S8x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S8x128, .f32⟩
  | .hbm, ⟨15, _⟩ => ⟨S128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S800000x64, .f32⟩
  | .hbm, ⟨21, _⟩ => ⟨S1x64, .f32⟩
  | .hbm, ⟨22, _⟩ => ⟨S800000x64, .f32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S800000x64, .f32⟩
  | .hbm, ⟨34, _⟩ => ⟨S_, .f32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S50000x64, .f32⟩
  | .hbm, ⟨41, _⟩ => ⟨S50000x64, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S800000x128, .f32⟩
  | .hbm, ⟨79, _⟩ => ⟨S1x128, .f32⟩
  | .hbm, ⟨80, _⟩ => ⟨S800000x128, .f32⟩
  | .hbm, ⟨81, _⟩ => ⟨S800000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S800000x128, .f32⟩
  | .hbm, ⟨92, _⟩ => ⟨S_, .f32⟩
  | .hbm, ⟨93, _⟩ => ⟨S800000x128, .f32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S_, .f32⟩
  | .hbm, ⟨105, _⟩ => ⟨S50000x128, .f32⟩
  | .hbm, ⟨106, _⟩ => ⟨S50000x128, .f32⟩
  | .hbm, ⟨107, _⟩ => ⟨S_, .f32⟩
  | .hbm, ⟨108, _⟩ => ⟨S256x128, .f32⟩
  | .hbm, ⟨109, _⟩ => ⟨S50000x1, .i32⟩
  | .hbm, ⟨110, _⟩ => ⟨S256x128, .f32⟩
  | .hbm, ⟨111, _⟩ => ⟨S_, .f32⟩
  | .hbm, ⟨112, _⟩ => ⟨S50000, .f32⟩
  | .hbm, ⟨113, _⟩ => ⟨S_, .f32⟩
  | .hbm, ⟨114, _⟩ => ⟨S256, .f32⟩
  | .hbm, ⟨115, _⟩ => ⟨S50000x1, .i32⟩
  | .hbm, ⟨116, _⟩ => ⟨S256, .f32⟩
  | .hbm, ⟨117, _⟩ => ⟨S_, .f32⟩
  | .hbm, ⟨118, _⟩ => ⟨S256, .f32⟩
  | .hbm, ⟨119, _⟩ => ⟨S256, .f32⟩
  | .hbm, ⟨120, _⟩ => ⟨S256x1, .f32⟩
  | .hbm, ⟨121, _⟩ => ⟨S256x128, .f32⟩
  | .hbm, ⟨122, _⟩ => ⟨S256x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call0_cst : Ref sig .tc := ⟨.hbm, 34, rfl⟩
abbrev main_call0_v0 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_cst : Ref sig .tc := ⟨.hbm, 46, rfl⟩
abbrev main_call1_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_1 : Ref sig .tc := ⟨.hbm, 53, rfl⟩
abbrev main_v30 : Ref sig .tc := ⟨.hbm, 54, rfl⟩
abbrev main_v31 : Ref sig .tc := ⟨.hbm, 55, rfl⟩
abbrev main_c_2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call2_cst : Ref sig .tc := ⟨.hbm, 63, rfl⟩
abbrev main_call2_v0 : Ref sig .tc := ⟨.hbm, 64, rfl⟩
abbrev main_v38 : Ref sig .tc := ⟨.hbm, 65, rfl⟩
abbrev main_cst_3 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call3_cst : Ref sig .tc := ⟨.hbm, 75, rfl⟩
abbrev main_call3_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_4 : Ref sig .tc := ⟨.hbm, 82, rfl⟩
abbrev main_v52 : Ref sig .tc := ⟨.hbm, 83, rfl⟩
abbrev main_v53 : Ref sig .tc := ⟨.hbm, 84, rfl⟩
abbrev main_c_5 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call4_cst : Ref sig .tc := ⟨.hbm, 92, rfl⟩
abbrev main_call4_v0 : Ref sig .tc := ⟨.hbm, 93, rfl⟩
abbrev main_v60 : Ref sig .tc := ⟨.hbm, 94, rfl⟩
abbrev main_cst_6 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call5_cst : Ref sig .tc := ⟨.hbm, 104, rfl⟩
abbrev main_call5_v0 : Ref sig .tc := ⟨.hbm, 105, rfl⟩
abbrev main_v69 : Ref sig .tc := ⟨.hbm, 106, rfl⟩
abbrev main_cst_7 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_8 : Ref sig .tc := ⟨.hbm, 111, rfl⟩
abbrev main_v73 : Ref sig .tc := ⟨.hbm, 112, rfl⟩
abbrev main_cst_9 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_10 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  dot_S800000x8_S8x64_S800000x64_1_0_0_1_n_n_wf : DotDims.WF S800000x8 S8x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S800000x8_S8x128_S800000x128_1_0_0_1_n_n_wf : DotDims.WF S800000x8 S8x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1

variable [Facts₀]

def dot_S800000x8_S8x64_S800000x64_1_0_0_1_n_n : DotDims S800000x8 S8x64 S800000x64 where
  lhsContracting := [1]
  rhsContracting := [0]
  lhsNonContracting := [0]
  rhsNonContracting := [1]
  lhsBatch := []
  rhsBatch := []
  wf := dot_S800000x8_S8x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S800000x8_S8x128_S800000x128_1_0_0_1_n_n : DotDims S800000x8 S8x128 S800000x128 where
  lhsContracting := [1]
  rhsContracting := [0]
  lhsNonContracting := [0]
  rhsNonContracting := [1]
  lhsBatch := []
  rhsBatch := []
  wf := dot_S800000x8_S8x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf

class Facts : Prop extends Facts₀ where

variable [Facts]
-- ==== Proof.Spec.lean ====
/-
  The function both programs compute, as one composition of whole-array operations.

  A layer takes node features `x : [N, din]`, gathers the source row of every edge (after the
  usual wrap of a negative index), adds the edge's projected attributes `ea · We + be`, clips at
  zero, sums the messages into their destination nodes, and applies `relu((x + agg) · W + b)`.
  Three layers (64 → 128, 128 → 128, 128 → 128) are followed by a mean over the nodes of each graph:
  the per-graph sum divided by `max(count, 1)`.

  The two dense pieces, `edge` and `node`, are what the tiled kernels compute block by block; each
  row of their result depends only on the same row of the row-blocked operands, which is why a
  row block of the result is the same function of the operands' row blocks.
-/
import proofs.«415786_j61478161875137_1_alg».proof.Proof.Gen.ReferenceIdeal

noncomputable section

namespace Cert.Spec

open Idealize.ShloMosaic Cert.ReferenceIdeal Cert.ReferenceIdeal.Facts₀ Cert.ReferenceIdeal.Facts

variable {F : FTy → Type} [FloatOps F]

/-- Row 0 of the edge list: the source node of every edge. -/
def srcOf (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- Row 1 of the edge list: the destination node of every edge. -/
def dstOf (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The gather's index column: a negative source index `s` is read as `s + 50000`. -/
def idxCol (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Edge messages at width 64: `relu(xs + (ea · We + be))`, row by row. -/
def edge64 (xs : (⟨S800000x64, .f32⟩ : BufTy).Contents (Elt F)) (ea : (⟨S800000x8, .f32⟩ : BufTy).Contents (Elt F))
    (We : (⟨S8x64, .f32⟩ : BufTy).Contents (Elt F)) (be1 : (⟨S1x64, .f32⟩ : BufTy).Contents (Elt F)) :
    (⟨S800000x64, .f32⟩ : BufTy).Contents (Elt F) :=
  maximumf (addf xs (addf (Host.dotGeneral dot_S800000x8_S8x64_S800000x64_1_0_0_1_n_n none ea We)
      (broadcastInDim S800000x64 ![0, 1] bcast_S1x64_S800000x64_0_1 be1)))
    (broadcastInDim S800000x64 ![] bcast_S_S800000x64 (constant S_ .f32 0x00000000#32))

/-- Edge messages at width 128. -/
def edge128 (xs : (⟨S800000x128, .f32⟩ : BufTy).Contents (Elt F)) (ea : (⟨S800000x8, .f32⟩ : BufTy).Contents (Elt F))
    (We : (⟨S8x128, .f32⟩ : BufTy).Contents (Elt F)) (be1 : (⟨S1x128, .f32⟩ : BufTy).Contents (Elt F)) :
    (⟨S800000x128, .f32⟩ : BufTy).Contents (Elt F) :=
  maximumf (addf xs (addf (Host.dotGeneral dot_S800000x8_S8x128_S800000x128_1_0_0_1_n_n none ea We)
      (broadcastInDim S800000x128 ![0, 1] bcast_S1x128_S800000x128_0_1 be1)))
    (broadcastInDim S800000x128 ![] bcast_S_S800000x128 (constant S_ .f32 0x00000000#32))

/-- Node update 64 → 128: `relu((x + agg) · W + b)`, row by row. -/
def node64 (x agg : (⟨S50000x64, .f32⟩ : BufTy).Contents (Elt F)) (W : (⟨S64x128, .f32⟩ : BufTy).Contents (Elt F))
    (b1 : (⟨S1x128, .f32⟩ : BufTy).Contents (Elt F)) : (⟨S50000x128, .f32⟩ : BufTy).Contents (Elt F) :=
  maximumf (addf (Host.dotGeneral dot_S50000x64_S64x128_S50000x128_1_0_0_1_n_n none (addf x agg) W)
      (broadcastInDim S50000x128 ![0, 1] bcast_S1x128_S50000x128_0_1 b1))
    (broadcastInDim S50000x128 ![] bcast_S_S50000x128 (constant S_ .f32 0x00000000#32))

/-- Node update 128 → 128. -/
def node128 (x agg : (⟨S50000x128, .f32⟩ : BufTy).Contents (Elt F)) (W : (⟨S128x128, .f32⟩ : BufTy).Contents (Elt F))
    (b1 : (⟨S1x128, .f32⟩ : BufTy).Contents (Elt F)) : (⟨S50000x128, .f32⟩ : BufTy).Contents (Elt F) :=
  maximumf (addf (Host.dotGeneral dot_S50000x128_S128x128_S50000x128_1_0_0_1_n_n none (addf x agg) W)
      (broadcastInDim S50000x128 ![0, 1] bcast_S1x128_S50000x128_0_1 b1))
    (broadcastInDim S50000x128 ![] bcast_S_S50000x128 (constant S_ .f32 0x00000000#32))

/-- The first layer: gather, message, sum into destinations, update. -/
def layer64 (x : (⟨S50000x64, .f32⟩ : BufTy).Contents (Elt F)) (src dst : (⟨S800000, .i32⟩ : BufTy).Contents (Elt F))
    (ea : (⟨S800000x8, .f32⟩ : BufTy).Contents (Elt F)) (We : (⟨S8x64, .f32⟩ : BufTy).Contents (Elt F))
    (be : (⟨S64, .f32⟩ : BufTy).Contents (Elt F)) (W : (⟨S64x128, .f32⟩ : BufTy).Contents (Elt F))
    (b : (⟨S128, .f32⟩ : BufTy).Contents (Elt F)) : (⟨S50000x128, .f32⟩ : BufTy).Contents (Elt F) :=
  node64 x
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 dst)
      (edge64 (Host.gather gather_S50000x64_S800000x1_S800000x64_1_0_n_n_0_1_164 x (idxCol src)) ea We
        (broadcastInDim S1x64 ![1] bcast_S64_S1x64_1 be)))
    W (broadcastInDim S1x128 ![1] bcast_S128_S1x128_1 b)

/-- The second and third layers. -/
def layer128 (x : (⟨S50000x128, .f32⟩ : BufTy).Contents (Elt F)) (src dst : (⟨S800000, .i32⟩ : BufTy).Contents (Elt F))
    (ea : (⟨S800000x8, .f32⟩ : BufTy).Contents (Elt F)) (We : (⟨S8x128, .f32⟩ : BufTy).Contents (Elt F))
    (be : (⟨S128, .f32⟩ : BufTy).Contents (Elt F)) (W : (⟨S128x128, .f32⟩ : BufTy).Contents (Elt F))
    (b : (⟨S128, .f32⟩ : BufTy).Contents (Elt F)) : (⟨S50000x128, .f32⟩ : BufTy).Contents (Elt F) :=
  node128 x
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (edge128 (Host.gather gather_S50000x128_S800000x1_S800000x128_1_0_n_n_0_1_1128 x (idxCol src)) ea We
        (broadcastInDim S1x128 ![1] bcast_S128_S1x128_1 be)))
    W (broadcastInDim S1x128 ![1] bcast_S128_S1x128_1 b)

/-- Mean over the nodes of each graph: the per-graph sum over `max(count, 1)`. -/
def pool (batch : (⟨S50000, .i32⟩ : BufTy).Contents (Elt F)) (x : (⟨S50000x128, .f32⟩ : BufTy).Contents (Elt F)) :
    (⟨S256x128, .f32⟩ : BufTy).Contents (Elt F) :=
  Host.divf
    (Host.scatterAdd scatter_S256x128_S50000x1_S50000x128_1_0_0_1
      (broadcastInDim S256x128 ![] bcast_S_S256x128 (constant S_ .f32 0x00000000#32))
      (broadcastInDim S50000x1 ![0] bcast_S50000_S50000x1_0 batch) x)
    (broadcastInDim S256x128 ![0, 1] bcast_S256x1_S256x128_0_1
      (broadcastInDim S256x1 ![0] bcast_S256_S256x1_0
        (maximumf
          (Host.scatterAdd scatter_S256_S50000x1_S50000_n_0_0_1
            (broadcastInDim S256 ![] bcast_S_S256 (constant S_ .f32 0x00000000#32))
            (broadcastInDim S50000x1 ![0] bcast_S50000_S50000x1_0 batch)
            (broadcastInDim S50000 ![] bcast_S_S50000 (constant S_ .f32 0x3F800000#32)))
          (broadcastInDim S256 ![] bcast_S_S256 (constant S_ .f32 0x3F800000#32)))))

/-- The whole network: three layers, then the per-graph mean. -/
def net (x : (⟨S50000x64, .f32⟩ : BufTy).Contents (Elt F)) (ei : (⟨S2x800000, .i32⟩ : BufTy).Contents (Elt F))
    (ea : (⟨S800000x8, .f32⟩ : BufTy).Contents (Elt F)) (batch : (⟨S50000, .i32⟩ : BufTy).Contents (Elt F))
    (W1 : (⟨S64x128, .f32⟩ : BufTy).Contents (Elt F)) (b1 : (⟨S128, .f32⟩ : BufTy).Contents (Elt F))
    (We1 : (⟨S8x64, .f32⟩ : BufTy).Contents (Elt F)) (be1 : (⟨S64, .f32⟩ : BufTy).Contents (Elt F))
    (W2 : (⟨S128x128, .f32⟩ : BufTy).Contents (Elt F)) (b2 : (⟨S128, .f32⟩ : BufTy).Contents (Elt F))
    (We2 : (⟨S8x128, .f32⟩ : BufTy).Contents (Elt F)) (be2 : (⟨S128, .f32⟩ : BufTy).Contents (Elt F))
    (W3 : (⟨S128x128, .f32⟩ : BufTy).Contents (Elt F)) (b3 : (⟨S128, .f32⟩ : BufTy).Contents (Elt F))
    (We3 : (⟨S8x128, .f32⟩ : BufTy).Contents (Elt F)) (be3 : (⟨S128, .f32⟩ : BufTy).Contents (Elt F)) :
    (⟨S256x128, .f32⟩ : BufTy).Contents (Elt F) :=
  pool batch
    (layer128
      (layer128 (layer64 x (srcOf ei) (dstOf ei) ea We1 be1 W1 b1) (srcOf ei) (dstOf ei) ea We2 be2 W2 b2)
      (srcOf ei) (dstOf ei) ea We3 be3 W3 b3)

end Cert.Spec

end
-- ==== Proof.SrcDom.lean ====
import proofs.«415786_j61478161875137_1_alg».proof.Proof.Gen.KernelIdeal.Frame
import proofs.«415786_j61478161875137_1_alg».proof.Proof.Gen.Pre_finite_inputs
import proofs.«415786_j61478161875137_1_alg».proof.Defs
import proofs.«415786_j61478161875137_1_alg».proof.Proof.Spec
import Idealize.ShloMosaic.Lib.ValueIdx
import Idealize.ShloMosaic.Lib.ReduceAll
import Idealize.ShloMosaic.Lib.StableHlo.Predicate
import Idealize.ShloMosaic.PureOps.Ideal

/-
  The source indices are node indices, and what that buys.

  The precondition's last conjunct is `all((src ≥ 0) ∧ (src < 50000))` over row 0 of the edge list.
  Read back, it says `0 ≤ src e < 50000` for every edge `e` (`srcOk_of_pre`).

  The tiled program guards its gather: after the usual wrap `s ↦ if s < 0 then s + 50000 else s` it tests
  `0 ≤ idx ≤ 49999` row by row, reduces the one-column test by `and`, and selects the gathered row
  where the test passed and a fill elsewhere. With every index in range the wrap is the identity, the
  test is 1 on every edge, so the mask is 1 everywhere and the select is the gather (`take64`, `take128`).
-/

set_option maxRecDepth 16384

noncomputable section

namespace Cert.KernelIdeal.Net

open Idealize.ShloMosaic Idealize.ShloMosaic.TcCoe Idealize.SL.Sem
open Cert.KernelIdeal Cert.KernelIdeal.Gen

/-- Every source index names a node: `0 ≤ s < 50000`. -/
def SrcOk (src : IVec S800000 32) : Prop :=
  ∀ e : S800000.Idx, 0 ≤ (src e).toInt ∧ (src e).toInt < 50000

namespace SrcDom

/-! ### Signed compares of a word against a small constant -/

/-- `a ≥ 0` signed is `0 ≤ toInt a`. -/
theorem sge_zero_iff (a : BitVec 32) : IntOp.cmpi .sge a 0#32 = 1#1 ↔ 0 ≤ a.toInt := by
  show BitVec.ofBool ((0#32 : BitVec 32).sle a) = 1#1 ↔ _
  simp only [StableHlo.Predicate.ofBool_eq_one_iff, BitVec.sle, decide_eq_true_eq, BitVec.toInt_zero]

/-- `a < n` signed, `n` a small constant, is `toInt a < n`. -/
theorem slt_const_iff (a : BitVec 32) (n : ℕ) (hn : n < 2 ^ 31) :
    IntOp.cmpi .slt a (BitVec.ofNat 32 n) = 1#1 ↔ a.toInt < n := by
  show BitVec.ofBool (a.slt (BitVec.ofNat 32 n)) = 1#1 ↔ _
  simp only [StableHlo.Predicate.ofBool_eq_one_iff, BitVec.slt, decide_eq_true_eq,
    StableHlo.Predicate.toInt_ofNat_small n hn]

/-- `a ≤ n` signed, `n` a small constant, is `toInt a ≤ n`. -/
theorem sle_const_iff (a : BitVec 32) (n : ℕ) (hn : n < 2 ^ 31) :
    IntOp.cmpi .sle a (BitVec.ofNat 32 n) = 1#1 ↔ a.toInt ≤ n := by
  show BitVec.ofBool (a.sle (BitVec.ofNat 32 n)) = 1#1 ↔ _
  simp only [StableHlo.Predicate.ofBool_eq_one_iff, BitVec.sle, decide_eq_true_eq,
    StableHlo.Predicate.toInt_ofNat_small n hn]

/-- A word in `[0, 50000)` is not wrapped, and passes the range test `0 ≤ · ≤ 49999`. -/
theorem wrap_in_range (a : BitVec 32) (h0 : 0 ≤ a.toInt) (h1 : a.toInt < 50000) :
    Scalar.select (IntOp.cmpi .slt a 0#32) (IntOp.addi a 50000#32) a = a
      ∧ IntOp.andi (IntOp.cmpi .sge a 0#32) (IntOp.cmpi .sle a 49999#32) = 1#1 := by
  have hs : IntOp.cmpi .slt a 0#32 = 0#1 := by
    apply ValueIdx.eq_zero_of_ne_one
    intro hc
    have := (slt_const_iff a 0 (by norm_num)).1 hc
    simp only [Nat.cast_zero] at this
    omega
  refine ⟨by rw [hs, ValueIdx.select_zero], IntOp.andi_eq_one.2 ⟨(sge_zero_iff a).2 h0, ?_⟩⟩
  refine (sle_const_iff a 49999 (by norm_num)).2 ?_
  simp only [Nat.cast_ofNat]
  omega

/-! ### A reduce by `and` of all ones, and a select on a mask of all ones -/

/-- A left fold by `and` from 1 over 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

/-- A reduce by `and`, from 1, of an array of 1s is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

/-- A broadcast reads its operand somewhere. -/
theorem bcast_exists {α : Type} {s t : Shape} (dims : Fin s.rank → Fin t.rank) (hb : s.BroadcastsInDim t dims)
    (x : s.Idx → α) (j : t.Idx) : ∃ k, broadcastInDim t dims hb x j = x k := ⟨_, rfl⟩

/-- A select on a broadcast of an all-ones mask is its first operand. -/
theorem select_bcast_ones {α : Type} {s t : Shape} (dims : Fin s.rank → Fin t.rank) (hb : s.BroadcastsInDim t dims)
    (M : IVec s 1) (hM : ∀ k, M k = 1#1) (a b : t.Idx → α) : select (broadcastInDim t dims hb M) a b = a := by
  funext j
  obtain ⟨k, hk⟩ := bcast_exists dims hb M j
  rw [ValueIdx.select_apply, hk, hM k, ValueIdx.select_one]

/-! ### The guarded take is the gather -/

/-- With every source index in range, the index column is the source index of some edge, unwrapped. -/
theorem idxCol_eq (src : IVec S800000 32) (h : SrcOk src) (i : S800000x1.Idx) :
    ∃ e : S800000.Idx, Cert.Spec.idxCol (F := Ideal) src i = src e := by
  obtain ⟨e, he⟩ := bcast_exists ![0] Cert.ReferenceIdeal.Facts₀.bcast_S800000_S800000x1_0
    (select (cmpi .slt src (broadcastInDim S800000 ![] Cert.ReferenceIdeal.Facts₀.bcast_S_S800000 (constantI S_ 32 0#32)))
      (addi src (broadcastInDim S800000 ![] Cert.ReferenceIdeal.Facts₀.bcast_S_S800000 (constantI S_ 32 50000#32))) src) i
  exact ⟨e, he.trans (wrap_in_range (src e) (h e).1 (h e).2).1⟩

/-- The range test passes on every edge. -/
theorem mask_ones (src : IVec S800000 32) (h : SrcOk src) (k : S800000.Idx) :
    Host.reduce IntOp.andi
      (andi (cmpi .sge (Cert.Spec.idxCol (F := Ideal) src) (broadcastInDim S800000x1 ![] bcast_S_S800000x1 (constantI S_ 32 0#32)))
        (cmpi .sle (Cert.Spec.idxCol (F := Ideal) src)
          (broadcastInDim S800000x1 ![0, 1] bcast_S1x1_S800000x1_0_1 (broadcastInDim S1x1 ![1] bcast_S1_S1x1_1 (constantI S1 32 49999#32)))))
      (constantI S_ 1 1#1) reducesTo_S800000x1_S800000_d1 h_S_ k = 1#1 := by
  refine reduce_andi_one _ _ _ _ (fun i => ?_) (fun _ => rfl) k
  obtain ⟨e, he⟩ := idxCol_eq src h i
  show IntOp.andi (IntOp.cmpi .sge (Cert.Spec.idxCol (F := Ideal) src i) 0#32)
    (IntOp.cmpi .sle (Cert.Spec.idxCol (F := Ideal) src i) 49999#32) = 1#1
  rw [he]
  exact (wrap_in_range (src e) (h e).1 (h e).2).2

end SrcDom

open SrcDom

/-! ### The precondition read back -/

/-- The precondition's last conjunct says exactly that of row 0 of the edge list. -/
theorem srcOk_of_pre (m : (ℓ : Loc nD τ sig) → Buf (Elt Ideal) ℓ) (h : Cert.Pre_KernelIdeal m) (c : Dev nD) :
    SrcOk (Cert.Spec.srcOf (F := Ideal) (m ((c.tc : Thread nD τ).loc main_arg1))) := by
  have h0 := congrFun (h c) ValueIdx.ix0
  unfold Cert.Pre_finite_inputs.fn Cert.Pre_finite_inputs.fn_part1 Cert.Pre_finite_inputs.fn_part2
    Cert.Pre_finite_inputs.fn_part3 Cert.Pre_finite_inputs.fn_part4 at h0
  have h1 := (IntOp.andi_eq_one.1 h0).2
  intro e
  haveI : Subsingleton Cert.Pre_finite_inputs.S_.Idx := ⟨fun a b => funext fun d => d.elim0⟩
  have h2 := Host.reduce_andi_all _ _ _ _ _ h1 e
  have h3 := IntOp.andi_eq_one.1 h2
  exact ⟨(sge_zero_iff _).1 h3.1, (slt_const_iff _ 50000 (by norm_num)).1 h3.2⟩

/-! ### The two widths -/

/-- With every index in range the wrap is the identity, the range test passes on every edge, and the
    guarded take is the plain gather (width 64). -/
theorem take64 (src : IVec S800000 32) (h : SrcOk src) (x : FVec Ideal S50000x64 .f32) :
    select (broadcastInDim S800000x64 ![0] bcast_S800000_S800000x64_0
        (Host.reduce IntOp.andi
          (andi (cmpi .sge (Cert.Spec.idxCol (F := Ideal) src) (broadcastInDim S800000x1 ![] bcast_S_S800000x1 (constantI S_ 32 0#32)))
            (cmpi .sle (Cert.Spec.idxCol (F := Ideal) src)
              (broadcastInDim S800000x1 ![0, 1] bcast_S1x1_S800000x1_0_1 (broadcastInDim S1x1 ![1] bcast_S1_S1x1_1 (constantI S1 32 49999#32)))))
          (constantI S_ 1 1#1) reducesTo_S800000x1_S800000_d1 h_S_))
      (Host.gather gather_S50000x64_S800000x1_S800000x64_1_0_n_n_0_1_164 x (Cert.Spec.idxCol (F := Ideal) src))
      (broadcastInDim S800000x64 ![] bcast_S_S800000x64 (constant (F := Ideal) S_ .f32 0x7FC00000#32))
    = Host.gather Cert.ReferenceIdeal.gather_S50000x64_S800000x1_S800000x64_1_0_n_n_0_1_164 x (Cert.Spec.idxCol (F := Ideal) src) := by
  rw [select_bcast_ones _ _ _ (mask_ones src h)]
  rfl

/-- The same at width 128. -/
theorem take128 (src : IVec S800000 32) (h : SrcOk src) (x : FVec Ideal S50000x128 .f32) :
    select (broadcastInDim S800000x128 ![0] bcast_S800000_S800000x128_0
        (Host.reduce IntOp.andi
          (andi (cmpi .sge (Cert.Spec.idxCol (F := Ideal) src) (broadcastInDim S800000x1 ![] bcast_S_S800000x1 (constantI S_ 32 0#32)))
            (cmpi .sle (Cert.Spec.idxCol (F := Ideal) src)
              (broadcastInDim S800000x1 ![0, 1] bcast_S1x1_S800000x1_0_1 (broadcastInDim S1x1 ![1] bcast_S1_S1x1_1 (constantI S1 32 49999#32)))))
          (constantI S_ 1 1#1) reducesTo_S800000x1_S800000_d1 h_S_))
      (Host.gather gather_S50000x128_S800000x1_S800000x128_1_0_n_n_0_1_1128 x (Cert.Spec.idxCol (F := Ideal) src))
      (broadcastInDim S800000x128 ![] bcast_S_S800000x128 (constant (F := Ideal) S_ .f32 0x7FC00000#32))
    = Host.gather Cert.ReferenceIdeal.gather_S50000x128_S800000x1_S800000x128_1_0_n_n_0_1_1128 x (Cert.Spec.idxCol (F := Ideal) src) := by
  rw [select_bcast_ones _ _ _ (mask_ones src h)]
  rfl

end Cert.KernelIdeal.Net

end
-- ==== Proof.SpecApply.lean ====
/-
  The dense pieces read at one entry.  Row `r`, column `q` of an edge message is
  `max (xs[r,q] + (Σ_k ea[r,k] · We[k,q] + be[0,q])) 0`; of a node update
  `max (Σ_k (x[r,k] + agg[r,k]) · W[k,q] + b[0,q]) 0`.

  Each piece is a composition of pointwise operations, one matrix product and two broadcasts.
  The pointwise operations read entrywise by definition; a product's entry is the sum over its one
  contracted axis, re-indexed by that axis's coordinate; the bias row reads its column and the
  zero splat reads zero.
-/
import proofs.«415786_j61478161875137_1_alg».proof.Proof.Spec
import Idealize.ShloMosaic.Lib.Pipeline.Value
import Idealize.ShloMosaic.Lib.ValueIdx
import Idealize.ShloMosaic.PureOps.Ideal.Laws

noncomputable section

namespace Cert.Spec

open Idealize.ShloMosaic Idealize.ShloMosaic.ValueIdx Cert.ReferenceIdeal Cert.ReferenceIdeal.Facts₀ Cert.ReferenceIdeal.Facts

/-! ### The product `[800000, 8] · [8, 64]` at an entry -/

theorem lhs_e64_0 (i : S800000x64.Idx) (q : dot_S800000x8_S8x64_S800000x64_1_0_0_1_n_n.contr.Idx) :
    (dot_S800000x8_S8x64_S800000x64_1_0_0_1_n_n.lhsIdx i q 0).val = (i 0).val := by
  unfold DotDims.lhsIdx
  rw [dif_neg (show ¬(0 : Fin S800000x8.rank) ∈ dot_S800000x8_S8x64_S800000x64_1_0_0_1_n_n.lhsBatch by decide), dif_pos (show (0 : Fin S800000x8.rank) ∈ dot_S800000x8_S8x64_S800000x64_1_0_0_1_n_n.lhsNonContracting by decide)]
  rfl
theorem lhs_e64_1 (i : S800000x64.Idx) (q : dot_S800000x8_S8x64_S800000x64_1_0_0_1_n_n.contr.Idx) :
    (dot_S800000x8_S8x64_S800000x64_1_0_0_1_n_n.lhsIdx i q 1).val = (q ⟨0, by decide⟩).val :=
  dot_S800000x8_S8x64_S800000x64_1_0_0_1_n_n.lhsIdx_val_of_single rfl i q
theorem rhs_e64_0 (i : S800000x64.Idx) (q : dot_S800000x8_S8x64_S800000x64_1_0_0_1_n_n.contr.Idx) :
    (dot_S800000x8_S8x64_S800000x64_1_0_0_1_n_n.rhsIdx i q 0).val = (q ⟨0, by decide⟩).val :=
  dot_S800000x8_S8x64_S800000x64_1_0_0_1_n_n.rhsIdx_val_of_single rfl i q
theorem rhs_e64_1 (i : S800000x64.Idx) (q : dot_S800000x8_S8x64_S800000x64_1_0_0_1_n_n.contr.Idx) :
    (dot_S800000x8_S8x64_S800000x64_1_0_0_1_n_n.rhsIdx i q 1).val = (i 1).val := by
  unfold DotDims.rhsIdx
  rw [dif_neg (show ¬(1 : Fin S8x64.rank) ∈ dot_S800000x8_S8x64_S800000x64_1_0_0_1_n_n.rhsBatch by decide), dif_pos (show (1 : Fin S8x64.rank) ∈ dot_S800000x8_S8x64_S800000x64_1_0_0_1_n_n.rhsNonContracting by decide)]
  rfl

/-- Entry `(r, q)` of the product is `Σ_k a[r,k] · b[k,q]`. -/
theorem dot_e64_apply (a : FVec Ideal S800000x8 .f32) (b : FVec Ideal S8x64 .f32) (r : Fin 800000) (q : Fin 64) :
    Host.dotGeneral (F := Ideal) dot_S800000x8_S8x64_S800000x64_1_0_0_1_n_n none a b (ix2 r q) = ∑ k : Fin 8, a (ix2 r k) * b (ix2 k q) := by
  simp only [Host.dotGeneral]
  rw [Ideal.dotGeneral_apply, ← Equiv.sum_comp (ValueIdx.contrEquiv1 dot_S800000x8_S8x64_S800000x64_1_0_0_1_n_n 8 rfl rfl).symm]
  refine Finset.sum_congr rfl fun k _ => ?_
  have hk := ValueIdx.contrEquiv1_symm_val dot_S800000x8_S8x64_S800000x64_1_0_0_1_n_n 8 rfl rfl k
  have el : dot_S800000x8_S8x64_S800000x64_1_0_0_1_n_n.lhsIdx (ix2 r q) ((ValueIdx.contrEquiv1 dot_S800000x8_S8x64_S800000x64_1_0_0_1_n_n 8 rfl rfl).symm k) = ix2 r k := funext fun c => Fin.ext (by
    match c with
    | ⟨0, _⟩ => exact lhs_e64_0 _ _
    | ⟨1, _⟩ => exact (lhs_e64_1 _ _).trans hk)
  have er : dot_S800000x8_S8x64_S800000x64_1_0_0_1_n_n.rhsIdx (ix2 r q) ((ValueIdx.contrEquiv1 dot_S800000x8_S8x64_S800000x64_1_0_0_1_n_n 8 rfl rfl).symm k) = ix2 k q := funext fun c => Fin.ext (by
    match c with
    | ⟨0, _⟩ => exact (rhs_e64_0 _ _).trans hk
    | ⟨1, _⟩ => exact rhs_e64_1 _ _)
  rw [el, er]

/-- A bias row spread over 800000 rows reads its column. -/
theorem bias_e64_apply (b1 : FVec Ideal S1x64 .f32) (r : Fin 800000) (q : Fin 64) :
    broadcastInDim S800000x64 ![0, 1] bcast_S1x64_S800000x64_0_1 b1 (ix2 r q) = b1 (ix2 (0 : Fin 1) q) :=
  broadcastInDim_apply _ bcast_S1x64_S800000x64_0_1 b1 (ix2 r q) (ix2 (0 : Fin 1) q) (fun c => match c with
    | ⟨0, _⟩ => by show 0 = if (1 : Nat) = 1 then 0 else r.val; rw [if_pos rfl]
    | ⟨1, _⟩ => by show q.val = if (64 : Nat) = 1 then 0 else q.val; rw [if_neg (by decide)])

/-- The zero splat reads zero. -/
theorem zero_e64_apply (i : S800000x64.Idx) :
    broadcastInDim S800000x64 ![] bcast_S_S800000x64 (constant (F := Ideal) S_ .f32 0x00000000#32) i = 0 := by
  rw [broadcastInDim_apply _ bcast_S_S800000x64 (constant (F := Ideal) S_ .f32 0x00000000#32) i ix0 (fun c => c.elim0),
    constant_apply, Ideal.ofBits_zero_f32]

theorem edge64_apply (xs : FVec Ideal S800000x64 .f32) (ea : FVec Ideal S800000x8 .f32) (We : FVec Ideal S8x64 .f32)
    (be1 : FVec Ideal S1x64 .f32) (r : Fin 800000) (q : Fin 64) :
    edge64 (F := Ideal) xs ea We be1 (ix2 r q)
      = max (xs (ix2 r q) + ((∑ k : Fin 8, ea (ix2 r k) * We (ix2 k q)) + be1 (ix2 (0 : Fin 1) q))) 0 := by
  unfold edge64
  rw [maximumf_apply, addf_apply, addf_apply, dot_e64_apply, bias_e64_apply, zero_e64_apply]

/-! ### The product `[800000, 8] · [8, 128]` at an entry -/

theorem lhs_e128_0 (i : S800000x128.Idx) (q : dot_S800000x8_S8x128_S800000x128_1_0_0_1_n_n.contr.Idx) :
    (dot_S800000x8_S8x128_S800000x128_1_0_0_1_n_n.lhsIdx i q 0).val = (i 0).val := by
  unfold DotDims.lhsIdx
  rw [dif_neg (show ¬(0 : Fin S800000x8.rank) ∈ dot_S800000x8_S8x128_S800000x128_1_0_0_1_n_n.lhsBatch by decide), dif_pos (show (0 : Fin S800000x8.rank) ∈ dot_S800000x8_S8x128_S800000x128_1_0_0_1_n_n.lhsNonContracting by decide)]
  rfl
theorem lhs_e128_1 (i : S800000x128.Idx) (q : dot_S800000x8_S8x128_S800000x128_1_0_0_1_n_n.contr.Idx) :
    (dot_S800000x8_S8x128_S800000x128_1_0_0_1_n_n.lhsIdx i q 1).val = (q ⟨0, by decide⟩).val :=
  dot_S800000x8_S8x128_S800000x128_1_0_0_1_n_n.lhsIdx_val_of_single rfl i q
theorem rhs_e128_0 (i : S800000x128.Idx) (q : dot_S800000x8_S8x128_S800000x128_1_0_0_1_n_n.contr.Idx) :
    (dot_S800000x8_S8x128_S800000x128_1_0_0_1_n_n.rhsIdx i q 0).val = (q ⟨0, by decide⟩).val :=
  dot_S800000x8_S8x128_S800000x128_1_0_0_1_n_n.rhsIdx_val_of_single rfl i q
theorem rhs_e128_1 (i : S800000x128.Idx) (q : dot_S800000x8_S8x128_S800000x128_1_0_0_1_n_n.contr.Idx) :
    (dot_S800000x8_S8x128_S800000x128_1_0_0_1_n_n.rhsIdx i q 1).val = (i 1).val := by
  unfold DotDims.rhsIdx
  rw [dif_neg (show ¬(1 : Fin S8x128.rank) ∈ dot_S800000x8_S8x128_S800000x128_1_0_0_1_n_n.rhsBatch by decide), dif_pos (show (1 : Fin S8x128.rank) ∈ dot_S800000x8_S8x128_S800000x128_1_0_0_1_n_n.rhsNonContracting by decide)]
  rfl

/-- Entry `(r, q)` of the product is `Σ_k a[r,k] · b[k,q]`. -/
theorem dot_e128_apply (a : FVec Ideal S800000x8 .f32) (b : FVec Ideal S8x128 .f32) (r : Fin 800000) (q : Fin 128) :
    Host.dotGeneral (F := Ideal) dot_S800000x8_S8x128_S800000x128_1_0_0_1_n_n none a b (ix2 r q) = ∑ k : Fin 8, a (ix2 r k) * b (ix2 k q) := by
  simp only [Host.dotGeneral]
  rw [Ideal.dotGeneral_apply, ← Equiv.sum_comp (ValueIdx.contrEquiv1 dot_S800000x8_S8x128_S800000x128_1_0_0_1_n_n 8 rfl rfl).symm]
  refine Finset.sum_congr rfl fun k _ => ?_
  have hk := ValueIdx.contrEquiv1_symm_val dot_S800000x8_S8x128_S800000x128_1_0_0_1_n_n 8 rfl rfl k
  have el : dot_S800000x8_S8x128_S800000x128_1_0_0_1_n_n.lhsIdx (ix2 r q) ((ValueIdx.contrEquiv1 dot_S800000x8_S8x128_S800000x128_1_0_0_1_n_n 8 rfl rfl).symm k) = ix2 r k := funext fun c => Fin.ext (by
    match c with
    | ⟨0, _⟩ => exact lhs_e128_0 _ _
    | ⟨1, _⟩ => exact (lhs_e128_1 _ _).trans hk)
  have er : dot_S800000x8_S8x128_S800000x128_1_0_0_1_n_n.rhsIdx (ix2 r q) ((ValueIdx.contrEquiv1 dot_S800000x8_S8x128_S800000x128_1_0_0_1_n_n 8 rfl rfl).symm k) = ix2 k q := funext fun c => Fin.ext (by
    match c with
    | ⟨0, _⟩ => exact (rhs_e128_0 _ _).trans hk
    | ⟨1, _⟩ => exact rhs_e128_1 _ _)
  rw [el, er]

/-- A bias row spread over 800000 rows reads its column. -/
theorem bias_e128_apply (b1 : FVec Ideal S1x128 .f32) (r : Fin 800000) (q : Fin 128) :
    broadcastInDim S800000x128 ![0, 1] bcast_S1x128_S800000x128_0_1 b1 (ix2 r q) = b1 (ix2 (0 : Fin 1) q) :=
  broadcastInDim_apply _ bcast_S1x128_S800000x128_0_1 b1 (ix2 r q) (ix2 (0 : Fin 1) q) (fun c => match c with
    | ⟨0, _⟩ => by show 0 = if (1 : Nat) = 1 then 0 else r.val; rw [if_pos rfl]
    | ⟨1, _⟩ => by show q.val = if (128 : Nat) = 1 then 0 else q.val; rw [if_neg (by decide)])

/-- The zero splat reads zero. -/
theorem zero_e128_apply (i : S800000x128.Idx) :
    broadcastInDim S800000x128 ![] bcast_S_S800000x128 (constant (F := Ideal) S_ .f32 0x00000000#32) i = 0 := by
  rw [broadcastInDim_apply _ bcast_S_S800000x128 (constant (F := Ideal) S_ .f32 0x00000000#32) i ix0 (fun c => c.elim0),
    constant_apply, Ideal.ofBits_zero_f32]

theorem edge128_apply (xs : FVec Ideal S800000x128 .f32) (ea : FVec Ideal S800000x8 .f32) (We : FVec Ideal S8x128 .f32)
    (be1 : FVec Ideal S1x128 .f32) (r : Fin 800000) (q : Fin 128) :
    edge128 (F := Ideal) xs ea We be1 (ix2 r q)
      = max (xs (ix2 r q) + ((∑ k : Fin 8, ea (ix2 r k) * We (ix2 k q)) + be1 (ix2 (0 : Fin 1) q))) 0 := by
  unfold edge128
  rw [maximumf_apply, addf_apply, addf_apply, dot_e128_apply, bias_e128_apply, zero_e128_apply]

/-! ### The product `[50000, 64] · [64, 128]` at an entry -/

theorem lhs_n64_0 (i : S50000x128.Idx) (q : dot_S50000x64_S64x128_S50000x128_1_0_0_1_n_n.contr.Idx) :
    (dot_S50000x64_S64x128_S50000x128_1_0_0_1_n_n.lhsIdx i q 0).val = (i 0).val := by
  unfold DotDims.lhsIdx
  rw [dif_neg (show ¬(0 : Fin S50000x64.rank) ∈ dot_S50000x64_S64x128_S50000x128_1_0_0_1_n_n.lhsBatch by decide), dif_pos (show (0 : Fin S50000x64.rank) ∈ dot_S50000x64_S64x128_S50000x128_1_0_0_1_n_n.lhsNonContracting by decide)]
  rfl
theorem lhs_n64_1 (i : S50000x128.Idx) (q : dot_S50000x64_S64x128_S50000x128_1_0_0_1_n_n.contr.Idx) :
    (dot_S50000x64_S64x128_S50000x128_1_0_0_1_n_n.lhsIdx i q 1).val = (q ⟨0, by decide⟩).val :=
  dot_S50000x64_S64x128_S50000x128_1_0_0_1_n_n.lhsIdx_val_of_single rfl i q
theorem rhs_n64_0 (i : S50000x128.Idx) (q : dot_S50000x64_S64x128_S50000x128_1_0_0_1_n_n.contr.Idx) :
    (dot_S50000x64_S64x128_S50000x128_1_0_0_1_n_n.rhsIdx i q 0).val = (q ⟨0, by decide⟩).val :=
  dot_S50000x64_S64x128_S50000x128_1_0_0_1_n_n.rhsIdx_val_of_single rfl i q
theorem rhs_n64_1 (i : S50000x128.Idx) (q : dot_S50000x64_S64x128_S50000x128_1_0_0_1_n_n.contr.Idx) :
    (dot_S50000x64_S64x128_S50000x128_1_0_0_1_n_n.rhsIdx i q 1).val = (i 1).val := by
  unfold DotDims.rhsIdx
  rw [dif_neg (show ¬(1 : Fin S64x128.rank) ∈ dot_S50000x64_S64x128_S50000x128_1_0_0_1_n_n.rhsBatch by decide), dif_pos (show (1 : Fin S64x128.rank) ∈ dot_S50000x64_S64x128_S50000x128_1_0_0_1_n_n.rhsNonContracting by decide)]
  rfl

/-- Entry `(r, q)` of the product is `Σ_k a[r,k] · b[k,q]`. -/
theorem dot_n64_apply (a : FVec Ideal S50000x64 .f32) (b : FVec Ideal S64x128 .f32) (r : Fin 50000) (q : Fin 128) :
    Host.dotGeneral (F := Ideal) dot_S50000x64_S64x128_S50000x128_1_0_0_1_n_n none a b (ix2 r q) = ∑ k : Fin 64, a (ix2 r k) * b (ix2 k q) := by
  simp only [Host.dotGeneral]
  rw [Ideal.dotGeneral_apply, ← Equiv.sum_comp (ValueIdx.contrEquiv1 dot_S50000x64_S64x128_S50000x128_1_0_0_1_n_n 64 rfl rfl).symm]
  refine Finset.sum_congr rfl fun k _ => ?_
  have hk := ValueIdx.contrEquiv1_symm_val dot_S50000x64_S64x128_S50000x128_1_0_0_1_n_n 64 rfl rfl k
  have el : dot_S50000x64_S64x128_S50000x128_1_0_0_1_n_n.lhsIdx (ix2 r q) ((ValueIdx.contrEquiv1 dot_S50000x64_S64x128_S50000x128_1_0_0_1_n_n 64 rfl rfl).symm k) = ix2 r k := funext fun c => Fin.ext (by
    match c with
    | ⟨0, _⟩ => exact lhs_n64_0 _ _
    | ⟨1, _⟩ => exact (lhs_n64_1 _ _).trans hk)
  have er : dot_S50000x64_S64x128_S50000x128_1_0_0_1_n_n.rhsIdx (ix2 r q) ((ValueIdx.contrEquiv1 dot_S50000x64_S64x128_S50000x128_1_0_0_1_n_n 64 rfl rfl).symm k) = ix2 k q := funext fun c => Fin.ext (by
    match c with
    | ⟨0, _⟩ => exact (rhs_n64_0 _ _).trans hk
    | ⟨1, _⟩ => exact rhs_n64_1 _ _)
  rw [el, er]

/-- A bias row spread over 50000 rows reads its column. -/
theorem bias_n_apply (b1 : FVec Ideal S1x128 .f32) (r : Fin 50000) (q : Fin 128) :
    broadcastInDim S50000x128 ![0, 1] bcast_S1x128_S50000x128_0_1 b1 (ix2 r q) = b1 (ix2 (0 : Fin 1) q) :=
  broadcastInDim_apply _ bcast_S1x128_S50000x128_0_1 b1 (ix2 r q) (ix2 (0 : Fin 1) q) (fun c => match c with
    | ⟨0, _⟩ => by show 0 = if (1 : Nat) = 1 then 0 else r.val; rw [if_pos rfl]
    | ⟨1, _⟩ => by show q.val = if (128 : Nat) = 1 then 0 else q.val; rw [if_neg (by decide)])

/-- The zero splat reads zero. -/
theorem zero_n_apply (i : S50000x128.Idx) :
    broadcastInDim S50000x128 ![] bcast_S_S50000x128 (constant (F := Ideal) S_ .f32 0x00000000#32) i = 0 := by
  rw [broadcastInDim_apply _ bcast_S_S50000x128 (constant (F := Ideal) S_ .f32 0x00000000#32) i ix0 (fun c => c.elim0),
    constant_apply, Ideal.ofBits_zero_f32]

theorem node64_apply (x agg : FVec Ideal S50000x64 .f32) (W : FVec Ideal S64x128 .f32) (b1 : FVec Ideal S1x128 .f32)
    (r : Fin 50000) (q : Fin 128) :
    node64 (F := Ideal) x agg W b1 (ix2 r q)
      = max ((∑ k : Fin 64, (x (ix2 r k) + agg (ix2 r k)) * W (ix2 k q)) + b1 (ix2 (0 : Fin 1) q)) 0 := by
  unfold node64
  rw [maximumf_apply, addf_apply, dot_n64_apply, bias_n_apply, zero_n_apply]
  simp only [addf_apply]

/-! ### The product `[50000, 128] · [128, 128]` at an entry -/

theorem lhs_n128_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_n128_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_n128_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_n128_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- Entry `(r, q)` of the product is `Σ_k a[r,k] · b[k,q]`. -/
theorem dot_n128_apply (a : FVec Ideal S50000x128 .f32) (b : FVec Ideal S128x128 .f32) (r : Fin 50000) (q : Fin 128) :
    Host.dotGeneral (F := Ideal) dot_S50000x128_S128x128_S50000x128_1_0_0_1_n_n none a b (ix2 r q) = ∑ k : Fin 128, a (ix2 r k) * b (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r q) ((ValueIdx.contrEquiv1 dot_S50000x128_S128x128_S50000x128_1_0_0_1_n_n 128 rfl rfl).symm k) = ix2 r k := funext fun c => Fin.ext (by
    match c with
    | ⟨0, _⟩ => exact lhs_n128_0 _ _
    | ⟨1, _⟩ => exact (lhs_n128_1 _ _).trans hk)
  have er : dot_S50000x128_S128x128_S50000x128_1_0_0_1_n_n.rhsIdx (ix2 r q) ((ValueIdx.contrEquiv1 dot_S50000x128_S128x128_S50000x128_1_0_0_1_n_n 128 rfl rfl).symm k) = ix2 k q := funext fun c => Fin.ext (by
    match c with
    | ⟨0, _⟩ => exact (rhs_n128_0 _ _).trans hk
    | ⟨1, _⟩ => exact rhs_n128_1 _ _)
  rw [el, er]

theorem node128_apply (x agg : FVec Ideal S50000x128 .f32) (W : FVec Ideal S128x128 .f32) (b1 : FVec Ideal S1x128 .f32)
    (r : Fin 50000) (q : Fin 128) :
    node128 (F := Ideal) x agg W b1 (ix2 r q)
      = max ((∑ k : Fin 128, (x (ix2 r k) + agg (ix2 r k)) * W (ix2 k q)) + b1 (ix2 (0 : Fin 1) q)) 0 := by
  unfold node128
  rw [maximumf_apply, addf_apply, dot_n128_apply, bias_n_apply, zero_n_apply]
  simp only [addf_apply]

end Cert.Spec

end
-- ==== Proof.Reg0.lean ====
/-
  The first edge-message region.  Its 200 grid points each take a block of 4000 consecutive edges: the
  rows of the gathered source features, the rows of the edge attributes, the whole projection
  `We` and the whole bias row, and leave `relu(xs + (ea · We + be))` for those rows.  Row `r` of the
  result depends only on row `r` of the row-blocked operands, so block `t` of the dense piece
  `edge64` is the block the point `t` writes; the 200 blocks tile the 800000 rows, so the array the
  region leaves is `edge64` of the arrays it found.
-/
import proofs.«415786_j61478161875137_1_alg».proof.Proof.Gen.KernelIdeal.Frame
import proofs.«415786_j61478161875137_1_alg».proof.Proof.SpecApply
import Idealize.ShloMosaic.Lib.Pipeline.Value
import Idealize.ShloMosaic.Lib.ValueIdx
import Idealize.ShloMosaic.PureOps.Ideal.Laws
import Idealize.ShloMosaic.PureOps.Ideal

set_option maxRecDepth 16384

noncomputable section

namespace Cert.KernelIdeal.Net

open Idealize.ShloMosaic Idealize.ShloMosaic.TcCoe Idealize.SL.Sem
open Cert.KernelIdeal Cert.KernelIdeal.Gen
open Idealize.ShloMosaic.ValueIdx

/-! ## One block: the body's result at row `r`, column `q` -/

/-- The contraction's left operand is read at the output's row … -/
theorem reg0_lhs_0 (i : S4000x64.Idx) (q : dot_S4000x8_S8x64_S4000x64_1_0_0_1_n_n.contr.Idx) :
    (dot_S4000x8_S8x64_S4000x64_1_0_0_1_n_n.lhsIdx i q 0).val = (i 0).val := by
  unfold DotDims.lhsIdx
  rw [dif_neg (show ¬(0 : Fin S4000x8.rank) ∈ dot_S4000x8_S8x64_S4000x64_1_0_0_1_n_n.lhsBatch by decide), dif_pos (show (0 : Fin S4000x8.rank) ∈ dot_S4000x8_S8x64_S4000x64_1_0_0_1_n_n.lhsNonContracting by decide)]
  rfl
/-- … and the contracted coordinate; -/
theorem reg0_lhs_1 (i : S4000x64.Idx) (q : dot_S4000x8_S8x64_S4000x64_1_0_0_1_n_n.contr.Idx) :
    (dot_S4000x8_S8x64_S4000x64_1_0_0_1_n_n.lhsIdx i q 1).val = (q ⟨0, by decide⟩).val :=
  dot_S4000x8_S8x64_S4000x64_1_0_0_1_n_n.lhsIdx_val_of_single rfl i q
/-- the right operand at the contracted coordinate … -/
theorem reg0_rhs_0 (i : S4000x64.Idx) (q : dot_S4000x8_S8x64_S4000x64_1_0_0_1_n_n.contr.Idx) :
    (dot_S4000x8_S8x64_S4000x64_1_0_0_1_n_n.rhsIdx i q 0).val = (q ⟨0, by decide⟩).val :=
  dot_S4000x8_S8x64_S4000x64_1_0_0_1_n_n.rhsIdx_val_of_single rfl i q
/-- … and the output's column. -/
theorem reg0_rhs_1 (i : S4000x64.Idx) (q : dot_S4000x8_S8x64_S4000x64_1_0_0_1_n_n.contr.Idx) :
    (dot_S4000x8_S8x64_S4000x64_1_0_0_1_n_n.rhsIdx i q 1).val = (i 1).val := by
  unfold DotDims.rhsIdx
  rw [dif_neg (show ¬(1 : Fin S8x64.rank) ∈ dot_S4000x8_S8x64_S4000x64_1_0_0_1_n_n.rhsBatch by decide), dif_pos (show (1 : Fin S8x64.rank) ∈ dot_S4000x8_S8x64_S4000x64_1_0_0_1_n_n.rhsNonContracting by decide)]
  rfl

/-- The block product `ea · We` at row `r`, column `q`: the sum over the 8 attributes. -/
theorem reg0_block_dot (x1 : Vec Ideal S4000x8 .f32) (x2 : Vec Ideal S8x64 .f32) (r : Fin 4000) (q : Fin 64) :
    matmul dot_S4000x8_S8x64_S4000x64_1_0_0_1_n_n none (truncf .bf16 x1 bitsLt_bf16_f32) (truncf .bf16 x2 bitsLt_bf16_f32)
        (constant (F := Ideal) S4000x64 .f32 0x00000000#32) (ix2 r q)
      = ∑ k : Fin 8, x1 (ix2 r k) * x2 (ix2 k q) := by
  show FloatOps.matmul _ _ _ _ (constant (F := Ideal) S4000x64 .f32 0x00000000#32) _ = _
  rw [Ideal.matmul_constant_zero_apply, ← Equiv.sum_comp (contrEquiv1 dot_S4000x8_S8x64_S4000x64_1_0_0_1_n_n 8 rfl rfl).symm]
  refine Finset.sum_congr rfl fun k _ => ?_
  have hk := contrEquiv1_symm_val dot_S4000x8_S8x64_S4000x64_1_0_0_1_n_n 8 rfl rfl k
  have el : dot_S4000x8_S8x64_S4000x64_1_0_0_1_n_n.lhsIdx (ix2 r q) ((contrEquiv1 dot_S4000x8_S8x64_S4000x64_1_0_0_1_n_n 8 rfl rfl).symm k) = ix2 r k := funext fun a => Fin.ext (by
    match a with
    | ⟨0, _⟩ => exact reg0_lhs_0 _ _
    | ⟨1, _⟩ => exact (reg0_lhs_1 _ _).trans hk)
  have er : dot_S4000x8_S8x64_S4000x64_1_0_0_1_n_n.rhsIdx (ix2 r q) ((contrEquiv1 dot_S4000x8_S8x64_S4000x64_1_0_0_1_n_n 8 rfl rfl).symm k) = ix2 k q := funext fun a => Fin.ext (by
    match a with
    | ⟨0, _⟩ => exact (reg0_rhs_0 _ _).trans hk
    | ⟨1, _⟩ => exact reg0_rhs_1 _ _)
  rw [truncf_apply, truncf_apply, el, er]

/-- The bias row spread over the block's rows reads the row's column. -/
theorem reg0_block_bias (x3 : Vec Ideal S1x64 .f32) (r : Fin 4000) (q : Fin 64) :
    broadcastTo S4000x64 x3 broadcasts_S1x64_S4000x64 (ix2 r q) = x3 (ix2 (0 : Fin 1) q) :=
  broadcastTo_apply x3 broadcasts_S1x64_S4000x64 (ix2 r q) (ix2 (0 : Fin 1) q) (fun a => by
    match a with
    | ⟨0, _⟩ => rfl
    | ⟨1, _⟩ => rfl)

/-- The body's result on a block, entry by entry. -/
theorem reg0_block_apply (x0 : Vec Ideal S4000x64 .f32) (x1 : Vec Ideal S4000x8 .f32) (x2 : Vec Ideal S8x64 .f32)
    (x3 : Vec Ideal S1x64 .f32) (r : Fin 4000) (q : Fin 64) :
    k0_pay1 x0 x1 x2 x3 (ix2 r q)
      = max (x0 (ix2 r q) + ((∑ k : Fin 8, x1 (ix2 r k) * x2 (ix2 k q)) + x3 (ix2 (0 : Fin 1) q))) 0 := by
  unfold k0_pay1
  rw [maximumf_apply, addf_apply, addf_apply, broadcast_apply, shapeCast_self, shapeCast_self, reg0_block_dot,
    reg0_block_bias]
  show max _ (Ideal.ofBits .f32 0x00000000#32) = _
  rw [Ideal.ofBits_zero_f32]

/-! ## One block against the dense piece -/

/-- A block of 4000 rows whose operands are the rows `i 0` of the row-blocked arrays and the whole of
    the projection and the bias: the body's result at `j` is the dense piece at `i`, the same column. -/
theorem reg0_block_eq (xs : FVec Ideal S800000x64 .f32) (ea : FVec Ideal S800000x8 .f32) (We : FVec Ideal S8x64 .f32)
    (be1 : FVec Ideal S1x64 .f32) (x0 : Vec Ideal S4000x64 .f32) (x1 : Vec Ideal S4000x8 .f32) (x2 : Vec Ideal S8x64 .f32)
    (x3 : Vec Ideal S1x64 .f32) (j : S4000x64.Idx) (i : S800000x64.Idx) (hi : (i 1).val = (j 1).val)
    (h0 : ∀ q : Fin 64, x0 (ix2 (j 0) q) = xs (ix2 (i 0) q))
    (h1 : ∀ k : Fin 8, x1 (ix2 (j 0) k) = ea (ix2 (i 0) k))
    (h2 : ∀ y : S8x64.Idx, x2 y = We y) (h3 : ∀ y : S1x64.Idx, x3 y = be1 y) :
    k0_pay1 x0 x1 x2 x3 j = Cert.Spec.edge64 (F := Ideal) xs ea We be1 i := by
  obtain ⟨r, q, rfl⟩ : ∃ (r : Fin 4000) (q : Fin 64), j = ix2 r q := ⟨j 0, j 1, eq_ix2 j⟩
  obtain ⟨R, Q, rfl⟩ : ∃ (R : Fin 800000) (Q : Fin 64), i = ix2 R Q := ⟨i 0, i 1, eq_ix2 i⟩
  obtain rfl : Q = q := Fin.ext hi
  have h0' : ∀ q' : Fin 64, x0 (ix2 r q') = xs (ix2 R q') := h0
  have h1' : ∀ k : Fin 8, x1 (ix2 r k) = ea (ix2 R k) := h1
  rw [reg0_block_apply, Cert.Spec.edge64_apply, h0', h3]
  simp only [h1', h2]

/-! ## The blocks against the array -/

variable (V : (c : Dev nD) → (b : Ref sig .tc) → Buf (Elt Ideal) ((c : Thread nD τ).loc b))

theorem reg0_zero_offsets : (![0, 0] : Fin 2 → Nat) = fun _ => 0 :=
  funext fun a => by match a with | ⟨0, _⟩ => rfl | ⟨1, _⟩ => rfl

/-- The index maps over the grid: point `t` takes row block `t` of the three row-blocked arrays and
    the one block of the projection and of the bias. -/
theorem reg0_index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the dense piece of the arrays the region found. -/
theorem reg0_flushed (c : Dev nD) (t : Fin cfg0.N) :
    (dat0 (F := Ideal) V c).flushed 4 t = ((cfg0.win 4).blk t).view.read (Elt Ideal)
      (Cert.Spec.edge64 (F := Ideal) (V c main_v4) (V c main_arg2) (V c main_arg6) (V c main_v5)) := by
  show (cfg0.win 4).cut (grid0.coords t) ((dat0 V c).after 4 t) = _
  rw [after0_4]
  unfold out0_4
  rw [View.canon_unit_zero reg0_zero_offsets]
  simp only [View.ld_unit_zero (S := S4000x64) reg0_zero_offsets, View.ld_unit_zero (S := S4000x8) reg0_zero_offsets,
    View.ld_unit_zero (S := S8x64) reg0_zero_offsets, View.ld_unit_zero (S := S1x64) reg0_zero_offsets]
  obtain ⟨e00, e01, e10, e11, e20, e21, e30, e31, e40, e41⟩ := reg0_index_maps t
  funext j
  refine reg0_block_eq (V c main_v4) (V c main_arg2) (V c main_arg6) (V c main_v5) (iblk0 V c 0 t) (iblk0 V c 1 t)
    (iblk0 V c 2 t) (iblk0 V c 3 t) j (((cfg0.win 4).blk t).view.emb j) ?_ ?_ ?_ ?_ ?_
  · show win0_4.index t (1 : Fin 2) * 64 + 1 * (j 1).val = (j 1).val
    omega
  · intro q
    show V c main_v4 (((cfg0.win 0).blk t).view.emb (ix2 (j 0) q)) = V c main_v4 (ix2 ((((cfg0.win 4).blk t).view.emb j) 0) q)
    refine congrArg (V c main_v4) (funext fun a => Fin.ext ?_)
    match a with
    | ⟨0, _⟩ => show win0_0.index t (0 : Fin 2) * 4000 + 1 * (j 0).val = win0_4.index t (0 : Fin 2) * 4000 + 1 * (j 0).val; omega
    | ⟨1, _⟩ => show win0_0.index t (1 : Fin 2) * 64 + 1 * q.val = q.val; omega
  · intro k
    show V c main_arg2 (((cfg0.win 1).blk t).view.emb (ix2 (j 0) k)) = V c main_arg2 (ix2 ((((cfg0.win 4).blk t).view.emb j) 0) k)
    refine congrArg (V c main_arg2) (funext fun a => Fin.ext ?_)
    match a with
    | ⟨0, _⟩ => show win0_1.index t (0 : Fin 2) * 4000 + 1 * (j 0).val = win0_4.index t (0 : Fin 2) * 4000 + 1 * (j 0).val; omega
    | ⟨1, _⟩ => show win0_1.index t (1 : Fin 2) * 8 + 1 * k.val = k.val; omega
  · intro y
    show V c main_arg6 (((cfg0.win 2).blk t).view.emb y) = V c main_arg6 y
    refine congrArg (V c main_arg6) (funext fun a => Fin.ext ?_)
    match a with
    | ⟨0, _⟩ => show win0_2.index t (0 : Fin 2) * 8 + 1 * (y 0).val = (y 0).val; omega
    | ⟨1, _⟩ => show win0_2.index t (1 : Fin 2) * 64 + 1 * (y 1).val = (y 1).val; omega
  · intro y
    show V c main_v5 (((cfg0.win 3).blk t).view.emb y) = V c main_v5 y
    refine congrArg (V c main_v5) (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega

/-- An index of the array is in point `t`'s block iff each coordinate is in the block's range on its axis. -/
theorem reg0_mem_blk (t : Fin cfg0.N) (i : S800000x64.Idx) :
    i ∈ ((cfg0.win 4).blk t).view.set ↔ ∀ a : Fin 2, win0_4.index t a * S4000x64.size a ≤ (i a).val
      ∧ (i a).val < win0_4.index t a * S4000x64.size a + S4000x64.size a := by
  show i ∈ ((View.whole main_v6).slice (win0_4.rect t)).set ↔ _
  rw [View.set_slice_whole, Rect.mem_set_unit]
  exact Iff.rfl

/-- Row `r` is in the block of point `r / 4000`: the 200 blocks tile the 800000 rows. -/
theorem reg0_cover (i : S800000x64.Idx) :
    ∃ t : Fin cfg0.N, (cfg0.win 4).flush t = true ∧ i ∈ ((cfg0.win 4).blk t).view.set := by
  have hN : cfg0.N = 200 := N_0
  have hi0 : (i 0).val < 800000 := (i 0).isLt
  have hi1 : (i 1).val < 64 := (i 1).isLt
  have hlt : (i 0).val / 4000 < cfg0.N := by rw [hN]; omega
  obtain ⟨e00, e01, e10, e11, e20, e21, e30, e31, e40, e41⟩ := reg0_index_maps ⟨(i 0).val / 4000, hlt⟩
  have e40' : win0_4.index ⟨(i 0).val / 4000, hlt⟩ (0 : Fin 2) = (i 0).val / 4000 := e40
  refine ⟨⟨(i 0).val / 4000, hlt⟩, flush0_4 _, ?_⟩
  rw [reg0_mem_blk]
  intro a
  match a with
  | ⟨0, _⟩ =>
    show win0_4.index ⟨(i 0).val / 4000, hlt⟩ (0 : Fin 2) * 4000 ≤ (i 0).val
      ∧ (i 0).val < win0_4.index ⟨(i 0).val / 4000, hlt⟩ (0 : Fin 2) * 4000 + 4000
    omega
  | ⟨1, _⟩ =>
    show win0_4.index ⟨(i 0).val / 4000, hlt⟩ (1 : Fin 2) * 64 ≤ (i 1).val
      ∧ (i 1).val < win0_4.index ⟨(i 0).val / 4000, hlt⟩ (1 : Fin 2) * 64 + 64
    omega

/-- After the region, its output array is the dense piece of the arrays the region found. -/
theorem reg0_out (c : Dev nD) :
    (dat0 (F := Ideal) V c).arrAt 4 cfg0.N
      = Cert.Spec.edge64 (F := Ideal) (V c main_v4) (V c main_arg2) (V c main_arg6) (V c main_v5) :=
  (dat0 (F := Ideal) V c).arrAt_eq_of_cover 4
    (Cert.Spec.edge64 (F := Ideal) (V c main_v4) (V c main_arg2) (V c main_arg6) (V c main_v5))
    (fun t _ => reg0_flushed V c t) reg0_cover

end Cert.KernelIdeal.Net

end
-- ==== Proof.Reg1.lean ====
/-
  Node update 64 → 128, region by blocks.  The body's payload at row `r`, column `q` of a block is
  `max (Σ_k (x[r,k] + agg[r,k]) · W[k,q] + b[0,q]) 0` of the blocks it loads, `k` over the 64 inner
  coordinates; the row blocks of 5000 nodes tile the 50000 rows, the weight and the bias are read
  whole at every point, so what each point writes back is its block of the dense node update of the
  four arrays, and the ten blocks cover the output array.
-/
import proofs.«415786_j61478161875137_1_alg».proof.Proof.Gen.KernelIdeal.Frame
import proofs.«415786_j61478161875137_1_alg».proof.Proof.SpecApply
import Idealize.ShloMosaic.Lib.Pipeline.Value
import Idealize.ShloMosaic.Lib.ValueIdx
import Idealize.ShloMosaic.PureOps.Ideal.Laws
import Idealize.ShloMosaic.PureOps.Ideal

set_option maxRecDepth 16384

noncomputable section

namespace Cert.KernelIdeal.Net

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

namespace NodeL1

/-! ## The contraction of one block: its two operand indices, axis by axis -/

theorem upd_lhs_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem upd_lhs_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem upd_rhs_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem upd_rhs_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The block's product into the zero accumulator, at row `r` and column `q`: the sum over the 64 inner coordinates. -/
theorem upd_dot_apply {φ₁ φ₂ : FTy} (a : FVec Ideal S5000x64 φ₁) (w : FVec Ideal S64x128 φ₂) (r : Fin 5000) (q : Fin 128) :
    FloatOps.matmul dot_S5000x64_S64x128_S5000x128_1_0_0_1_n_n none a w (constant S5000x128 .f32 0x00000000#32) (ix2 r q)
      = ∑ k : Fin 64, a (ix2 r k) * w (ix2 k q) := by
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 r q) ((contrEquiv1 dot_S5000x64_S64x128_S5000x128_1_0_0_1_n_n 64 rfl rfl).symm k) = ix2 r k := funext fun a => Fin.ext (by
    match a with
    | ⟨0, _⟩ => exact upd_lhs_0 _ _
    | ⟨1, _⟩ => exact (upd_lhs_1 _ _).trans hk)
  have er : dot_S5000x64_S64x128_S5000x128_1_0_0_1_n_n.rhsIdx (ix2 r q) ((contrEquiv1 dot_S5000x64_S64x128_S5000x128_1_0_0_1_n_n 64 rfl rfl).symm k) = ix2 k q := funext fun a => Fin.ext (by
    match a with
    | ⟨0, _⟩ => exact (upd_rhs_0 _ _).trans hk
    | ⟨1, _⟩ => exact upd_rhs_1 _ _)
  rw [el, er]

/-- The bias row spread over the block's rows reads the row's entry of the column. -/
theorem upd_bias_apply (v : FVec Ideal S1x128 .f32) (h : S1x128.Broadcasts S5000x128) (r : Fin 5000) (q : Fin 128) :
    broadcastTo S5000x128 v h (ix2 r q) = v (ix2 (0 : Fin 1) q) :=
  broadcastTo_apply v h (ix2 r q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The body's payload at row `r`, column `q` of the block. -/
theorem upd_pay_apply (v0 v1 : Vec Ideal S5000x64 .f32) (v5 : Vec Ideal S64x128 .f32) (v8 : Vec Ideal S1x128 .f32)
    (r : Fin 5000) (q : Fin 128) :
    k1_pay1 (F := Ideal) v0 v1 v5 v8 (ix2 r q)
      = max ((∑ k : Fin 64, (v0 (ix2 r k) + v1 (ix2 r k)) * v5 (ix2 k q)) + v8 (ix2 (0 : Fin 1) q)) 0 := by
  unfold k1_pay1
  simp only [shapeCast_self]
  rw [maximumf_apply, addf_apply, broadcast_apply, upd_bias_apply]
  refine congrArg₂ max (congrArg (· + v8 (ix2 (0 : Fin 1) q)) ?_) Ideal.ofBits_zero_f32
  exact upd_dot_apply _ _ r q

/-- One entry of a block's payload is the same entry of the dense piece of the whole arrays, once each loaded block
    agrees with its array along the row and the column that entry reads. -/
theorem upd_block (x agg : FVec Ideal S50000x64 .f32) (W : FVec Ideal S64x128 .f32) (b : FVec Ideal S1x128 .f32)
    (v0 v1 : Vec Ideal S5000x64 .f32) (v5 : Vec Ideal S64x128 .f32) (v8 : Vec Ideal S1x128 .f32)
    (r : Fin 5000) (q : Fin 128) (ri : Fin 50000)
    (h0 : ∀ k : Fin 64, v0 (ix2 r k) = x (ix2 ri k))
    (h1 : ∀ k : Fin 64, v1 (ix2 r k) = agg (ix2 ri k))
    (h5 : ∀ k : Fin 64, v5 (ix2 k q) = W (ix2 k q))
    (h8 : v8 (ix2 (0 : Fin 1) q) = b (ix2 (0 : Fin 1) q)) :
    k1_pay1 (F := Ideal) v0 v1 v5 v8 (ix2 r q) = Cert.Spec.node64 (F := Ideal) x agg W b (ix2 ri q) := by
  rw [upd_pay_apply, Cert.Spec.node64_apply]
  simp only [h0, h1, h5, h8]

/-! ## What one point writes back -/

theorem upd_origin : (![0, 0] : Fin 2 → Nat) = fun _ => 0 :=
  funext fun a => match a with | ⟨0, _⟩ => rfl | ⟨1, _⟩ => rfl

/-- The index maps over the grid: the row-blocked windows sit at block `t` of the rows, the weight and the bias at
    their one block. -/
theorem upd_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Point `t` writes back block `t` of the dense node update of the four arrays the region found. -/
theorem upd_flushed (c : Dev nD) (t : Fin cfg1.N) :
    (dat1 (F := Ideal) V c).flushed 4 t = ((cfg1.win 4).blk t).view.read (Elt Ideal)
      (Cert.Spec.node64 (F := Ideal) (V c main_arg0) (V c main_v9) (V c main_arg4) (V c main_v10)) := by
  show (cfg1.win 4).cut (grid1.coords t) ((dat1 V c).after 4 t) = _
  rw [after1_4]
  unfold out1_4
  rw [View.canon_unit_zero upd_origin]
  simp only [View.ld_unit_zero (S := S5000x64) upd_origin, View.ld_unit_zero (S := S64x128) upd_origin, View.ld_unit_zero (S := S1x128) upd_origin]
  obtain ⟨e00, e01, e10, e11, e20, e21, e30, e31, e40, e41⟩ := upd_index t
  have hN : grid1.N = 10 := N_1
  have htN : t.val < 10 := hN ▸ t.isLt
  funext j
  have hj0 : (j 0).val < 5000 := (j 0).isLt
  have hj1 : (j 1).val < 128 := (j 1).isLt
  obtain ⟨r, q, rfl⟩ : ∃ (r : Fin 5000) (q : Fin 128), j = ix2 r q :=
    ⟨⟨(j 0).val, hj0⟩, ⟨(j 1).val, hj1⟩, funext fun a => match a with | ⟨0, _⟩ => rfl | ⟨1, _⟩ => rfl⟩
  have hr : r.val < 5000 := r.isLt
  have ee : ((cfg1.win 4).blk t).view.emb (ix2 r q) = ix2 (⟨t.val * 5000 + r.val, by omega⟩ : Fin 50000) q :=
    funext fun a => Fin.ext (by
      match a with
      | ⟨0, _⟩ => show win1_4.index t (0 : Fin 2) * 5000 + 1 * r.val = t.val * 5000 + r.val; omega
      | ⟨1, _⟩ => show win1_4.index t (1 : Fin 2) * 128 + 1 * q.val = q.val; omega)
  show k1_pay1 (F := Ideal) (iblk1 V c 0 t) (iblk1 V c 1 t) (iblk1 V c 2 t) (iblk1 V c 3 t) (ix2 r q)
    = Cert.Spec.node64 (F := Ideal) (V c main_arg0) (V c main_v9) (V c main_arg4) (V c main_v10) (((cfg1.win 4).blk t).view.emb (ix2 r q))
  refine Eq.trans ?_ (congrArg (Cert.Spec.node64 (F := Ideal) (V c main_arg0) (V c main_v9) (V c main_arg4) (V c main_v10)) ee).symm
  refine upd_block (V c main_arg0) (V c main_v9) (V c main_arg4) (V c main_v10)
    (iblk1 V c 0 t) (iblk1 V c 1 t) (iblk1 V c 2 t) (iblk1 V c 3 t) r q ⟨t.val * 5000 + r.val, by omega⟩ ?_ ?_ ?_ ?_
  · intro k
    show V c main_arg0 (((cfg1.win 0).blk t).view.emb (ix2 r k)) = V c main_arg0 (ix2 (⟨t.val * 5000 + r.val, by omega⟩ : Fin 50000) k)
    refine congrArg (V c main_arg0) (funext fun a => Fin.ext ?_)
    match a with
    | ⟨0, _⟩ => show win1_0.index t (0 : Fin 2) * 5000 + 1 * r.val = t.val * 5000 + r.val; omega
    | ⟨1, _⟩ => show win1_0.index t (1 : Fin 2) * 64 + 1 * k.val = k.val; omega
  · intro k
    show V c main_v9 (((cfg1.win 1).blk t).view.emb (ix2 r k)) = V c main_v9 (ix2 (⟨t.val * 5000 + r.val, by omega⟩ : Fin 50000) k)
    refine congrArg (V c main_v9) (funext fun a => Fin.ext ?_)
    match a with
    | ⟨0, _⟩ => show win1_1.index t (0 : Fin 2) * 5000 + 1 * r.val = t.val * 5000 + r.val; omega
    | ⟨1, _⟩ => show win1_1.index t (1 : Fin 2) * 64 + 1 * k.val = k.val; omega
  · intro k
    show V c main_arg4 (((cfg1.win 2).blk t).view.emb (ix2 k q)) = V c main_arg4 (ix2 k q)
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 128 + 1 * q.val = q.val; omega
  · show V c main_v10 (((cfg1.win 3).blk t).view.emb (ix2 (0 : Fin 1) q)) = V c main_v10 (ix2 (0 : Fin 1) q)
    refine congrArg (V c main_v10) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega

/-! ## The ten blocks fill the array -/

/-- An index of the array is in point `t`'s block iff each coordinate is in the block's range on its axis. -/
theorem upd_mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v11).slice (win1_4.rect t)).set ↔ _
  rw [View.set_slice_whole, Rect.mem_set_unit]
  exact Iff.rfl

/-- Row `r` is in the block of point `r / 5000`. -/
theorem upd_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  have hlt : (i 0).val / 5000 < grid1.N := by rw [hN]; omega
  obtain ⟨t, ht⟩ : ∃ t : Fin cfg1.N, t.val = (i 0).val / 5000 := ⟨⟨(i 0).val / 5000, hlt⟩, rfl⟩
  refine ⟨t, flush1_4 t, ?_⟩
  rw [upd_mem_blk]
  obtain ⟨-, -, -, -, -, -, -, -, e40, e41⟩ := upd_index t
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

end NodeL1

/-- After the region, its output array is the dense piece of the arrays the region found. -/
theorem reg1_out (c : Dev nD) :
    (dat1 (F := Ideal) V c).arrAt 4 cfg1.N
      = Cert.Spec.node64 (F := Ideal) (V c main_arg0) (V c main_v9) (V c main_arg4) (V c main_v10) :=
  (dat1 (F := Ideal) V c).arrAt_eq_of_cover 4
    (Cert.Spec.node64 (F := Ideal) (V c main_arg0) (V c main_v9) (V c main_arg4) (V c main_v10))
    (fun t _ => NodeL1.upd_flushed V c t) NodeL1.upd_cover

end Cert.KernelIdeal.Net

end
-- ==== Proof.Walk.lean ====
import proofs.«415786_j61478161875137_1_alg».proof.Proof.Gen.KernelIdeal.Frame
import proofs.«415786_j61478161875137_1_alg».proof.Proof.Spec
import Idealize.ShloMosaic.Lib.StableHlo.Run
import Idealize.ShloMosaic.PureOps.Ideal

set_option maxRecDepth 16384

noncomputable section

namespace Cert.KernelIdeal.Net

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! Inside a layer: what a buffer holds at the boundary where it is read, walked down to where it was last known.

    Layer 1 walks to the launch memory (an argument) or to the first stretch (the two index rows: its slice and reshape
    of the edge list are the source and destination rows).  Layers 2 and 3 walk to the boundary at which the previous
    layer's node update has just finished (boundary 6, boundary 11), so the right side is the contents there: of an
    argument, of the destination row, or of the previous layer's output (written once, by that node update).

    Each lemma is one chain of equalities down the boundaries, one per segment: a stretch of host operations none of
    which writes the buffer leaves it as it was; a region leaves every buffer it does not own as it was, and an array it
    only reads (an input window) as it was entered. -/

theorem W1_main_arg0 (c : Dev nD) : W1 m ρ c (Proc.devRef .tc main_arg0) = m ((c.tc : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := rfl

theorem W1_main_v1 (c : Dev nD) : W1 m ρ c (Proc.devRef .tc main_v1) = Cert.Spec.srcOf (F := Ideal) (m ((c.tc : Thread nD τ).loc main_arg1)) :=
  calc W1 m ρ c (Proc.devRef .tc main_v1)
    _ = Cert.Spec.srcOf (F := Ideal) (m ((c.tc : Thread nD τ).loc main_arg1)) := by
          show StableHlo.after hostOps0 _ (Proc.devRef .tc main_v1) = _
          after_results
          rfl

theorem W2_main_arg7 (c : Dev nD) : W2 m ρ c (Proc.devRef .tc main_arg7) = m ((c.tc : Thread nD τ).loc main_arg7) :=
  calc W2 m ρ c (Proc.devRef .tc main_arg7)
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg7) := rfl

theorem W3_main_arg2 (c : Dev nD) : W3 m ρ c (Proc.devRef .tc main_arg2) = m ((c.tc : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

theorem W3_main_arg6 (c : Dev nD) : W3 m ρ c (Proc.devRef .tc main_arg6) = m ((c.tc : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg6) := rfl

theorem W4_main_v3 (c : Dev nD) : W4 m ρ c (Proc.devRef .tc main_v3) = Cert.Spec.dstOf (F := Ideal) (m ((c.tc : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.Spec.dstOf (F := Ideal) (m ((c.tc : Thread nD τ).loc main_arg1)) := by
          show StableHlo.after hostOps0 _ (Proc.devRef .tc main_v3) = _
          after_results
          rfl

theorem W4_main_arg5 (c : Dev nD) : W4 m ρ c (Proc.devRef .tc main_arg5) = m ((c.tc : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg5) := rfl

theorem W5_main_arg0 (c : Dev nD) : W5 m ρ c (Proc.devRef .tc main_arg0) = m ((c.tc : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := rfl

theorem W5_main_arg4 (c : Dev nD) : W5 m ρ c (Proc.devRef .tc main_arg4) = m ((c.tc : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg4) := rfl

theorem W7_from6_main_arg11 (c : Dev nD) : W7 m ρ c (Proc.devRef .tc main_arg11) = W6 m ρ c (Proc.devRef .tc main_arg11) :=
  calc W7 m ρ c (Proc.devRef .tc main_arg11)
    _ = W6 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W8_from6_main_arg2 (c : Dev nD) : W8 m ρ c (Proc.devRef .tc main_arg2) = W6 m ρ c (Proc.devRef .tc main_arg2) :=
  calc W8 m ρ c (Proc.devRef .tc main_arg2)
    _ = W7 m ρ c (Proc.devRef .tc main_arg2) := StableHlo.after_of_forall_not_mem (b := Proc.devRef .tc main_arg2) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W8_from6_main_arg10 (c : Dev nD) : W8 m ρ c (Proc.devRef .tc main_arg10) = W6 m ρ c (Proc.devRef .tc main_arg10) :=
  calc W8 m ρ c (Proc.devRef .tc main_arg10)
    _ = W7 m ρ c (Proc.devRef .tc main_arg10) := StableHlo.after_of_forall_not_mem (b := Proc.devRef .tc main_arg10) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W9_from6_main_v3 (c : Dev nD) : W9 m ρ c (Proc.devRef .tc main_v3) = W6 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W9_from6_main_arg9 (c : Dev nD) : W9 m ρ c (Proc.devRef .tc main_arg9) = W6 m ρ c (Proc.devRef .tc main_arg9) :=
  calc W9 m ρ c (Proc.devRef .tc main_arg9)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W10_from6_main_v11 (c : Dev nD) : W10 m ρ c (Proc.devRef .tc main_v11) = W6 m ρ c (Proc.devRef .tc main_v11) :=
  calc W10 m ρ c (Proc.devRef .tc main_v11)
    _ = W9 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v11) := W9_of_ne m ρ c main_v11 (by decide)
    _ = W7 m ρ c (Proc.devRef .tc main_v11) := StableHlo.after_of_forall_not_mem (b := Proc.devRef .tc main_v11) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W10_from6_main_arg8 (c : Dev nD) : W10 m ρ c (Proc.devRef .tc main_arg8) = W6 m ρ c (Proc.devRef .tc main_arg8) :=
  calc W10 m ρ c (Proc.devRef .tc main_arg8)
    _ = W9 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W12_from11_main_arg15 (c : Dev nD) : W12 m ρ c (Proc.devRef .tc main_arg15) = W11 m ρ c (Proc.devRef .tc main_arg15) :=
  calc W12 m ρ c (Proc.devRef .tc main_arg15)
    _ = W11 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W13_from11_main_arg2 (c : Dev nD) : W13 m ρ c (Proc.devRef .tc main_arg2) = W11 m ρ c (Proc.devRef .tc main_arg2) :=
  calc W13 m ρ c (Proc.devRef .tc main_arg2)
    _ = W12 m ρ c (Proc.devRef .tc main_arg2) := StableHlo.after_of_forall_not_mem (b := Proc.devRef .tc main_arg2) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W13_from11_main_arg14 (c : Dev nD) : W13 m ρ c (Proc.devRef .tc main_arg14) = W11 m ρ c (Proc.devRef .tc main_arg14) :=
  calc W13 m ρ c (Proc.devRef .tc main_arg14)
    _ = W12 m ρ c (Proc.devRef .tc main_arg14) := StableHlo.after_of_forall_not_mem (b := Proc.devRef .tc main_arg14) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W14_from11_main_v3 (c : Dev nD) : W14 m ρ c (Proc.devRef .tc main_v3) = W11 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := StableHlo.after_of_forall_not_mem (b := Proc.devRef .tc main_v3) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W14_from11_main_arg13 (c : Dev nD) : W14 m ρ c (Proc.devRef .tc main_arg13) = W11 m ρ c (Proc.devRef .tc main_arg13) :=
  calc W14 m ρ c (Proc.devRef .tc main_arg13)
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W15_from11_main_v19 (c : Dev nD) : W15 m ρ c (Proc.devRef .tc main_v19) = W11 m ρ c (Proc.devRef .tc main_v19) :=
  calc W15 m ρ c (Proc.devRef .tc main_v19)
    _ = W14 m ρ c (Proc.devRef .tc main_v19) := StableHlo.after_of_forall_not_mem (b := Proc.devRef .tc main_v19) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v19) := W14_of_ne m ρ c main_v19 (by decide)
    _ = W12 m ρ c (Proc.devRef .tc main_v19) := StableHlo.after_of_forall_not_mem (b := Proc.devRef .tc main_v19) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v19) := StableHlo.after_of_forall_not_mem (b := Proc.devRef .tc main_v19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W15_from11_main_arg12 (c : Dev nD) : W15 m ρ c (Proc.devRef .tc main_arg12) = W11 m ρ c (Proc.devRef .tc main_arg12) :=
  calc W15 m ρ c (Proc.devRef .tc main_arg12)
    _ = W14 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Net

end
-- ==== Proof.Bridge.lean ====
/-
  Small facts that tie the tiled program's host-side terms to the target function's.

  A bias vector `b : [n]` enters the tiled program as the row `[1, n]` by a reshape, and the target
  function by a broadcast along the new leading axis; both rows read `b` at the column.  The
  dimension numbers of the gathers and of the scatters are stated once per program; the two
  statements have the same fields.
-/
import proofs.«415786_j61478161875137_1_alg».proof.Proof.Gen.KernelIdeal.Frame
import proofs.«415786_j61478161875137_1_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Net

open Idealize.ShloMosaic Idealize.ShloMosaic.TcCoe Idealize.SL.Sem Idealize.ShloMosaic.ValueIdx
open Cert.KernelIdeal Cert.KernelIdeal.Gen

/-- The row `[1, 64]` a reshape makes of a vector is the row a broadcast along a new leading axis makes. -/
theorem bias64_eq (b : FVec Ideal S64 .f32) :
    shapeCast S1x64 b shapeCasts_S64_S1x64
      = broadcastInDim Cert.ReferenceIdeal.S1x64 ![1] Cert.ReferenceIdeal.Gen.bcast_S64_S1x64_1 b := by
  funext j
  have h0 : (j 0).val < 1 := (j 0).isLt
  rw [shapeCast_apply b shapeCasts_S64_S1x64 j (ix1 (j 1))
      (by rewrite [Shape.rowMajor_val_two, Shape.rowMajor_val_one]; show (j 1).val = (j 0).val * 64 + (j 1).val; omega),
    broadcastInDim_apply _ Cert.ReferenceIdeal.Gen.bcast_S64_S1x64_1 b j (ix1 (j 1)) (fun a => match a with
      | ⟨0, _⟩ => by show (j 1).val = if (64 : Nat) = 1 then 0 else (j 1).val; rw [if_neg (by decide)])]

/-- The same at width 128. -/
theorem bias128_eq (b : FVec Ideal S128 .f32) :
    shapeCast S1x128 b shapeCasts_S128_S1x128
      = broadcastInDim Cert.ReferenceIdeal.S1x128 ![1] Cert.ReferenceIdeal.Gen.bcast_S128_S1x128_1 b := by
  funext j
  have h0 : (j 0).val < 1 := (j 0).isLt
  rw [shapeCast_apply b shapeCasts_S128_S1x128 j (ix1 (j 1))
      (by rewrite [Shape.rowMajor_val_two, Shape.rowMajor_val_one]; show (j 1).val = (j 0).val * 128 + (j 1).val; omega),
    broadcastInDim_apply _ Cert.ReferenceIdeal.Gen.bcast_S128_S1x128_1 b j (ix1 (j 1)) (fun a => match a with
      | ⟨0, _⟩ => by show (j 1).val = if (128 : Nat) = 1 then 0 else (j 1).val; rw [if_neg (by decide)])]

/-! ### The dimension numbers agree -/

theorem gather64_eq : Cert.KernelIdeal.gather_S50000x64_S800000x1_S800000x64_1_0_n_n_0_1_164
    = Cert.ReferenceIdeal.gather_S50000x64_S800000x1_S800000x64_1_0_n_n_0_1_164 := rfl
theorem gather128_eq : Cert.KernelIdeal.gather_S50000x128_S800000x1_S800000x128_1_0_n_n_0_1_1128
    = Cert.ReferenceIdeal.gather_S50000x128_S800000x1_S800000x128_1_0_n_n_0_1_1128 := rfl
theorem scatter64_eq : Cert.KernelIdeal.scatter_S50000x64_S800000x1_S800000x64_1_0_0_1
    = Cert.ReferenceIdeal.scatter_S50000x64_S800000x1_S800000x64_1_0_0_1 := rfl
theorem scatter128_eq : Cert.KernelIdeal.scatter_S50000x128_S800000x1_S800000x128_1_0_0_1
    = Cert.ReferenceIdeal.scatter_S50000x128_S800000x1_S800000x128_1_0_0_1 := rfl
theorem scatterPool_eq : Cert.KernelIdeal.scatter_S256x128_S50000x1_S50000x128_1_0_0_1
    = Cert.ReferenceIdeal.scatter_S256x128_S50000x1_S50000x128_1_0_0_1 := rfl
theorem scatterCount_eq : Cert.KernelIdeal.scatter_S256_S50000x1_S50000_n_0_0_1
    = Cert.ReferenceIdeal.scatter_S256_S50000x1_S50000_n_0_0_1 := rfl

end Cert.KernelIdeal.Net

end
-- ==== Proof.Take.lean ====
/-
  The guarded take written by each of the three index-wrapping stretches is the plain gather.

  A stretch wraps the source row (`s ↦ if s < 0 then s + 50000 else s`), spreads it to a column, tests
  `0 ≤ idx ≤ 49999` row by row, reduces the test by `and`, gathers the feature rows at the column and
  selects the gathered row where the test passed, a fill elsewhere. Run from ANY buffer contents, the buffer
  the stretch writes last holds that select of the contents' feature array and source row (`take_lit*`, at
  any float type: each operation's result is read at its own buffer, and contents carried to a buffer's own
  type and back are the contents). When every source index names a node the test passes everywhere and the
  select is the gather itself (`take_stretch*`, by `take64` / `take128`); then the same at the boundary
  before each stretch (`v4_W2`, `v12_W7`, `v20_W12`).
-/
import proofs.«415786_j61478161875137_1_alg».proof.Proof.Gen.KernelIdeal.Frame
import proofs.«415786_j61478161875137_1_alg».proof.Proof.Spec
import proofs.«415786_j61478161875137_1_alg».proof.Proof.SrcDom
import Idealize.ShloMosaic.Lib.StableHlo.Run
import Idealize.ShloMosaic.PureOps.Ideal

set_option maxRecDepth 16384

noncomputable section

namespace Cert.KernelIdeal.Net

open Idealize.ShloMosaic Idealize.ShloMosaic.TcCoe Idealize.SL.Sem
open Cert.KernelIdeal Cert.KernelIdeal.Gen

/-! ### Each stretch, run from any contents -/

/-- Contents carried to a typed reference's buffer and back are the contents. -/
theorem ofBuf_toBuf {Val : EltTy → Type} {T : BufTy} (x : StableHlo.TRef sig T) (v : T.Contents Val) : x.ofBuf (x.toBuf v) = v := by
  obtain ⟨r, rfl, _, _⟩ := x; rfl

/-- The guarded take of stretch `hostOps0_1`, run from any contents: the select on the row-wise range test of the
    wrapped index column, of the gathered rows, against the fill. -/
theorem take_lit0 {F : FTy → Type} [FloatOps F] (V : Valuation τ sig (Elt F)) :
    StableHlo.after (hostOps0_1 (F := F)) V (Proc.devRef .tc main_v4)
      = select (broadcastInDim S800000x64 ![0] bcast_S800000_S800000x64_0
        (Host.reduce IntOp.andi
          (andi (cmpi .sge (Cert.Spec.idxCol (F := F) (V (Proc.devRef .tc main_v1))) (broadcastInDim S800000x1 ![] bcast_S_S800000x1 (constantI S_ 32 0#32)))
            (cmpi .sle (Cert.Spec.idxCol (F := F) (V (Proc.devRef .tc main_v1)))
              (broadcastInDim S800000x1 ![0, 1] bcast_S1x1_S800000x1_0_1 (broadcastInDim S1x1 ![1] bcast_S1_S1x1_1 (constantI S1 32 49999#32)))))
          (constantI S_ 1 1#1) reducesTo_S800000x1_S800000_d1 h_S_))
      (Host.gather gather_S50000x64_S800000x1_S800000x64_1_0_n_n_0_1_164 (V (Proc.devRef .tc main_arg0)) (Cert.Spec.idxCol (F := F) (V (Proc.devRef .tc main_v1))))
      (broadcastInDim S800000x64 ![] bcast_S_S800000x64 (constant (F := F) S_ .f32 0x7FC00000#32)) := by
  have e1 : (StableHlo.TRef.of main_v1 : StableHlo.TRef sig ⟨S800000, .i32⟩).ofBuf (V (Proc.devRef .tc main_v1)) = V (Proc.devRef .tc main_v1) := rfl
  have ex : (StableHlo.TRef.of main_arg0 : StableHlo.TRef sig ⟨S50000x64, .f32⟩).ofBuf (V (Proc.devRef .tc main_arg0)) = V (Proc.devRef .tc main_arg0) := rfl
  have ey : ∀ X : (⟨S800000x64, .f32⟩ : BufTy).Contents (Elt F), (StableHlo.TRef.of main_v4 : StableHlo.TRef sig ⟨S800000x64, .f32⟩).toBuf X = X := fun _ => rfl
  after_results_simp
  simp only [ofBuf_toBuf]
  rw [ey, e1, ex]
  unfold Cert.Spec.idxCol
  with_reducible rfl

/-- With every source index a node index, that stretch leaves the plain gather at the wrapped index column. -/
theorem take_stretch0 (V : Valuation τ sig (Elt Ideal)) (hs : SrcOk (V (Proc.devRef .tc main_v1))) :
    StableHlo.after (hostOps0_1 (F := Ideal)) V (Proc.devRef .tc main_v4)
      = Host.gather Cert.ReferenceIdeal.gather_S50000x64_S800000x1_S800000x64_1_0_n_n_0_1_164 (V (Proc.devRef .tc main_arg0))
          (Cert.Spec.idxCol (F := Ideal) (V (Proc.devRef .tc main_v1))) :=
  (take_lit0 V).trans (take64 _ hs _)

/-- The guarded take of stretch `hostOps2`, run from any contents: the select on the row-wise range test of the
    wrapped index column, of the gathered rows, against the fill. -/
theorem take_lit2 {F : FTy → Type} [FloatOps F] (V : Valuation τ sig (Elt F)) :
    StableHlo.after (hostOps2 (F := F)) V (Proc.devRef .tc main_v12)
      = select (broadcastInDim S800000x128 ![0] bcast_S800000_S800000x128_0
        (Host.reduce IntOp.andi
          (andi (cmpi .sge (Cert.Spec.idxCol (F := F) (V (Proc.devRef .tc main_v1))) (broadcastInDim S800000x1 ![] bcast_S_S800000x1 (constantI S_ 32 0#32)))
            (cmpi .sle (Cert.Spec.idxCol (F := F) (V (Proc.devRef .tc main_v1)))
              (broadcastInDim S800000x1 ![0, 1] bcast_S1x1_S800000x1_0_1 (broadcastInDim S1x1 ![1] bcast_S1_S1x1_1 (constantI S1 32 49999#32)))))
          (constantI S_ 1 1#1) reducesTo_S800000x1_S800000_d1 h_S_))
      (Host.gather gather_S50000x128_S800000x1_S800000x128_1_0_n_n_0_1_1128 (V (Proc.devRef .tc main_v11)) (Cert.Spec.idxCol (F := F) (V (Proc.devRef .tc main_v1))))
      (broadcastInDim S800000x128 ![] bcast_S_S800000x128 (constant (F := F) S_ .f32 0x7FC00000#32)) := by
  have e1 : (StableHlo.TRef.of main_v1 : StableHlo.TRef sig ⟨S800000, .i32⟩).ofBuf (V (Proc.devRef .tc main_v1)) = V (Proc.devRef .tc main_v1) := rfl
  have ex : (StableHlo.TRef.of main_v11 : StableHlo.TRef sig ⟨S50000x128, .f32⟩).ofBuf (V (Proc.devRef .tc main_v11)) = V (Proc.devRef .tc main_v11) := rfl
  have ey : ∀ X : (⟨S800000x128, .f32⟩ : BufTy).Contents (Elt F), (StableHlo.TRef.of main_v12 : StableHlo.TRef sig ⟨S800000x128, .f32⟩).toBuf X = X := fun _ => rfl
  after_results_simp
  simp only [ofBuf_toBuf]
  rw [ey, e1, ex]
  unfold Cert.Spec.idxCol
  with_reducible rfl

/-- With every source index a node index, that stretch leaves the plain gather at the wrapped index column. -/
theorem take_stretch2 (V : Valuation τ sig (Elt Ideal)) (hs : SrcOk (V (Proc.devRef .tc main_v1))) :
    StableHlo.after (hostOps2 (F := Ideal)) V (Proc.devRef .tc main_v12)
      = Host.gather Cert.ReferenceIdeal.gather_S50000x128_S800000x1_S800000x128_1_0_n_n_0_1_1128 (V (Proc.devRef .tc main_v11))
          (Cert.Spec.idxCol (F := Ideal) (V (Proc.devRef .tc main_v1))) :=
  (take_lit2 V).trans (take128 _ hs _)

/-- The guarded take of stretch `hostOps4`, run from any contents: the select on the row-wise range test of the
    wrapped index column, of the gathered rows, against the fill. -/
theorem take_lit4 {F : FTy → Type} [FloatOps F] (V : Valuation τ sig (Elt F)) :
    StableHlo.after (hostOps4 (F := F)) V (Proc.devRef .tc main_v20)
      = select (broadcastInDim S800000x128 ![0] bcast_S800000_S800000x128_0
        (Host.reduce IntOp.andi
          (andi (cmpi .sge (Cert.Spec.idxCol (F := F) (V (Proc.devRef .tc main_v1))) (broadcastInDim S800000x1 ![] bcast_S_S800000x1 (constantI S_ 32 0#32)))
            (cmpi .sle (Cert.Spec.idxCol (F := F) (V (Proc.devRef .tc main_v1)))
              (broadcastInDim S800000x1 ![0, 1] bcast_S1x1_S800000x1_0_1 (broadcastInDim S1x1 ![1] bcast_S1_S1x1_1 (constantI S1 32 49999#32)))))
          (constantI S_ 1 1#1) reducesTo_S800000x1_S800000_d1 h_S_))
      (Host.gather gather_S50000x128_S800000x1_S800000x128_1_0_n_n_0_1_1128 (V (Proc.devRef .tc main_v19)) (Cert.Spec.idxCol (F := F) (V (Proc.devRef .tc main_v1))))
      (broadcastInDim S800000x128 ![] bcast_S_S800000x128 (constant (F := F) S_ .f32 0x7FC00000#32)) := by
  have e1 : (StableHlo.TRef.of main_v1 : StableHlo.TRef sig ⟨S800000, .i32⟩).ofBuf (V (Proc.devRef .tc main_v1)) = V (Proc.devRef .tc main_v1) := rfl
  have ex : (StableHlo.TRef.of main_v19 : StableHlo.TRef sig ⟨S50000x128, .f32⟩).ofBuf (V (Proc.devRef .tc main_v19)) = V (Proc.devRef .tc main_v19) := rfl
  have ey : ∀ X : (⟨S800000x128, .f32⟩ : BufTy).Contents (Elt F), (StableHlo.TRef.of main_v20 : StableHlo.TRef sig ⟨S800000x128, .f32⟩).toBuf X = X := fun _ => rfl
  after_results_simp
  simp only [ofBuf_toBuf]
  rw [ey, e1, ex]
  unfold Cert.Spec.idxCol
  with_reducible rfl

/-- With every source index a node index, that stretch leaves the plain gather at the wrapped index column. -/
theorem take_stretch4 (V : Valuation τ sig (Elt Ideal)) (hs : SrcOk (V (Proc.devRef .tc main_v1))) :
    StableHlo.after (hostOps4 (F := Ideal)) V (Proc.devRef .tc main_v20)
      = Host.gather Cert.ReferenceIdeal.gather_S50000x128_S800000x1_S800000x128_1_0_n_n_0_1_1128 (V (Proc.devRef .tc main_v19))
          (Cert.Spec.idxCol (F := Ideal) (V (Proc.devRef .tc main_v1))) :=
  (take_lit4 V).trans (take128 _ hs _)

/-! ### At the boundaries of the run -/

section Boundaries

variable (m : (ℓ : Loc nD τ sig) → Buf (Elt Ideal) ℓ) (ρ : Dev nD → PrngReg)

/-- The same at the boundary before the stretch. -/
theorem v4_W2 (c : Dev nD) (hs : SrcOk (W1 m ρ c (Proc.devRef .tc main_v1))) :
    W2 m ρ c (Proc.devRef .tc main_v4)
      = Host.gather Cert.ReferenceIdeal.gather_S50000x64_S800000x1_S800000x64_1_0_n_n_0_1_164 (W1 m ρ c (Proc.devRef .tc main_arg0))
          (Cert.Spec.idxCol (F := Ideal) (W1 m ρ c (Proc.devRef .tc main_v1))) :=
  take_stretch0 (W1 m ρ c) hs

/-- The same at the boundary before the stretch. -/
theorem v12_W7 (c : Dev nD) (hs : SrcOk (W6 m ρ c (Proc.devRef .tc main_v1))) :
    W7 m ρ c (Proc.devRef .tc main_v12)
      = Host.gather Cert.ReferenceIdeal.gather_S50000x128_S800000x1_S800000x128_1_0_n_n_0_1_1128 (W6 m ρ c (Proc.devRef .tc main_v11))
          (Cert.Spec.idxCol (F := Ideal) (W6 m ρ c (Proc.devRef .tc main_v1))) :=
  take_stretch2 (W6 m ρ c) hs

/-- The same at the boundary before the stretch. -/
theorem v20_W12 (c : Dev nD) (hs : SrcOk (W11 m ρ c (Proc.devRef .tc main_v1))) :
    W12 m ρ c (Proc.devRef .tc main_v20)
      = Host.gather Cert.ReferenceIdeal.gather_S50000x128_S800000x1_S800000x128_1_0_n_n_0_1_1128 (W11 m ρ c (Proc.devRef .tc main_v19))
          (Cert.Spec.idxCol (F := Ideal) (W11 m ρ c (Proc.devRef .tc main_v1))) :=
  take_stretch4 (W11 m ρ c) hs

end Boundaries

end Cert.KernelIdeal.Net

end
-- ==== Proof.Chain1.lean ====
/-
  The first layer, read off the tiled program's run.

  The run's buffer contents are a fold over the program's segments.  Walking the fold back from the
  first node update's output: that array is the dense node update of the node features, the summed
  messages, the weight and the bias row; the summed messages are the scatter-add of the first
  message kernel's output along the destination column; that output is the dense message function
  of the gathered source rows, the edge attributes, the projection and its bias row; and the
  gathered rows are, with every source index in range, the plain gather of the node features.  Each
  bias row is a reshape of the bias vector, which reads as its broadcast along a new leading axis.
  Put together this is the first layer of the launch contents.
-/
import proofs.«415786_j61478161875137_1_alg».proof.Proof.Gen.KernelIdeal.Frame
import proofs.«415786_j61478161875137_1_alg».proof.Proof.Spec
import proofs.«415786_j61478161875137_1_alg».proof.Proof.SrcDom
import Idealize.ShloMosaic.Lib.StableHlo.Run
import proofs.«415786_j61478161875137_1_alg».proof.Proof.Reg0
import proofs.«415786_j61478161875137_1_alg».proof.Proof.Reg1
import Idealize.ShloMosaic.PureOps.Ideal
import proofs.«415786_j61478161875137_1_alg».proof.Proof.Walk
import proofs.«415786_j61478161875137_1_alg».proof.Proof.Bridge
import proofs.«415786_j61478161875137_1_alg».proof.Proof.Take

set_option maxRecDepth 16384

noncomputable section

namespace Cert.KernelIdeal.Net

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- A stretch that does not write the buffer leaves it as it was. -/
local macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ### The first message kernel's entry -/

/-- The bias row [1, 64] that the last host operation before the first message kernel writes. -/
private theorem stretch0_2_v5 (V : Valuation τ sig (Elt Ideal)) :
    StableHlo.after hostOps0_2 V (Proc.devRef .tc main_v5)
      = broadcastInDim Cert.ReferenceIdeal.S1x64 ![1] Cert.ReferenceIdeal.Gen.bcast_S64_S1x64_1 (V (Proc.devRef .tc main_arg7)) := by
  after_results_simp
  exact bias64_eq _

private theorem W3_v5 (c : Dev nD) :
    W3 m ρ c (Proc.devRef .tc main_v5)
      = broadcastInDim Cert.ReferenceIdeal.S1x64 ![1] Cert.ReferenceIdeal.Gen.bcast_S64_S1x64_1 (m ((c.tc : Thread nD τ).loc main_arg7)) :=
  (stretch0_2_v5 (W2 m ρ c)).trans (congrArg _ (W2_main_arg7 m ρ c))

/-- The gathered source rows at the first message kernel's entry. -/
private theorem W3_v4 (c : Dev nD) (hs : SrcOk (Cert.Spec.srcOf (F := Ideal) (m ((c.tc : Thread nD τ).loc main_arg1)))) :
    W3 m ρ c (Proc.devRef .tc main_v4)
      = Host.gather Cert.ReferenceIdeal.gather_S50000x64_S800000x1_S800000x64_1_0_n_n_0_1_164
          (m ((c.tc : Thread nD τ).loc main_arg0))
          (Cert.Spec.idxCol (F := Ideal) (Cert.Spec.srcOf (F := Ideal) (m ((c.tc : Thread nD τ).loc main_arg1)))) := by
  have h32 : W3 m ρ c (Proc.devRef .tc main_v4) = W2 m ρ c (Proc.devRef .tc main_v4) := by not_written hostOps0_2
  have hs1 : SrcOk (W1 m ρ c (Proc.devRef .tc main_v1)) := (W1_main_v1 m ρ c).symm ▸ hs
  rw [h32, v4_W2 m ρ c hs1, W1_main_arg0, W1_main_v1]

/-! ### The first message kernel's output, summed into the destination nodes -/

/-- The messages: the first message kernel's output array is the dense message function of the launch contents. -/
private theorem W4_v6 (c : Dev nD) (hs : SrcOk (Cert.Spec.srcOf (F := Ideal) (m ((c.tc : Thread nD τ).loc main_arg1)))) :
    W4 m ρ c (Proc.devRef .tc main_v6)
      = Cert.Spec.edge64 (F := Ideal)
          (Host.gather Cert.ReferenceIdeal.gather_S50000x64_S800000x1_S800000x64_1_0_n_n_0_1_164
            (m ((c.tc : Thread nD τ).loc main_arg0))
            (Cert.Spec.idxCol (F := Ideal) (Cert.Spec.srcOf (F := Ideal) (m ((c.tc : Thread nD τ).loc main_arg1)))))
          (m ((c.tc : Thread nD τ).loc main_arg2)) (m ((c.tc : Thread nD τ).loc main_arg6))
          (broadcastInDim Cert.ReferenceIdeal.S1x64 ![1] Cert.ReferenceIdeal.Gen.bcast_S64_S1x64_1 (m ((c.tc : Thread nD τ).loc main_arg7))) := by
  refine (W4_arr m ρ c 4).trans ((reg0_out (V3 m ρ) c).trans ?_)
  show Cert.Spec.edge64 (F := Ideal) (W3 m ρ c (Proc.devRef .tc main_v4)) (W3 m ρ c (Proc.devRef .tc main_arg2))
      (W3 m ρ c (Proc.devRef .tc main_arg6)) (W3 m ρ c (Proc.devRef .tc main_v5)) = _
  rw [W3_v4 m ρ c hs, W3_main_arg2, W3_main_arg6, W3_v5]

/-- The sum of the messages into their destination nodes, from any contents at the first message kernel's exit. -/
private theorem stretch1_v9 (V : Valuation τ sig (Elt Ideal)) :
    StableHlo.after hostOps1 V (Proc.devRef .tc main_v9)
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 (V (Proc.devRef .tc main_v3)))
          (V (Proc.devRef .tc main_v6)) := by
  after_results_simp

/-- The bias row [1, 128] of the first node update. -/
private theorem stretch1_v10 (V : Valuation τ sig (Elt Ideal)) :
    StableHlo.after hostOps1 V (Proc.devRef .tc main_v10)
      = broadcastInDim Cert.ReferenceIdeal.S1x128 ![1] Cert.ReferenceIdeal.Gen.bcast_S128_S1x128_1 (V (Proc.devRef .tc main_arg5)) := by
  after_results_simp
  exact bias128_eq _

/-! ### The first node update -/

private theorem W5_v9 (c : Dev nD) (hs : SrcOk (Cert.Spec.srcOf (F := Ideal) (m ((c.tc : Thread nD τ).loc main_arg1)))) :
    W5 m ρ c (Proc.devRef .tc main_v9)
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 (Cert.Spec.dstOf (F := Ideal) (m ((c.tc : Thread nD τ).loc main_arg1))))
          (Cert.Spec.edge64 (F := Ideal)
            (Host.gather Cert.ReferenceIdeal.gather_S50000x64_S800000x1_S800000x64_1_0_n_n_0_1_164
              (m ((c.tc : Thread nD τ).loc main_arg0))
              (Cert.Spec.idxCol (F := Ideal) (Cert.Spec.srcOf (F := Ideal) (m ((c.tc : Thread nD τ).loc main_arg1)))))
            (m ((c.tc : Thread nD τ).loc main_arg2)) (m ((c.tc : Thread nD τ).loc main_arg6))
            (broadcastInDim Cert.ReferenceIdeal.S1x64 ![1] Cert.ReferenceIdeal.Gen.bcast_S64_S1x64_1 (m ((c.tc : Thread nD τ).loc main_arg7)))) := by
  refine (stretch1_v9 (W4 m ρ c)).trans ?_
  rw [W4_main_v3, W4_v6 m ρ c hs]

private theorem W5_v10 (c : Dev nD) :
    W5 m ρ c (Proc.devRef .tc main_v10)
      = broadcastInDim Cert.ReferenceIdeal.S1x128 ![1] Cert.ReferenceIdeal.Gen.bcast_S128_S1x128_1 (m ((c.tc : Thread nD τ).loc main_arg5)) :=
  (stretch1_v10 (W4 m ρ c)).trans (congrArg _ (W4_main_arg5 m ρ c))

/-- From the launch to the first node update's output: the first layer of the launch contents. -/
theorem v11_W6 (c : Dev nD) (hs : SrcOk (Cert.Spec.srcOf (F := Ideal) (m ((c.tc : Thread nD τ).loc main_arg1)))) :
    W6 m ρ c (Proc.devRef .tc main_v11)
      = Cert.Spec.layer64 (F := Ideal) (m ((c.tc : Thread nD τ).loc main_arg0)) (Cert.Spec.srcOf (m ((c.tc : Thread nD τ).loc main_arg1))) (Cert.Spec.dstOf (m ((c.tc : Thread nD τ).loc main_arg1)))
          (m ((c.tc : Thread nD τ).loc main_arg2)) (m ((c.tc : Thread nD τ).loc main_arg6)) (m ((c.tc : Thread nD τ).loc main_arg7)) (m ((c.tc : Thread nD τ).loc main_arg4)) (m ((c.tc : Thread nD τ).loc main_arg5)) := by
  refine (W6_arr m ρ c 4).trans ((reg1_out (V5 m ρ) c).trans ?_)
  show Cert.Spec.node64 (F := Ideal) (W5 m ρ c (Proc.devRef .tc main_arg0)) (W5 m ρ c (Proc.devRef .tc main_v9))
      (W5 m ρ c (Proc.devRef .tc main_arg4)) (W5 m ρ c (Proc.devRef .tc main_v10)) = _
  rw [W5_main_arg0, W5_v9 m ρ c hs, W5_main_arg4, W5_v10]
  rfl

end Cert.KernelIdeal.Net

end
-- ==== Proof.Reg2.lean ====
/-
  The second edge-message region.  Its 200 grid points each take a block of 4000 consecutive edges: the
  rows of the gathered source features, the rows of the edge attributes, the whole projection
  `We` and the whole bias row, and leave `relu(xs + (ea · We + be))` for those rows.  Row `r` of the
  result depends only on row `r` of the row-blocked operands, so block `t` of the dense piece
  `edge128` is the block the point `t` writes; the 200 blocks tile the 800000 rows, so the array the
  region leaves is `edge128` of the arrays it found.
-/
import proofs.«415786_j61478161875137_1_alg».proof.Proof.Gen.KernelIdeal.Frame
import proofs.«415786_j61478161875137_1_alg».proof.Proof.SpecApply
import Idealize.ShloMosaic.Lib.Pipeline.Value
import Idealize.ShloMosaic.Lib.ValueIdx
import Idealize.ShloMosaic.PureOps.Ideal.Laws
import Idealize.ShloMosaic.PureOps.Ideal

set_option maxRecDepth 16384

noncomputable section

namespace Cert.KernelIdeal.Net

open Idealize.ShloMosaic Idealize.ShloMosaic.TcCoe Idealize.SL.Sem
open Cert.KernelIdeal Cert.KernelIdeal.Gen
open Idealize.ShloMosaic.ValueIdx

/-! ## One block: the body's result at row `r`, column `q` -/

/-- The contraction's left operand is read at the output's row … -/
theorem reg2_lhs_0 (i : S4000x128.Idx) (q : dot_S4000x8_S8x128_S4000x128_1_0_0_1_n_n.contr.Idx) :
    (dot_S4000x8_S8x128_S4000x128_1_0_0_1_n_n.lhsIdx i q 0).val = (i 0).val := by
  unfold DotDims.lhsIdx
  rw [dif_neg (show ¬(0 : Fin S4000x8.rank) ∈ dot_S4000x8_S8x128_S4000x128_1_0_0_1_n_n.lhsBatch by decide), dif_pos (show (0 : Fin S4000x8.rank) ∈ dot_S4000x8_S8x128_S4000x128_1_0_0_1_n_n.lhsNonContracting by decide)]
  rfl
/-- … and the contracted coordinate; -/
theorem reg2_lhs_1 (i : S4000x128.Idx) (q : dot_S4000x8_S8x128_S4000x128_1_0_0_1_n_n.contr.Idx) :
    (dot_S4000x8_S8x128_S4000x128_1_0_0_1_n_n.lhsIdx i q 1).val = (q ⟨0, by decide⟩).val :=
  dot_S4000x8_S8x128_S4000x128_1_0_0_1_n_n.lhsIdx_val_of_single rfl i q
/-- the right operand at the contracted coordinate … -/
theorem reg2_rhs_0 (i : S4000x128.Idx) (q : dot_S4000x8_S8x128_S4000x128_1_0_0_1_n_n.contr.Idx) :
    (dot_S4000x8_S8x128_S4000x128_1_0_0_1_n_n.rhsIdx i q 0).val = (q ⟨0, by decide⟩).val :=
  dot_S4000x8_S8x128_S4000x128_1_0_0_1_n_n.rhsIdx_val_of_single rfl i q
/-- … and the output's column. -/
theorem reg2_rhs_1 (i : S4000x128.Idx) (q : dot_S4000x8_S8x128_S4000x128_1_0_0_1_n_n.contr.Idx) :
    (dot_S4000x8_S8x128_S4000x128_1_0_0_1_n_n.rhsIdx i q 1).val = (i 1).val := by
  unfold DotDims.rhsIdx
  rw [dif_neg (show ¬(1 : Fin S8x128.rank) ∈ dot_S4000x8_S8x128_S4000x128_1_0_0_1_n_n.rhsBatch by decide), dif_pos (show (1 : Fin S8x128.rank) ∈ dot_S4000x8_S8x128_S4000x128_1_0_0_1_n_n.rhsNonContracting by decide)]
  rfl

/-- The block product `ea · We` at row `r`, column `q`: the sum over the 8 attributes. -/
theorem reg2_block_dot (x1 : Vec Ideal S4000x8 .f32) (x2 : Vec Ideal S8x128 .f32) (r : Fin 4000) (q : Fin 128) :
    matmul dot_S4000x8_S8x128_S4000x128_1_0_0_1_n_n none (truncf .bf16 x1 bitsLt_bf16_f32) (truncf .bf16 x2 bitsLt_bf16_f32)
        (constant (F := Ideal) S4000x128 .f32 0x00000000#32) (ix2 r q)
      = ∑ k : Fin 8, x1 (ix2 r k) * x2 (ix2 k q) := by
  show FloatOps.matmul _ _ _ _ (constant (F := Ideal) S4000x128 .f32 0x00000000#32) _ = _
  rw [Ideal.matmul_constant_zero_apply, ← Equiv.sum_comp (contrEquiv1 dot_S4000x8_S8x128_S4000x128_1_0_0_1_n_n 8 rfl rfl).symm]
  refine Finset.sum_congr rfl fun k _ => ?_
  have hk := contrEquiv1_symm_val dot_S4000x8_S8x128_S4000x128_1_0_0_1_n_n 8 rfl rfl k
  have el : dot_S4000x8_S8x128_S4000x128_1_0_0_1_n_n.lhsIdx (ix2 r q) ((contrEquiv1 dot_S4000x8_S8x128_S4000x128_1_0_0_1_n_n 8 rfl rfl).symm k) = ix2 r k := funext fun a => Fin.ext (by
    match a with
    | ⟨0, _⟩ => exact reg2_lhs_0 _ _
    | ⟨1, _⟩ => exact (reg2_lhs_1 _ _).trans hk)
  have er : dot_S4000x8_S8x128_S4000x128_1_0_0_1_n_n.rhsIdx (ix2 r q) ((contrEquiv1 dot_S4000x8_S8x128_S4000x128_1_0_0_1_n_n 8 rfl rfl).symm k) = ix2 k q := funext fun a => Fin.ext (by
    match a with
    | ⟨0, _⟩ => exact (reg2_rhs_0 _ _).trans hk
    | ⟨1, _⟩ => exact reg2_rhs_1 _ _)
  rw [truncf_apply, truncf_apply, el, er]

/-- The bias row spread over the block's rows reads the row's column. -/
theorem reg2_block_bias (x3 : Vec Ideal S1x128 .f32) (r : Fin 4000) (q : Fin 128) :
    broadcastTo S4000x128 x3 broadcasts_S1x128_S4000x128 (ix2 r q) = x3 (ix2 (0 : Fin 1) q) :=
  broadcastTo_apply x3 broadcasts_S1x128_S4000x128 (ix2 r q) (ix2 (0 : Fin 1) q) (fun a => by
    match a with
    | ⟨0, _⟩ => rfl
    | ⟨1, _⟩ => rfl)

/-- The body's result on a block, entry by entry. -/
theorem reg2_block_apply (x0 : Vec Ideal S4000x128 .f32) (x1 : Vec Ideal S4000x8 .f32) (x2 : Vec Ideal S8x128 .f32)
    (x3 : Vec Ideal S1x128 .f32) (r : Fin 4000) (q : Fin 128) :
    k2_pay1 x0 x1 x2 x3 (ix2 r q)
      = max (x0 (ix2 r q) + ((∑ k : Fin 8, x1 (ix2 r k) * x2 (ix2 k q)) + x3 (ix2 (0 : Fin 1) q))) 0 := by
  unfold k2_pay1
  rw [maximumf_apply, addf_apply, addf_apply, broadcast_apply, shapeCast_self, shapeCast_self, reg2_block_dot,
    reg2_block_bias]
  show max _ (Ideal.ofBits .f32 0x00000000#32) = _
  rw [Ideal.ofBits_zero_f32]

/-! ## One block against the dense piece -/

/-- A block of 4000 rows whose operands are the rows `i 0` of the row-blocked arrays and the whole of
    the projection and the bias: the body's result at `j` is the dense piece at `i`, the same column. -/
theorem reg2_block_eq (xs : FVec Ideal S800000x128 .f32) (ea : FVec Ideal S800000x8 .f32) (We : FVec Ideal S8x128 .f32)
    (be1 : FVec Ideal S1x128 .f32) (x0 : Vec Ideal S4000x128 .f32) (x1 : Vec Ideal S4000x8 .f32) (x2 : Vec Ideal S8x128 .f32)
    (x3 : Vec Ideal S1x128 .f32) (j : S4000x128.Idx) (i : S800000x128.Idx) (hi : (i 1).val = (j 1).val)
    (h0 : ∀ q : Fin 128, x0 (ix2 (j 0) q) = xs (ix2 (i 0) q))
    (h1 : ∀ k : Fin 8, x1 (ix2 (j 0) k) = ea (ix2 (i 0) k))
    (h2 : ∀ y : S8x128.Idx, x2 y = We y) (h3 : ∀ y : S1x128.Idx, x3 y = be1 y) :
    k2_pay1 x0 x1 x2 x3 j = Cert.Spec.edge128 (F := Ideal) xs ea We be1 i := by
  obtain ⟨r, q, rfl⟩ : ∃ (r : Fin 4000) (q : Fin 128), j = ix2 r q := ⟨j 0, j 1, eq_ix2 j⟩
  obtain ⟨R, Q, rfl⟩ : ∃ (R : Fin 800000) (Q : Fin 128), i = ix2 R Q := ⟨i 0, i 1, eq_ix2 i⟩
  obtain rfl : Q = q := Fin.ext hi
  have h0' : ∀ q' : Fin 128, x0 (ix2 r q') = xs (ix2 R q') := h0
  have h1' : ∀ k : Fin 8, x1 (ix2 r k) = ea (ix2 R k) := h1
  rw [reg2_block_apply, Cert.Spec.edge128_apply, h0', h3]
  simp only [h1', h2]

/-! ## The blocks against the array -/

variable (V : (c : Dev nD) → (b : Ref sig .tc) → Buf (Elt Ideal) ((c : Thread nD τ).loc b))

theorem reg2_zero_offsets : (![0, 0] : Fin 2 → Nat) = fun _ => 0 :=
  funext fun a => by match a with | ⟨0, _⟩ => rfl | ⟨1, _⟩ => rfl

/-- The index maps over the grid: point `t` takes row block `t` of the three row-blocked arrays and
    the one block of the projection and of the bias. -/
theorem reg2_index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the dense piece of the arrays the region found. -/
theorem reg2_flushed (c : Dev nD) (t : Fin cfg2.N) :
    (dat2 (F := Ideal) V c).flushed 4 t = ((cfg2.win 4).blk t).view.read (Elt Ideal)
      (Cert.Spec.edge128 (F := Ideal) (V c main_v12) (V c main_arg2) (V c main_arg10) (V c main_v13)) := by
  show (cfg2.win 4).cut (grid2.coords t) ((dat2 V c).after 4 t) = _
  rw [after2_4]
  unfold out2_4
  rw [View.canon_unit_zero reg2_zero_offsets]
  simp only [View.ld_unit_zero (S := S4000x128) reg2_zero_offsets, View.ld_unit_zero (S := S4000x8) reg2_zero_offsets,
    View.ld_unit_zero (S := S8x128) reg2_zero_offsets, View.ld_unit_zero (S := S1x128) reg2_zero_offsets]
  obtain ⟨e00, e01, e10, e11, e20, e21, e30, e31, e40, e41⟩ := reg2_index_maps t
  funext j
  refine reg2_block_eq (V c main_v12) (V c main_arg2) (V c main_arg10) (V c main_v13) (iblk2 V c 0 t) (iblk2 V c 1 t)
    (iblk2 V c 2 t) (iblk2 V c 3 t) j (((cfg2.win 4).blk t).view.emb j) ?_ ?_ ?_ ?_ ?_
  · show win2_4.index t (1 : Fin 2) * 128 + 1 * (j 1).val = (j 1).val
    omega
  · intro q
    show V c main_v12 (((cfg2.win 0).blk t).view.emb (ix2 (j 0) q)) = V c main_v12 (ix2 ((((cfg2.win 4).blk t).view.emb j) 0) q)
    refine congrArg (V c main_v12) (funext fun a => Fin.ext ?_)
    match a with
    | ⟨0, _⟩ => show win2_0.index t (0 : Fin 2) * 4000 + 1 * (j 0).val = win2_4.index t (0 : Fin 2) * 4000 + 1 * (j 0).val; omega
    | ⟨1, _⟩ => show win2_0.index t (1 : Fin 2) * 128 + 1 * q.val = q.val; omega
  · intro k
    show V c main_arg2 (((cfg2.win 1).blk t).view.emb (ix2 (j 0) k)) = V c main_arg2 (ix2 ((((cfg2.win 4).blk t).view.emb j) 0) k)
    refine congrArg (V c main_arg2) (funext fun a => Fin.ext ?_)
    match a with
    | ⟨0, _⟩ => show win2_1.index t (0 : Fin 2) * 4000 + 1 * (j 0).val = win2_4.index t (0 : Fin 2) * 4000 + 1 * (j 0).val; omega
    | ⟨1, _⟩ => show win2_1.index t (1 : Fin 2) * 8 + 1 * k.val = k.val; omega
  · intro y
    show V c main_arg10 (((cfg2.win 2).blk t).view.emb y) = V c main_arg10 y
    refine congrArg (V c main_arg10) (funext fun a => Fin.ext ?_)
    match a with
    | ⟨0, _⟩ => show win2_2.index t (0 : Fin 2) * 8 + 1 * (y 0).val = (y 0).val; omega
    | ⟨1, _⟩ => show win2_2.index t (1 : Fin 2) * 128 + 1 * (y 1).val = (y 1).val; omega
  · intro y
    show V c main_v13 (((cfg2.win 3).blk t).view.emb y) = V c main_v13 y
    refine congrArg (V c main_v13) (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega

/-- An index of the array is in point `t`'s block iff each coordinate is in the block's range on its axis. -/
theorem reg2_mem_blk (t : Fin cfg2.N) (i : S800000x128.Idx) :
    i ∈ ((cfg2.win 4).blk t).view.set ↔ ∀ a : Fin 2, win2_4.index t a * S4000x128.size a ≤ (i a).val
      ∧ (i a).val < win2_4.index t a * S4000x128.size a + S4000x128.size a := by
  show i ∈ ((View.whole main_v14).slice (win2_4.rect t)).set ↔ _
  rw [View.set_slice_whole, Rect.mem_set_unit]
  exact Iff.rfl

/-- Row `r` is in the block of point `r / 4000`: the 200 blocks tile the 800000 rows. -/
theorem reg2_cover (i : S800000x128.Idx) :
    ∃ t : Fin cfg2.N, (cfg2.win 4).flush t = true ∧ i ∈ ((cfg2.win 4).blk t).view.set := by
  have hN : cfg2.N = 200 := N_2
  have hi0 : (i 0).val < 800000 := (i 0).isLt
  have hi1 : (i 1).val < 128 := (i 1).isLt
  have hlt : (i 0).val / 4000 < cfg2.N := by rw [hN]; omega
  obtain ⟨e00, e01, e10, e11, e20, e21, e30, e31, e40, e41⟩ := reg2_index_maps ⟨(i 0).val / 4000, hlt⟩
  have e40' : win2_4.index ⟨(i 0).val / 4000, hlt⟩ (0 : Fin 2) = (i 0).val / 4000 := e40
  refine ⟨⟨(i 0).val / 4000, hlt⟩, flush2_4 _, ?_⟩
  rw [reg2_mem_blk]
  intro a
  match a with
  | ⟨0, _⟩ =>
    show win2_4.index ⟨(i 0).val / 4000, hlt⟩ (0 : Fin 2) * 4000 ≤ (i 0).val
      ∧ (i 0).val < win2_4.index ⟨(i 0).val / 4000, hlt⟩ (0 : Fin 2) * 4000 + 4000
    omega
  | ⟨1, _⟩ =>
    show win2_4.index ⟨(i 0).val / 4000, hlt⟩ (1 : Fin 2) * 128 ≤ (i 1).val
      ∧ (i 1).val < win2_4.index ⟨(i 0).val / 4000, hlt⟩ (1 : Fin 2) * 128 + 128
    omega

/-- After the region, its output array is the dense piece of the arrays the region found. -/
theorem reg2_out (c : Dev nD) :
    (dat2 (F := Ideal) V c).arrAt 4 cfg2.N
      = Cert.Spec.edge128 (F := Ideal) (V c main_v12) (V c main_arg2) (V c main_arg10) (V c main_v13) :=
  (dat2 (F := Ideal) V c).arrAt_eq_of_cover 4
    (Cert.Spec.edge128 (F := Ideal) (V c main_v12) (V c main_arg2) (V c main_arg10) (V c main_v13))
    (fun t _ => reg2_flushed V c t) reg2_cover

end Cert.KernelIdeal.Net

end
-- ==== Proof.Reg3.lean ====
/-
  Node update 128 → 128, region by blocks.  The body's payload at row `r`, column `q` of a block is
  `max (Σ_k (x[r,k] + agg[r,k]) · W[k,q] + b[0,q]) 0` of the blocks it loads, `k` over the 128 inner
  coordinates; the row blocks of 5000 nodes tile the 50000 rows, the weight and the bias are read
  whole at every point, so what each point writes back is its block of the dense node update of the
  four arrays, and the ten blocks cover the output array.
-/
import proofs.«415786_j61478161875137_1_alg».proof.Proof.Gen.KernelIdeal.Frame
import proofs.«415786_j61478161875137_1_alg».proof.Proof.SpecApply
import Idealize.ShloMosaic.Lib.Pipeline.Value
import Idealize.ShloMosaic.Lib.ValueIdx
import Idealize.ShloMosaic.PureOps.Ideal.Laws
import Idealize.ShloMosaic.PureOps.Ideal

set_option maxRecDepth 16384

noncomputable section

namespace Cert.KernelIdeal.Net

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

namespace NodeL2

/-! ## The contraction of one block: its two operand indices, axis by axis -/

theorem upd_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem upd_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem upd_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem upd_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product into the zero accumulator, at row `r` and column `q`: the sum over the 128 inner coordinates. -/
theorem upd_dot_apply {φ₁ φ₂ : FTy} (a : FVec Ideal S5000x128 φ₁) (w : FVec Ideal S128x128 φ₂) (r : Fin 5000) (q : Fin 128) :
    FloatOps.matmul dot_S5000x128_S128x128_S5000x128_1_0_0_1_n_n none a w (constant S5000x128 .f32 0x00000000#32) (ix2 r q)
      = ∑ k : Fin 128, a (ix2 r k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact upd_lhs_0 _ _
    | ⟨1, _⟩ => exact (upd_lhs_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (upd_rhs_0 _ _).trans hk
    | ⟨1, _⟩ => exact upd_rhs_1 _ _)
  rw [el, er]

/-- The bias row spread over the block's rows reads the row's entry of the column. -/
theorem upd_bias_apply (v : FVec Ideal S1x128 .f32) (h : S1x128.Broadcasts S5000x128) (r : Fin 5000) (q : Fin 128) :
    broadcastTo S5000x128 v h (ix2 r q) = v (ix2 (0 : Fin 1) q) :=
  broadcastTo_apply v h (ix2 r q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The body's payload at row `r`, column `q` of the block. -/
theorem upd_pay_apply (v0 v1 : Vec Ideal S5000x128 .f32) (v5 : Vec Ideal S128x128 .f32) (v8 : Vec Ideal S1x128 .f32)
    (r : Fin 5000) (q : Fin 128) :
    k3_pay1 (F := Ideal) v0 v1 v5 v8 (ix2 r q)
      = max ((∑ k : Fin 128, (v0 (ix2 r k) + v1 (ix2 r k)) * v5 (ix2 k q)) + v8 (ix2 (0 : Fin 1) q)) 0 := by
  unfold k3_pay1
  simp only [shapeCast_self]
  rw [maximumf_apply, addf_apply, broadcast_apply, upd_bias_apply]
  refine congrArg₂ max (congrArg (· + v8 (ix2 (0 : Fin 1) q)) ?_) Ideal.ofBits_zero_f32
  exact upd_dot_apply _ _ r q

/-- One entry of a block's payload is the same entry of the dense piece of the whole arrays, once each loaded block
    agrees with its array along the row and the column that entry reads. -/
theorem upd_block (x agg : FVec Ideal S50000x128 .f32) (W : FVec Ideal S128x128 .f32) (b : FVec Ideal S1x128 .f32)
    (v0 v1 : Vec Ideal S5000x128 .f32) (v5 : Vec Ideal S128x128 .f32) (v8 : Vec Ideal S1x128 .f32)
    (r : Fin 5000) (q : Fin 128) (ri : Fin 50000)
    (h0 : ∀ k : Fin 128, v0 (ix2 r k) = x (ix2 ri k))
    (h1 : ∀ k : Fin 128, v1 (ix2 r k) = agg (ix2 ri k))
    (h5 : ∀ k : Fin 128, v5 (ix2 k q) = W (ix2 k q))
    (h8 : v8 (ix2 (0 : Fin 1) q) = b (ix2 (0 : Fin 1) q)) :
    k3_pay1 (F := Ideal) v0 v1 v5 v8 (ix2 r q) = Cert.Spec.node128 (F := Ideal) x agg W b (ix2 ri q) := by
  rw [upd_pay_apply, Cert.Spec.node128_apply]
  simp only [h0, h1, h5, h8]

/-! ## What one point writes back -/

theorem upd_origin : (![0, 0] : Fin 2 → Nat) = fun _ => 0 :=
  funext fun a => match a with | ⟨0, _⟩ => rfl | ⟨1, _⟩ => rfl

/-- The index maps over the grid: the row-blocked windows sit at block `t` of the rows, the weight and the bias at
    their one block. -/
theorem upd_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Point `t` writes back block `t` of the dense node update of the four arrays the region found. -/
theorem upd_flushed (c : Dev nD) (t : Fin cfg3.N) :
    (dat3 (F := Ideal) V c).flushed 4 t = ((cfg3.win 4).blk t).view.read (Elt Ideal)
      (Cert.Spec.node128 (F := Ideal) (V c main_v11) (V c main_v17) (V c main_arg8) (V c main_v18)) := by
  show (cfg3.win 4).cut (grid3.coords t) ((dat3 V c).after 4 t) = _
  rw [after3_4]
  unfold out3_4
  rw [View.canon_unit_zero upd_origin]
  simp only [View.ld_unit_zero (S := S5000x128) upd_origin, View.ld_unit_zero (S := S128x128) upd_origin, View.ld_unit_zero (S := S1x128) upd_origin]
  obtain ⟨e00, e01, e10, e11, e20, e21, e30, e31, e40, e41⟩ := upd_index t
  have hN : grid3.N = 10 := N_3
  have htN : t.val < 10 := hN ▸ t.isLt
  funext j
  have hj0 : (j 0).val < 5000 := (j 0).isLt
  have hj1 : (j 1).val < 128 := (j 1).isLt
  obtain ⟨r, q, rfl⟩ : ∃ (r : Fin 5000) (q : Fin 128), j = ix2 r q :=
    ⟨⟨(j 0).val, hj0⟩, ⟨(j 1).val, hj1⟩, funext fun a => match a with | ⟨0, _⟩ => rfl | ⟨1, _⟩ => rfl⟩
  have hr : r.val < 5000 := r.isLt
  have ee : ((cfg3.win 4).blk t).view.emb (ix2 r q) = ix2 (⟨t.val * 5000 + r.val, by omega⟩ : Fin 50000) q :=
    funext fun a => Fin.ext (by
      match a with
      | ⟨0, _⟩ => show win3_4.index t (0 : Fin 2) * 5000 + 1 * r.val = t.val * 5000 + r.val; omega
      | ⟨1, _⟩ => show win3_4.index t (1 : Fin 2) * 128 + 1 * q.val = q.val; omega)
  show k3_pay1 (F := Ideal) (iblk3 V c 0 t) (iblk3 V c 1 t) (iblk3 V c 2 t) (iblk3 V c 3 t) (ix2 r q)
    = Cert.Spec.node128 (F := Ideal) (V c main_v11) (V c main_v17) (V c main_arg8) (V c main_v18) (((cfg3.win 4).blk t).view.emb (ix2 r q))
  refine Eq.trans ?_ (congrArg (Cert.Spec.node128 (F := Ideal) (V c main_v11) (V c main_v17) (V c main_arg8) (V c main_v18)) ee).symm
  refine upd_block (V c main_v11) (V c main_v17) (V c main_arg8) (V c main_v18)
    (iblk3 V c 0 t) (iblk3 V c 1 t) (iblk3 V c 2 t) (iblk3 V c 3 t) r q ⟨t.val * 5000 + r.val, by omega⟩ ?_ ?_ ?_ ?_
  · intro k
    show V c main_v11 (((cfg3.win 0).blk t).view.emb (ix2 r k)) = V c main_v11 (ix2 (⟨t.val * 5000 + r.val, by omega⟩ : Fin 50000) k)
    refine congrArg (V c main_v11) (funext fun a => Fin.ext ?_)
    match a with
    | ⟨0, _⟩ => show win3_0.index t (0 : Fin 2) * 5000 + 1 * r.val = t.val * 5000 + r.val; omega
    | ⟨1, _⟩ => show win3_0.index t (1 : Fin 2) * 128 + 1 * k.val = k.val; omega
  · intro k
    show V c main_v17 (((cfg3.win 1).blk t).view.emb (ix2 r k)) = V c main_v17 (ix2 (⟨t.val * 5000 + r.val, by omega⟩ : Fin 50000) k)
    refine congrArg (V c main_v17) (funext fun a => Fin.ext ?_)
    match a with
    | ⟨0, _⟩ => show win3_1.index t (0 : Fin 2) * 5000 + 1 * r.val = t.val * 5000 + r.val; omega
    | ⟨1, _⟩ => show win3_1.index t (1 : Fin 2) * 128 + 1 * k.val = k.val; omega
  · intro k
    show V c main_arg8 (((cfg3.win 2).blk t).view.emb (ix2 k q)) = V c main_arg8 (ix2 k q)
    refine congrArg (V c main_arg8) (funext fun a => Fin.ext ?_)
    match a with
    | ⟨0, _⟩ => show win3_2.index t (0 : Fin 2) * 128 + 1 * k.val = k.val; omega
    | ⟨1, _⟩ => show win3_2.index t (1 : Fin 2) * 128 + 1 * q.val = q.val; omega
  · show V c main_v18 (((cfg3.win 3).blk t).view.emb (ix2 (0 : Fin 1) q)) = V c main_v18 (ix2 (0 : Fin 1) q)
    refine congrArg (V c main_v18) (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega

/-! ## The ten blocks fill the array -/

/-- An index of the array is in point `t`'s block iff each coordinate is in the block's range on its axis. -/
theorem upd_mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v19).slice (win3_4.rect t)).set ↔ _
  rw [View.set_slice_whole, Rect.mem_set_unit]
  exact Iff.rfl

/-- Row `r` is in the block of point `r / 5000`. -/
theorem upd_cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : grid3.N = 10 := N_3
  have hlt : (i 0).val / 5000 < grid3.N := by rw [hN]; omega
  obtain ⟨t, ht⟩ : ∃ t : Fin cfg3.N, t.val = (i 0).val / 5000 := ⟨⟨(i 0).val / 5000, hlt⟩, rfl⟩
  refine ⟨t, flush3_4 t, ?_⟩
  rw [upd_mem_blk]
  obtain ⟨-, -, -, -, -, -, -, -, e40, e41⟩ := upd_index t
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

end NodeL2

/-- After the region, its output array is the dense piece of the arrays the region found. -/
theorem reg3_out (c : Dev nD) :
    (dat3 (F := Ideal) V c).arrAt 4 cfg3.N
      = Cert.Spec.node128 (F := Ideal) (V c main_v11) (V c main_v17) (V c main_arg8) (V c main_v18) :=
  (dat3 (F := Ideal) V c).arrAt_eq_of_cover 4
    (Cert.Spec.node128 (F := Ideal) (V c main_v11) (V c main_v17) (V c main_arg8) (V c main_v18))
    (fun t _ => NodeL2.upd_flushed V c t) NodeL2.upd_cover

end Cert.KernelIdeal.Net

end
-- ==== Proof.Chain2.lean ====
/-
  The second layer, read off the boundary contents.

  Between the first node update's output (boundary 6) and the second's (boundary 11) the program gathers the
  source row of every edge, lays the edge bias out as a row, forms the messages `relu(xs + (ea · We + be))`,
  sums them into their destination rows from zero, lays the node bias out as a row, and applies
  `relu((x + agg) · W + b)`.  Each of these values is read where it is written; every operand is carried
  back, unchanged, to boundary 6.  Composed, they are one layer of the target function.
-/
import proofs.«415786_j61478161875137_1_alg».proof.Proof.Gen.KernelIdeal.Frame
import proofs.«415786_j61478161875137_1_alg».proof.Proof.Spec
import proofs.«415786_j61478161875137_1_alg».proof.Proof.SrcDom
import Idealize.ShloMosaic.Lib.StableHlo.Run
import proofs.«415786_j61478161875137_1_alg».proof.Proof.Reg2
import proofs.«415786_j61478161875137_1_alg».proof.Proof.Reg3
import proofs.«415786_j61478161875137_1_alg».proof.Proof.Walk
import proofs.«415786_j61478161875137_1_alg».proof.Proof.Bridge
import proofs.«415786_j61478161875137_1_alg».proof.Proof.Take
import Idealize.ShloMosaic.PureOps.Ideal

set_option maxRecDepth 16384

noncomputable section

namespace Cert.KernelIdeal.Net

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- A stretch of host operations leaves every buffer that none of them writes. -/
local macro "keep_stretch" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the host stretches write, over any contents -/

/-- The one-row layout of the edge bias. -/
theorem c2_stretch_v13 (V : Valuation τ sig (Elt Ideal)) :
    StableHlo.after hostOps2_1 V (Proc.devRef .tc main_v13)
      = shapeCast S1x128 (V (Proc.devRef .tc main_arg11)) shapeCasts_S128_S1x128 := by
  after_results_simp
  rfl

/-- The one-row layout of the node bias. -/
theorem c2_stretch_v18 (V : Valuation τ sig (Elt Ideal)) :
    StableHlo.after hostOps3 V (Proc.devRef .tc main_v18)
      = shapeCast S1x128 (V (Proc.devRef .tc main_arg9)) shapeCasts_S128_S1x128 := by
  after_results_simp
  rfl

/-- The aggregate: the messages summed into their destination rows, from zero. -/
theorem c2_stretch_v17 (V : Valuation τ sig (Elt Ideal)) :
    StableHlo.after hostOps3 V (Proc.devRef .tc main_v17)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (V (Proc.devRef .tc main_v3)))
          (V (Proc.devRef .tc main_v14)) := by
  after_results_simp

/-! ## The boundary values -/

/-- The edge bias as the edge region finds it. -/
theorem c2_v13_W8 (c : Dev nD) :
    W8 m ρ c (Proc.devRef .tc main_v13)
      = broadcastInDim Cert.ReferenceIdeal.S1x128 ![1] Cert.ReferenceIdeal.Gen.bcast_S128_S1x128_1 (W6 m ρ c (Proc.devRef .tc main_arg11)) :=
  (c2_stretch_v13 (W7 m ρ c)).trans ((bias128_eq _).trans (congrArg _ (W7_from6_main_arg11 m ρ c)))

/-- The node bias as the node region finds it. -/
theorem c2_v18_W10 (c : Dev nD) :
    W10 m ρ c (Proc.devRef .tc main_v18)
      = broadcastInDim Cert.ReferenceIdeal.S1x128 ![1] Cert.ReferenceIdeal.Gen.bcast_S128_S1x128_1 (W6 m ρ c (Proc.devRef .tc main_arg9)) :=
  (c2_stretch_v18 (W9 m ρ c)).trans ((bias128_eq _).trans (congrArg _ (W9_from6_main_arg9 m ρ c)))

/-- The gathered rows as the edge region finds them: the second stretch does not write them. -/
theorem c2_v12_W8 (c : Dev nD) (hs : SrcOk (W6 m ρ c (Proc.devRef .tc main_v1))) :
    W8 m ρ c (Proc.devRef .tc main_v12)
      = Host.gather Cert.ReferenceIdeal.gather_S50000x128_S800000x1_S800000x128_1_0_n_n_0_1_1128
          (W6 m ρ c (Proc.devRef .tc main_v11)) (Cert.Spec.idxCol (F := Ideal) (W6 m ρ c (Proc.devRef .tc main_v1))) :=
  calc W8 m ρ c (Proc.devRef .tc main_v12)
    _ = W7 m ρ c (Proc.devRef .tc main_v12) := by keep_stretch hostOps2_1
    _ = _ := v12_W7 m ρ c hs

/-- The messages: the edge region's output array is the dense edge piece of what it found. -/
theorem c2_v14_W9 (c : Dev nD) (hs : SrcOk (W6 m ρ c (Proc.devRef .tc main_v1))) :
    W9 m ρ c (Proc.devRef .tc main_v14)
      = Cert.Spec.edge128 (F := Ideal)
          (Host.gather Cert.ReferenceIdeal.gather_S50000x128_S800000x1_S800000x128_1_0_n_n_0_1_1128
            (W6 m ρ c (Proc.devRef .tc main_v11)) (Cert.Spec.idxCol (F := Ideal) (W6 m ρ c (Proc.devRef .tc main_v1))))
          (W6 m ρ c (Proc.devRef .tc main_arg2)) (W6 m ρ c (Proc.devRef .tc main_arg10))
          (broadcastInDim Cert.ReferenceIdeal.S1x128 ![1] Cert.ReferenceIdeal.Gen.bcast_S128_S1x128_1 (W6 m ρ c (Proc.devRef .tc main_arg11))) := by
  have e0 : V8 m ρ c main_v12 = _ := c2_v12_W8 m ρ c hs
  have e1 : V8 m ρ c main_arg2 = _ := W8_from6_main_arg2 m ρ c
  have e2 : V8 m ρ c main_arg10 = _ := W8_from6_main_arg10 m ρ c
  have e3 : V8 m ρ c main_v13 = _ := c2_v13_W8 m ρ c
  refine ((W9_arr m ρ c 4).trans (reg2_out (V8 m ρ) c)).trans ?_
  rw [e0, e1, e2, e3]

/-- The aggregate as the node region finds it. -/
theorem c2_v17_W10 (c : Dev nD) :
    W10 m ρ c (Proc.devRef .tc main_v17)
      = Host.scatterAdd Cert.ReferenceIdeal.scatter_S50000x128_S800000x1_S800000x128_1_0_0_1
          (broadcastInDim S50000x128 ![] bcast_S_S50000x128 (constant (F := Ideal) S_ .f32 0x00000000#32))
          (broadcastInDim S800000x1 ![0] bcast_S800000_S800000x1_0 (W6 m ρ c (Proc.devRef .tc main_v3)))
          (W9 m ρ c (Proc.devRef .tc main_v14)) := by
  rw [← W9_from6_main_v3 m ρ c, ← scatter128_eq]
  exact c2_stretch_v17 (W9 m ρ c)

/-- From one node update's output to the next: a layer of the contents at the earlier boundary. -/
theorem v19_W11 (c : Dev nD) (hs : SrcOk (W6 m ρ c (Proc.devRef .tc main_v1))) :
    W11 m ρ c (Proc.devRef .tc main_v19)
      = Cert.Spec.layer128 (F := Ideal) (W6 m ρ c (Proc.devRef .tc main_v11)) (W6 m ρ c (Proc.devRef .tc main_v1)) (W6 m ρ c (Proc.devRef .tc main_v3))
          (W6 m ρ c (Proc.devRef .tc main_arg2)) (W6 m ρ c (Proc.devRef .tc main_arg10)) (W6 m ρ c (Proc.devRef .tc main_arg11)) (W6 m ρ c (Proc.devRef .tc main_arg8)) (W6 m ρ c (Proc.devRef .tc main_arg9)) := by
  have e0 : V10 m ρ c main_v11 = _ := W10_from6_main_v11 m ρ c
  have e1 : V10 m ρ c main_v17 = _ := (c2_v17_W10 m ρ c).trans (congrArg _ (c2_v14_W9 m ρ c hs))
  have e2 : V10 m ρ c main_arg8 = _ := W10_from6_main_arg8 m ρ c
  have e3 : V10 m ρ c main_v18 = _ := c2_v18_W10 m ρ c
  refine ((W11_arr m ρ c 4).trans (reg3_out (V10 m ρ) c)).trans ?_
  rw [e0, e1, e2, e3]
  rfl

end Cert.KernelIdeal.Net

end
-- ==== Proof.Reg4.lean ====
/-
  The third edge-message region.  Its 200 grid points each take a block of 4000 consecutive edges: the
  rows of the gathered source features, the rows of the edge attributes, the whole projection
  `We` and the whole bias row, and leave `relu(xs + (ea · We + be))` for those rows.  Row `r` of the
  result depends only on row `r` of the row-blocked operands, so block `t` of the dense piece
  `edge128` is the block the point `t` writes; the 200 blocks tile the 800000 rows, so the array the
  region leaves is `edge128` of the arrays it found.
-/
import proofs.«415786_j61478161875137_1_alg».proof.Proof.Gen.KernelIdeal.Frame
import proofs.«415786_j61478161875137_1_alg».proof.Proof.SpecApply
import Idealize.ShloMosaic.Lib.Pipeline.Value
import Idealize.ShloMosaic.Lib.ValueIdx
import Idealize.ShloMosaic.PureOps.Ideal.Laws
import Idealize.ShloMosaic.PureOps.Ideal

set_option maxRecDepth 16384

noncomputable section

namespace Cert.KernelIdeal.Net

open Idealize.ShloMosaic Idealize.ShloMosaic.TcCoe Idealize.SL.Sem
open Cert.KernelIdeal Cert.KernelIdeal.Gen
open Idealize.ShloMosaic.ValueIdx

/-! ## One block: the body's result at row `r`, column `q` -/

/-- The contraction's left operand is read at the output's row … -/
theorem reg4_lhs_0 (i : S4000x128.Idx) (q : dot_S4000x8_S8x128_S4000x128_1_0_0_1_n_n.contr.Idx) :
    (dot_S4000x8_S8x128_S4000x128_1_0_0_1_n_n.lhsIdx i q 0).val = (i 0).val := by
  unfold DotDims.lhsIdx
  rw [dif_neg (show ¬(0 : Fin S4000x8.rank) ∈ dot_S4000x8_S8x128_S4000x128_1_0_0_1_n_n.lhsBatch by decide), dif_pos (show (0 : Fin S4000x8.rank) ∈ dot_S4000x8_S8x128_S4000x128_1_0_0_1_n_n.lhsNonContracting by decide)]
  rfl
/-- … and the contracted coordinate; -/
theorem reg4_lhs_1 (i : S4000x128.Idx) (q : dot_S4000x8_S8x128_S4000x128_1_0_0_1_n_n.contr.Idx) :
    (dot_S4000x8_S8x128_S4000x128_1_0_0_1_n_n.lhsIdx i q 1).val = (q ⟨0, by decide⟩).val :=
  dot_S4000x8_S8x128_S4000x128_1_0_0_1_n_n.lhsIdx_val_of_single rfl i q
/-- the right operand at the contracted coordinate … -/
theorem reg4_rhs_0 (i : S4000x128.Idx) (q : dot_S4000x8_S8x128_S4000x128_1_0_0_1_n_n.contr.Idx) :
    (dot_S4000x8_S8x128_S4000x128_1_0_0_1_n_n.rhsIdx i q 0).val = (q ⟨0, by decide⟩).val :=
  dot_S4000x8_S8x128_S4000x128_1_0_0_1_n_n.rhsIdx_val_of_single rfl i q
/-- … and the output's column. -/
theorem reg4_rhs_1 (i : S4000x128.Idx) (q : dot_S4000x8_S8x128_S4000x128_1_0_0_1_n_n.contr.Idx) :
    (dot_S4000x8_S8x128_S4000x128_1_0_0_1_n_n.rhsIdx i q 1).val = (i 1).val := by
  unfold DotDims.rhsIdx
  rw [dif_neg (show ¬(1 : Fin S8x128.rank) ∈ dot_S4000x8_S8x128_S4000x128_1_0_0_1_n_n.rhsBatch by decide), dif_pos (show (1 : Fin S8x128.rank) ∈ dot_S4000x8_S8x128_S4000x128_1_0_0_1_n_n.rhsNonContracting by decide)]
  rfl

/-- The block product `ea · We` at row `r`, column `q`: the sum over the 8 attributes. -/
theorem reg4_block_dot (x1 : Vec Ideal S4000x8 .f32) (x2 : Vec Ideal S8x128 .f32) (r : Fin 4000) (q : Fin 128) :
    matmul dot_S4000x8_S8x128_S4000x128_1_0_0_1_n_n none (truncf .bf16 x1 bitsLt_bf16_f32) (truncf .bf16 x2 bitsLt_bf16_f32)
        (constant (F := Ideal) S4000x128 .f32 0x00000000#32) (ix2 r q)
      = ∑ k : Fin 8, x1 (ix2 r k) * x2 (ix2 k q) := by
  show FloatOps.matmul _ _ _ _ (constant (F := Ideal) S4000x128 .f32 0x00000000#32) _ = _
  rw [Ideal.matmul_constant_zero_apply, ← Equiv.sum_comp (contrEquiv1 dot_S4000x8_S8x128_S4000x128_1_0_0_1_n_n 8 rfl rfl).symm]
  refine Finset.sum_congr rfl fun k _ => ?_
  have hk := contrEquiv1_symm_val dot_S4000x8_S8x128_S4000x128_1_0_0_1_n_n 8 rfl rfl k
  have el : dot_S4000x8_S8x128_S4000x128_1_0_0_1_n_n.lhsIdx (ix2 r q) ((contrEquiv1 dot_S4000x8_S8x128_S4000x128_1_0_0_1_n_n 8 rfl rfl).symm k) = ix2 r k := funext fun a => Fin.ext (by
    match a with
    | ⟨0, _⟩ => exact reg4_lhs_0 _ _
    | ⟨1, _⟩ => exact (reg4_lhs_1 _ _).trans hk)
  have er : dot_S4000x8_S8x128_S4000x128_1_0_0_1_n_n.rhsIdx (ix2 r q) ((contrEquiv1 dot_S4000x8_S8x128_S4000x128_1_0_0_1_n_n 8 rfl rfl).symm k) = ix2 k q := funext fun a => Fin.ext (by
    match a with
    | ⟨0, _⟩ => exact (reg4_rhs_0 _ _).trans hk
    | ⟨1, _⟩ => exact reg4_rhs_1 _ _)
  rw [truncf_apply, truncf_apply, el, er]

/-- The bias row spread over the block's rows reads the row's column. -/
theorem reg4_block_bias (x3 : Vec Ideal S1x128 .f32) (r : Fin 4000) (q : Fin 128) :
    broadcastTo S4000x128 x3 broadcasts_S1x128_S4000x128 (ix2 r q) = x3 (ix2 (0 : Fin 1) q) :=
  broadcastTo_apply x3 broadcasts_S1x128_S4000x128 (ix2 r q) (ix2 (0 : Fin 1) q) (fun a => by
    match a with
    | ⟨0, _⟩ => rfl
    | ⟨1, _⟩ => rfl)

/-- The body's result on a block, entry by entry. -/
theorem reg4_block_apply (x0 : Vec Ideal S4000x128 .f32) (x1 : Vec Ideal S4000x8 .f32) (x2 : Vec Ideal S8x128 .f32)
    (x3 : Vec Ideal S1x128 .f32) (r : Fin 4000) (q : Fin 128) :
    k4_pay1 x0 x1 x2 x3 (ix2 r q)
      = max (x0 (ix2 r q) + ((∑ k : Fin 8, x1 (ix2 r k) * x2 (ix2 k q)) + x3 (ix2 (0 : Fin 1) q))) 0 := by
  unfold k4_pay1
  rw [maximumf_apply, addf_apply, addf_apply, broadcast_apply, shapeCast_self, shapeCast_self, reg4_block_dot,
    reg4_block_bias]
  show max _ (Ideal.ofBits .f32 0x00000000#32) = _
  rw [Ideal.ofBits_zero_f32]

/-! ## One block against the dense piece -/

/-- A block of 4000 rows whose operands are the rows `i 0` of the row-blocked arrays and the whole of
    the projection and the bias: the body's result at `j` is the dense piece at `i`, the same column. -/
theorem reg4_block_eq (xs : FVec Ideal S800000x128 .f32) (ea : FVec Ideal S800000x8 .f32) (We : FVec Ideal S8x128 .f32)
    (be1 : FVec Ideal S1x128 .f32) (x0 : Vec Ideal S4000x128 .f32) (x1 : Vec Ideal S4000x8 .f32) (x2 : Vec Ideal S8x128 .f32)
    (x3 : Vec Ideal S1x128 .f32) (j : S4000x128.Idx) (i : S800000x128.Idx) (hi : (i 1).val = (j 1).val)
    (h0 : ∀ q : Fin 128, x0 (ix2 (j 0) q) = xs (ix2 (i 0) q))
    (h1 : ∀ k : Fin 8, x1 (ix2 (j 0) k) = ea (ix2 (i 0) k))
    (h2 : ∀ y : S8x128.Idx, x2 y = We y) (h3 : ∀ y : S1x128.Idx, x3 y = be1 y) :
    k4_pay1 x0 x1 x2 x3 j = Cert.Spec.edge128 (F := Ideal) xs ea We be1 i := by
  obtain ⟨r, q, rfl⟩ : ∃ (r : Fin 4000) (q : Fin 128), j = ix2 r q := ⟨j 0, j 1, eq_ix2 j⟩
  obtain ⟨R, Q, rfl⟩ : ∃ (R : Fin 800000) (Q : Fin 128), i = ix2 R Q := ⟨i 0, i 1, eq_ix2 i⟩
  obtain rfl : Q = q := Fin.ext hi
  have h0' : ∀ q' : Fin 128, x0 (ix2 r q') = xs (ix2 R q') := h0
  have h1' : ∀ k : Fin 8, x1 (ix2 r k) = ea (ix2 R k) := h1
  rw [reg4_block_apply, Cert.Spec.edge128_apply, h0', h3]
  simp only [h1', h2]

/-! ## The blocks against the array -/

variable (V : (c : Dev nD) → (b : Ref sig .tc) → Buf (Elt Ideal) ((c : Thread nD τ).loc b))

theorem reg4_zero_offsets : (![0, 0] : Fin 2 → Nat) = fun _ => 0 :=
  funext fun a => by match a with | ⟨0, _⟩ => rfl | ⟨1, _⟩ => rfl

/-- The index maps over the grid: point `t` takes row block `t` of the three row-blocked arrays and
    the one block of the projection and of the bias. -/
theorem reg4_index_maps : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point `t` writes back is block `t` of the dense piece of the arrays the region found. -/
theorem reg4_flushed (c : Dev nD) (t : Fin cfg4.N) :
    (dat4 (F := Ideal) V c).flushed 4 t = ((cfg4.win 4).blk t).view.read (Elt Ideal)
      (Cert.Spec.edge128 (F := Ideal) (V c main_v20) (V c main_arg2) (V c main_arg14) (V c main_v21)) := by
  show (cfg4.win 4).cut (grid4.coords t) ((dat4 V c).after 4 t) = _
  rw [after4_4]
  unfold out4_4
  rw [View.canon_unit_zero reg4_zero_offsets]
  simp only [View.ld_unit_zero (S := S4000x128) reg4_zero_offsets, View.ld_unit_zero (S := S4000x8) reg4_zero_offsets,
    View.ld_unit_zero (S := S8x128) reg4_zero_offsets, View.ld_unit_zero (S := S1x128) reg4_zero_offsets]
  obtain ⟨e00, e01, e10, e11, e20, e21, e30, e31, e40, e41⟩ := reg4_index_maps t
  funext j
  refine reg4_block_eq (V c main_v20) (V c main_arg2) (V c main_arg14) (V c main_v21) (iblk4 V c 0 t) (iblk4 V c 1 t)
    (iblk4 V c 2 t) (iblk4 V c 3 t) j (((cfg4.win 4).blk t).view.emb j) ?_ ?_ ?_ ?_ ?_
  · show win4_4.index t (1 : Fin 2) * 128 + 1 * (j 1).val = (j 1).val
    omega
  · intro q
    show V c main_v20 (((cfg4.win 0).blk t).view.emb (ix2 (j 0) q)) = V c main_v20 (ix2 ((((cfg4.win 4).blk t).view.emb j) 0) q)
    refine congrArg (V c main_v20) (funext fun a => Fin.ext ?_)
    match a with
    | ⟨0, _⟩ => show win4_0.index t (0 : Fin 2) * 4000 + 1 * (j 0).val = win4_4.index t (0 : Fin 2) * 4000 + 1 * (j 0).val; omega
    | ⟨1, _⟩ => show win4_0.index t (1 : Fin 2) * 128 + 1 * q.val = q.val; omega
  · intro k
    show V c main_arg2 (((cfg4.win 1).blk t).view.emb (ix2 (j 0) k)) = V c main_arg2 (ix2 ((((cfg4.win 4).blk t).view.emb j) 0) k)
    refine congrArg (V c main_arg2) (funext fun a => Fin.ext ?_)
    match a with
    | ⟨0, _⟩ => show win4_1.index t (0 : Fin 2) * 4000 + 1 * (j 0).val = win4_4.index t (0 : Fin 2) * 4000 + 1 * (j 0).val; omega
    | ⟨1, _⟩ => show win4_1.index t (1 : Fin 2) * 8 + 1 * k.val = k.val; omega
  · intro y
    show V c main_arg14 (((cfg4.win 2).blk t).view.emb y) = V c main_arg14 y
    refine congrArg (V c main_arg14) (funext fun a => Fin.ext ?_)
    match a with
    | ⟨0, _⟩ => show win4_2.index t (0 : Fin 2) * 8 + 1 * (y 0).val = (y 0).val; omega
    | ⟨1, _⟩ => show win4_2.index t (1 : Fin 2) * 128 + 1 * (y 1).val = (y 1).val; omega
  · intro y
    show V c main_v21 (((cfg4.win 3).blk t).view.emb y) = V c main_v21 y
    refine congrArg (V c main_v21) (funext fun a => Fin.ext ?_)
    match a with
    | ⟨0, _⟩ => show win4_3.index t (0 : Fin 2) * 1 + 1 * (y 0).val = (y 0).val; omega
    | ⟨1, _⟩ => show win4_3.index t (1 : Fin 2) * 128 + 1 * (y 1).val = (y 1).val; omega

/-- An index of the array is in point `t`'s block iff each coordinate is in the block's range on its axis. -/
theorem reg4_mem_blk (t : Fin cfg4.N) (i : S800000x128.Idx) :
    i ∈ ((cfg4.win 4).blk t).view.set ↔ ∀ a : Fin 2, win4_4.index t a * S4000x128.size a ≤ (i a).val
      ∧ (i a).val < win4_4.index t a * S4000x128.size a + S4000x128.size a := by
  show i ∈ ((View.whole main_v22).slice (win4_4.rect t)).set ↔ _
  rw [View.set_slice_whole, Rect.mem_set_unit]
  exact Iff.rfl

/-- Row `r` is in the block of point `r / 4000`: the 200 blocks tile the 800000 rows. -/
theorem reg4_cover (i : S800000x128.Idx) :
    ∃ t : Fin cfg4.N, (cfg4.win 4).flush t = true ∧ i ∈ ((cfg4.win 4).blk t).view.set := by
  have hN : cfg4.N = 200 := N_4
  have hi0 : (i 0).val < 800000 := (i 0).isLt
  have hi1 : (i 1).val < 128 := (i 1).isLt
  have hlt : (i 0).val / 4000 < cfg4.N := by rw [hN]; omega
  obtain ⟨e00, e01, e10, e11, e20, e21, e30, e31, e40, e41⟩ := reg4_index_maps ⟨(i 0).val / 4000, hlt⟩
  have e40' : win4_4.index ⟨(i 0).val / 4000, hlt⟩ (0 : Fin 2) = (i 0).val / 4000 := e40
  refine ⟨⟨(i 0).val / 4000, hlt⟩, flush4_4 _, ?_⟩
  rw [reg4_mem_blk]
  intro a
  match a with
  | ⟨0, _⟩ =>
    show win4_4.index ⟨(i 0).val / 4000, hlt⟩ (0 : Fin 2) * 4000 ≤ (i 0).val
      ∧ (i 0).val < win4_4.index ⟨(i 0).val / 4000, hlt⟩ (0 : Fin 2) * 4000 + 4000
    omega
  | ⟨1, _⟩ =>
    show win4_4.index ⟨(i 0).val / 4000, hlt⟩ (1 : Fin 2) * 128 ≤ (i 1).val
      ∧ (i 1).val < win4_4.index ⟨(i 0).val / 4000, hlt⟩ (1 : Fin 2) * 128 + 128
    omega

/-- After the region, its output array is the dense piece of the arrays the region found. -/
theorem reg4_out (c : Dev nD) :
    (dat4 (F := Ideal) V c).arrAt 4 cfg4.N
      = Cert.Spec.edge128 (F := Ideal) (V c main_v20) (V c main_arg2) (V c main_arg14) (V c main_v21) :=
  (dat4 (F := Ideal) V c).arrAt_eq_of_cover 4
    (Cert.Spec.edge128 (F := Ideal) (V c main_v20) (V c main_arg2) (V c main_arg14) (V c main_v21))
    (fun t _ => reg4_flushed V c t) reg4_cover

end Cert.KernelIdeal.Net

end
-- ==== Proof.Reg5.lean ====
/-
  Node update 128 → 128, region by blocks.  The body's payload at row `r`, column `q` of a block is
  `max (Σ_k (x[r,k] + agg[r,k]) · W[k,q] + b[0,q]) 0` of the blocks it loads, `k` over the 128 inner
  coordinates; the row blocks of 5000 nodes tile the 50000 rows, the weight and the bias are read
  whole at every point, so what each point writes back is its block of the dense node update of the
  four arrays, and the ten blocks cover the output array.
-/
import proofs.«415786_j61478161875137_1_alg».proof.Proof.Gen.KernelIdeal.Frame
import proofs.«415786_j61478161875137_1_alg».proof.Proof.SpecApply
import Idealize.ShloMosaic.Lib.Pipeline.Value
import Idealize.ShloMosaic.Lib.ValueIdx
import Idealize.ShloMosaic.PureOps.Ideal.Laws
import Idealize.ShloMosaic.PureOps.Ideal

set_option maxRecDepth 16384

noncomputable section

namespace Cert.KernelIdeal.Net

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

namespace NodeL3

/-! ## The contraction of one block: its two operand indices, axis by axis -/

theorem upd_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem upd_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem upd_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem upd_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product into the zero accumulator, at row `r` and column `q`: the sum over the 128 inner coordinates. -/
theorem upd_dot_apply {φ₁ φ₂ : FTy} (a : FVec Ideal S5000x128 φ₁) (w : FVec Ideal S128x128 φ₂) (r : Fin 5000) (q : Fin 128) :
    FloatOps.matmul dot_S5000x128_S128x128_S5000x128_1_0_0_1_n_n none a w (constant S5000x128 .f32 0x00000000#32) (ix2 r q)
      = ∑ k : Fin 128, a (ix2 r k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact upd_lhs_0 _ _
    | ⟨1, _⟩ => exact (upd_lhs_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (upd_rhs_0 _ _).trans hk
    | ⟨1, _⟩ => exact upd_rhs_1 _ _)
  rw [el, er]

/-- The bias row spread over the block's rows reads the row's entry of the column. -/
theorem upd_bias_apply (v : FVec Ideal S1x128 .f32) (h : S1x128.Broadcasts S5000x128) (r : Fin 5000) (q : Fin 128) :
    broadcastTo S5000x128 v h (ix2 r q) = v (ix2 (0 : Fin 1) q) :=
  broadcastTo_apply v h (ix2 r q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The body's payload at row `r`, column `q` of the block. -/
theorem upd_pay_apply (v0 v1 : Vec Ideal S5000x128 .f32) (v5 : Vec Ideal S128x128 .f32) (v8 : Vec Ideal S1x128 .f32)
    (r : Fin 5000) (q : Fin 128) :
    k5_pay1 (F := Ideal) v0 v1 v5 v8 (ix2 r q)
      = max ((∑ k : Fin 128, (v0 (ix2 r k) + v1 (ix2 r k)) * v5 (ix2 k q)) + v8 (ix2 (0 : Fin 1) q)) 0 := by
  unfold k5_pay1
  simp only [shapeCast_self]
  rw [maximumf_apply, addf_apply, broadcast_apply, upd_bias_apply]
  refine congrArg₂ max (congrArg (· + v8 (ix2 (0 : Fin 1) q)) ?_) Ideal.ofBits_zero_f32
  exact upd_dot_apply _ _ r q

/-- One entry of a block's payload is the same entry of the dense piece of the whole arrays, once each loaded block
    agrees with its array along the row and the column that entry reads. -/
theorem upd_block (x agg : FVec Ideal S50000x128 .f32) (W : FVec Ideal S128x128 .f32) (b : FVec Ideal S1x128 .f32)
    (v0 v1 : Vec Ideal S5000x128 .f32) (v5 : Vec Ideal S128x128 .f32) (v8 : Vec Ideal S1x128 .f32)
    (r : Fin 5000) (q : Fin 128) (ri : Fin 50000)
    (h0 : ∀ k : Fin 128, v0 (ix2 r k) = x (ix2 ri k))
    (h1 : ∀ k : Fin 128, v1 (ix2 r k) = agg (ix2 ri k))
    (h5 : ∀ k : Fin 128, v5 (ix2 k q) = W (ix2 k q))
    (h8 : v8 (ix2 (0 : Fin 1) q) = b (ix2 (0 : Fin 1) q)) :
    k5_pay1 (F := Ideal) v0 v1 v5 v8 (ix2 r q) = Cert.Spec.node128 (F := Ideal) x agg W b (ix2 ri q) := by
  rw [upd_pay_apply, Cert.Spec.node128_apply]
  simp only [h0, h1, h5, h8]

/-! ## What one point writes back -/

theorem upd_origin : (![0, 0] : Fin 2 → Nat) = fun _ => 0 :=
  funext fun a => match a with | ⟨0, _⟩ => rfl | ⟨1, _⟩ => rfl

/-- The index maps over the grid: the row-blocked windows sit at block `t` of the rows, the weight and the bias at
    their one block. -/
theorem upd_index : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Point `t` writes back block `t` of the dense node update of the four arrays the region found. -/
theorem upd_flushed (c : Dev nD) (t : Fin cfg5.N) :
    (dat5 (F := Ideal) V c).flushed 4 t = ((cfg5.win 4).blk t).view.read (Elt Ideal)
      (Cert.Spec.node128 (F := Ideal) (V c main_v19) (V c main_v25) (V c main_arg12) (V c main_v26)) := by
  show (cfg5.win 4).cut (grid5.coords t) ((dat5 V c).after 4 t) = _
  rw [after5_4]
  unfold out5_4
  rw [View.canon_unit_zero upd_origin]
  simp only [View.ld_unit_zero (S := S5000x128) upd_origin, View.ld_unit_zero (S := S128x128) upd_origin, View.ld_unit_zero (S := S1x128) upd_origin]
  obtain ⟨e00, e01, e10, e11, e20, e21, e30, e31, e40, e41⟩ := upd_index t
  have hN : grid5.N = 10 := N_5
  have htN : t.val < 10 := hN ▸ t.isLt
  funext j
  have hj0 : (j 0).val < 5000 := (j 0).isLt
  have hj1 : (j 1).val < 128 := (j 1).isLt
  obtain ⟨r, q, rfl⟩ : ∃ (r : Fin 5000) (q : Fin 128), j = ix2 r q :=
    ⟨⟨(j 0).val, hj0⟩, ⟨(j 1).val, hj1⟩, funext fun a => match a with | ⟨0, _⟩ => rfl | ⟨1, _⟩ => rfl⟩
  have hr : r.val < 5000 := r.isLt
  have ee : ((cfg5.win 4).blk t).view.emb (ix2 r q) = ix2 (⟨t.val * 5000 + r.val, by omega⟩ : Fin 50000) q :=
    funext fun a => Fin.ext (by
      match a with
      | ⟨0, _⟩ => show win5_4.index t (0 : Fin 2) * 5000 + 1 * r.val = t.val * 5000 + r.val; omega
      | ⟨1, _⟩ => show win5_4.index t (1 : Fin 2) * 128 + 1 * q.val = q.val; omega)
  show k5_pay1 (F := Ideal) (iblk5 V c 0 t) (iblk5 V c 1 t) (iblk5 V c 2 t) (iblk5 V c 3 t) (ix2 r q)
    = Cert.Spec.node128 (F := Ideal) (V c main_v19) (V c main_v25) (V c main_arg12) (V c main_v26) (((cfg5.win 4).blk t).view.emb (ix2 r q))
  refine Eq.trans ?_ (congrArg (Cert.Spec.node128 (F := Ideal) (V c main_v19) (V c main_v25) (V c main_arg12) (V c main_v26)) ee).symm
  refine upd_block (V c main_v19) (V c main_v25) (V c main_arg12) (V c main_v26)
    (iblk5 V c 0 t) (iblk5 V c 1 t) (iblk5 V c 2 t) (iblk5 V c 3 t) r q ⟨t.val * 5000 + r.val, by omega⟩ ?_ ?_ ?_ ?_
  · intro k
    show V c main_v19 (((cfg5.win 0).blk t).view.emb (ix2 r k)) = V c main_v19 (ix2 (⟨t.val * 5000 + r.val, by omega⟩ : Fin 50000) k)
    refine congrArg (V c main_v19) (funext fun a => Fin.ext ?_)
    match a with
    | ⟨0, _⟩ => show win5_0.index t (0 : Fin 2) * 5000 + 1 * r.val = t.val * 5000 + r.val; omega
    | ⟨1, _⟩ => show win5_0.index t (1 : Fin 2) * 128 + 1 * k.val = k.val; omega
  · intro k
    show V c main_v25 (((cfg5.win 1).blk t).view.emb (ix2 r k)) = V c main_v25 (ix2 (⟨t.val * 5000 + r.val, by omega⟩ : Fin 50000) k)
    refine congrArg (V c main_v25) (funext fun a => Fin.ext ?_)
    match a with
    | ⟨0, _⟩ => show win5_1.index t (0 : Fin 2) * 5000 + 1 * r.val = t.val * 5000 + r.val; omega
    | ⟨1, _⟩ => show win5_1.index t (1 : Fin 2) * 128 + 1 * k.val = k.val; omega
  · intro k
    show V c main_arg12 (((cfg5.win 2).blk t).view.emb (ix2 k q)) = V c main_arg12 (ix2 k q)
    refine congrArg (V c main_arg12) (funext fun a => Fin.ext ?_)
    match a with
    | ⟨0, _⟩ => show win5_2.index t (0 : Fin 2) * 128 + 1 * k.val = k.val; omega
    | ⟨1, _⟩ => show win5_2.index t (1 : Fin 2) * 128 + 1 * q.val = q.val; omega
  · show V c main_v26 (((cfg5.win 3).blk t).view.emb (ix2 (0 : Fin 1) q)) = V c main_v26 (ix2 (0 : Fin 1) q)
    refine congrArg (V c main_v26) (funext fun a => Fin.ext ?_)
    match a with
    | ⟨0, _⟩ => show win5_3.index t (0 : Fin 2) * 1 + 1 * 0 = 0; omega
    | ⟨1, _⟩ => show win5_3.index t (1 : Fin 2) * 128 + 1 * q.val = q.val; omega

/-! ## The ten blocks fill the array -/

/-- An index of the array is in point `t`'s block iff each coordinate is in the block's range on its axis. -/
theorem upd_mem_blk (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v27).slice (win5_4.rect t)).set ↔ _
  rw [View.set_slice_whole, Rect.mem_set_unit]
  exact Iff.rfl

/-- Row `r` is in the block of point `r / 5000`. -/
theorem upd_cover (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : grid5.N = 10 := N_5
  have hlt : (i 0).val / 5000 < grid5.N := by rw [hN]; omega
  obtain ⟨t, ht⟩ : ∃ t : Fin cfg5.N, t.val = (i 0).val / 5000 := ⟨⟨(i 0).val / 5000, hlt⟩, rfl⟩
  refine ⟨t, flush5_4 t, ?_⟩
  rw [upd_mem_blk]
  obtain ⟨-, -, -, -, -, -, -, -, e40, e41⟩ := upd_index t
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

end NodeL3

/-- After the region, its output array is the dense piece of the arrays the region found. -/
theorem reg5_out (c : Dev nD) :
    (dat5 (F := Ideal) V c).arrAt 4 cfg5.N
      = Cert.Spec.node128 (F := Ideal) (V c main_v19) (V c main_v25) (V c main_arg12) (V c main_v26) :=
  (dat5 (F := Ideal) V c).arrAt_eq_of_cover 4
    (Cert.Spec.node128 (F := Ideal) (V c main_v19) (V c main_v25) (V c main_arg12) (V c main_v26))
    (fun t _ => NodeL3.upd_flushed V c t) NodeL3.upd_cover

end Cert.KernelIdeal.Net

end
-- ==== Proof.Chain3.lean ====
/-
  The third layer, boundary by boundary.

  The node update's region leaves `relu((x + agg) · W + b)` of what it found; what it found is the layer's
  input `x` (unchanged since the previous node update), the node weights, the bias as a row, and `agg`, which
  the stretch before it wrote as the sum of the edge messages into their destination nodes.  The edge messages
  are what their region leaves: `relu(xs + (ea · We + be))` of the gathered rows `xs`, the edge attributes, the
  edge weights and the edge bias as a row.  The gathered rows are the plain gather of `x` at the wrapped source
  indices, every index being in range.  Everything else read on the way is an argument or the destination row,
  unchanged since the earlier boundary.  Put together this is the layer, term for term.
-/
import proofs.«415786_j61478161875137_1_alg».proof.Proof.Gen.KernelIdeal.Frame
import proofs.«415786_j61478161875137_1_alg».proof.Proof.Spec
import proofs.«415786_j61478161875137_1_alg».proof.Proof.SrcDom
import Idealize.ShloMosaic.Lib.StableHlo.Run
import proofs.«415786_j61478161875137_1_alg».proof.Proof.Reg4
import proofs.«415786_j61478161875137_1_alg».proof.Proof.Reg5
import proofs.«415786_j61478161875137_1_alg».proof.Proof.Bridge
import proofs.«415786_j61478161875137_1_alg».proof.Proof.Walk
import proofs.«415786_j61478161875137_1_alg».proof.Proof.Take
import Idealize.ShloMosaic.PureOps.Ideal

set_option maxRecDepth 16384

noncomputable section

namespace Cert.KernelIdeal.Net

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The gathered rows are written by the first of the two stretches before the edge messages; the second, the reshape of the edge bias, leaves them. -/
theorem l3_W13_main_v20 (c : Dev nD) : W13 m ρ c (Proc.devRef .tc main_v20) = W12 m ρ c (Proc.devRef .tc main_v20) :=
  calc W13 m ρ c (Proc.devRef .tc main_v20)
    _ = W12 m ρ c (Proc.devRef .tc main_v20) := StableHlo.after_of_forall_not_mem (b := Proc.devRef .tc main_v20) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ### The three values the stretches write -/

/-- The stretch before the node update sums the messages into their destination nodes … -/
theorem hostOps5_v25 (V : Valuation τ sig (Elt Ideal)) :
    StableHlo.after hostOps5 V (Proc.devRef .tc main_v25)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (V (Proc.devRef .tc main_v3)))
          (V (Proc.devRef .tc main_v22)) := by
  after_results_simp

/-- … and makes the node bias a row. -/
theorem hostOps5_v26 (V : Valuation τ sig (Elt Ideal)) :
    StableHlo.after hostOps5 V (Proc.devRef .tc main_v26)
      = broadcastInDim Cert.ReferenceIdeal.S1x128 ![1] Cert.ReferenceIdeal.Gen.bcast_S128_S1x128_1 (V (Proc.devRef .tc main_arg13)) := by
  after_results_simp
  exact bias128_eq _

/-- The stretch before the edge messages makes the edge bias a row. -/
theorem hostOps4_1_v21 (V : Valuation τ sig (Elt Ideal)) :
    StableHlo.after hostOps4_1 V (Proc.devRef .tc main_v21)
      = broadcastInDim Cert.ReferenceIdeal.S1x128 ![1] Cert.ReferenceIdeal.Gen.bcast_S128_S1x128_1 (V (Proc.devRef .tc main_arg15)) := by
  after_results_simp
  exact bias128_eq _

/-! ### The two regions -/

/-- The node update's output is the dense piece of what the region found. -/
theorem v27_top (c : Dev nD) :
    W16 m ρ c (Proc.devRef .tc main_v27)
      = Cert.Spec.node128 (F := Ideal) (W15 m ρ c (Proc.devRef .tc main_v19)) (W15 m ρ c (Proc.devRef .tc main_v25))
          (W15 m ρ c (Proc.devRef .tc main_arg12)) (W15 m ρ c (Proc.devRef .tc main_v26)) :=
  (W16_arr m ρ c 4).trans (reg5_out (V15 m ρ) c)

/-- The edge messages are the dense piece of what their region found. -/
theorem v22_W14 (c : Dev nD) :
    W14 m ρ c (Proc.devRef .tc main_v22)
      = Cert.Spec.edge128 (F := Ideal) (W13 m ρ c (Proc.devRef .tc main_v20)) (W13 m ρ c (Proc.devRef .tc main_arg2))
          (W13 m ρ c (Proc.devRef .tc main_arg14)) (W13 m ρ c (Proc.devRef .tc main_v21)) :=
  (W14_arr m ρ c 4).trans (reg4_out (V13 m ρ) c)

/-- From one node update's output to the next: a layer of the contents at the earlier boundary. -/
theorem v27_W16 (c : Dev nD) (hs : SrcOk (W11 m ρ c (Proc.devRef .tc main_v1))) :
    W16 m ρ c (Proc.devRef .tc main_v27)
      = Cert.Spec.layer128 (F := Ideal) (W11 m ρ c (Proc.devRef .tc main_v19)) (W11 m ρ c (Proc.devRef .tc main_v1)) (W11 m ρ c (Proc.devRef .tc main_v3))
          (W11 m ρ c (Proc.devRef .tc main_arg2)) (W11 m ρ c (Proc.devRef .tc main_arg14)) (W11 m ρ c (Proc.devRef .tc main_arg15)) (W11 m ρ c (Proc.devRef .tc main_arg12)) (W11 m ρ c (Proc.devRef .tc main_arg13)) := by
  have e25 : W15 m ρ c (Proc.devRef .tc main_v25) = _ := hostOps5_v25 (W14 m ρ c)
  have e26 : W15 m ρ c (Proc.devRef .tc main_v26) = _ := hostOps5_v26 (W14 m ρ c)
  have e21 : W13 m ρ c (Proc.devRef .tc main_v21) = _ := hostOps4_1_v21 (W12 m ρ c)
  rw [v27_top m ρ c, e25, e26, v22_W14 m ρ c, e21, l3_W13_main_v20 m ρ c, v20_W12 m ρ c hs,
    W15_from11_main_v19 m ρ c, W15_from11_main_arg12 m ρ c, W14_from11_main_v3 m ρ c, W14_from11_main_arg13 m ρ c,
    W13_from11_main_arg2 m ρ c, W13_from11_main_arg14 m ρ c, W12_from11_main_arg15 m ρ c, scatter128_eq]
  unfold Cert.Spec.layer128
  with_reducible rfl

end Cert.KernelIdeal.Net

end
-- ==== Proof.ChainTail.lean ====
/-
  The last stretch of host operations: the per-graph mean. Its sixteen operations, run from any buffer contents,
  leave in the result buffer the per-graph sum of the node rows over `max(count, 1)`, as a function of the graph
  index column and the node features it started from; at the contents the last region leaves, that is the claim.
-/
import proofs.«415786_j61478161875137_1_alg».proof.Proof.Gen.KernelIdeal.Frame
import proofs.«415786_j61478161875137_1_alg».proof.Proof.Spec
import Idealize.ShloMosaic.Lib.StableHlo.Run
import Idealize.ShloMosaic.PureOps.Ideal

set_option maxRecDepth 16384

noncomputable section

namespace Cert.KernelIdeal.Net

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The last stretch run from ANY contents `V`: each operation's result is read at its own buffer and every other
    buffer is as it was, so the result buffer holds the stretch's composition at `V`'s graph-index column and node
    features, which is the mean of the target function term for term. -/
theorem tail_pool {F : FTy → Type} [FloatOps F] (V : Valuation τ sig (Elt F)) :
    StableHlo.after (hostOps6 (F := F)) V (Proc.devRef .tc main_v39)
      = Cert.Spec.pool (F := F) (V (Proc.devRef .tc main_arg3)) (V (Proc.devRef .tc main_v27)) := by
  after_results_simp
  unfold Cert.Spec.pool
  rfl

/-- The last stretch: the per-graph mean of the third layer's output. -/
theorem v39_W17 (c : Dev nD) :
    W17 m ρ c (Proc.devRef .tc main_v39) = Cert.Spec.pool (F := Ideal) (W16 m ρ c (Proc.devRef .tc main_arg3)) (W16 m ρ c (Proc.devRef .tc main_v27)) :=
  tail_pool (W16 m ρ c)

end Cert.KernelIdeal.Net

end
-- ==== Proof.Keep.lean ====
import proofs.«415786_j61478161875137_1_alg».proof.Proof.Gen.KernelIdeal.Frame
import proofs.«415786_j61478161875137_1_alg».proof.Proof.Spec
import Idealize.ShloMosaic.Lib.StableHlo.Run
import Idealize.ShloMosaic.PureOps.Ideal

set_option maxRecDepth 16384

noncomputable section

namespace Cert.KernelIdeal.Net

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! No host operation and no region writes an argument, the two index rows are written once (in the first
    stretch), and a layer's output is written once: each is still there at the later boundaries.

    Each lemma is one chain of equalities down the boundaries, one per segment: a stretch of host operations none of
    which writes the buffer leaves it as it was; a region leaves every buffer it does not own as it was, and an array it
    only reads (an input window) as it was entered.  The chain ends at the launch memory, or, for the two index rows,
    at the first stretch, whose slice and reshape of the edge list are the source and destination rows. -/

theorem W6_main_arg2 (c : Dev nD) : W6 m ρ c (Proc.devRef .tc main_arg2) = m ((c.tc : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := (W4_arr m ρ c 1).trans (((dat0 (V3 m ρ) c).arrAt_in 1 rfl _).trans (A_eq0 (V3 m ρ) c 1))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

theorem W6_main_arg10 (c : Dev nD) : W6 m ρ c (Proc.devRef .tc main_arg10) = m ((c.tc : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg10) := rfl

theorem W6_main_arg11 (c : Dev nD) : W6 m ρ c (Proc.devRef .tc main_arg11) = m ((c.tc : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg11) := rfl

theorem W6_main_arg8 (c : Dev nD) : W6 m ρ c (Proc.devRef .tc main_arg8) = m ((c.tc : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg8) := rfl

theorem W6_main_arg9 (c : Dev nD) : W6 m ρ c (Proc.devRef .tc main_arg9) = m ((c.tc : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg9) := rfl

theorem W11_main_arg2 (c : Dev nD) : W11 m ρ c (Proc.devRef .tc main_arg2) = m ((c.tc : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg2) := (W9_arr m ρ c 1).trans (((dat2 (V8 m ρ) c).arrAt_in 1 rfl _).trans (A_eq2 (V8 m ρ) c 1))
    _ = W7 m ρ c (Proc.devRef .tc main_arg2) := StableHlo.after_of_forall_not_mem (b := Proc.devRef .tc main_arg2) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := (W4_arr m ρ c 1).trans (((dat0 (V3 m ρ) c).arrAt_in 1 rfl _).trans (A_eq0 (V3 m ρ) c 1))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

theorem W11_main_arg14 (c : Dev nD) : W11 m ρ c (Proc.devRef .tc main_arg14) = m ((c.tc : Thread nD τ).loc main_arg14) :=
  calc W11 m ρ c (Proc.devRef .tc main_arg14)
    _ = W10 m ρ c (Proc.devRef .tc main_arg14) := W11_of_ne m ρ c main_arg14 (by decide)
    _ = W9 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg14) := W9_of_ne m ρ c main_arg14 (by decide)
    _ = W7 m ρ c (Proc.devRef .tc main_arg14) := StableHlo.after_of_forall_not_mem (b := Proc.devRef .tc main_arg14) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg14) := rfl

theorem W11_main_arg15 (c : Dev nD) : W11 m ρ c (Proc.devRef .tc main_arg15) = m ((c.tc : Thread nD τ).loc main_arg15) :=
  calc W11 m ρ c (Proc.devRef .tc main_arg15)
    _ = W10 m ρ c (Proc.devRef .tc main_arg15) := W11_of_ne m ρ c main_arg15 (by decide)
    _ = W9 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg15) := W9_of_ne m ρ c main_arg15 (by decide)
    _ = W7 m ρ c (Proc.devRef .tc main_arg15) := StableHlo.after_of_forall_not_mem (b := Proc.devRef .tc main_arg15) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := StableHlo.after_of_forall_not_mem (b := Proc.devRef .tc main_arg15) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg15) := rfl

theorem W11_main_arg12 (c : Dev nD) : W11 m ρ c (Proc.devRef .tc main_arg12) = m ((c.tc : Thread nD τ).loc main_arg12) :=
  calc W11 m ρ c (Proc.devRef .tc main_arg12)
    _ = W10 m ρ c (Proc.devRef .tc main_arg12) := W11_of_ne m ρ c main_arg12 (by decide)
    _ = W9 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg12) := rfl

theorem W11_main_arg13 (c : Dev nD) : W11 m ρ c (Proc.devRef .tc main_arg13) = m ((c.tc : Thread nD τ).loc main_arg13) :=
  calc W11 m ρ c (Proc.devRef .tc main_arg13)
    _ = W10 m ρ c (Proc.devRef .tc main_arg13) := W11_of_ne m ρ c main_arg13 (by decide)
    _ = W9 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg13) := W9_of_ne m ρ c main_arg13 (by decide)
    _ = W7 m ρ c (Proc.devRef .tc main_arg13) := StableHlo.after_of_forall_not_mem (b := Proc.devRef .tc main_arg13) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg13) := rfl

theorem W16_main_arg3 (c : Dev nD) : W16 m ρ c (Proc.devRef .tc main_arg3) = m ((c.tc : Thread nD τ).loc main_arg3) :=
  calc W16 m ρ c (Proc.devRef .tc main_arg3)
    _ = W15 m ρ c (Proc.devRef .tc main_arg3) := W16_of_ne m ρ c main_arg3 (by decide)
    _ = W14 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg3) := W14_of_ne m ρ c main_arg3 (by decide)
    _ = W12 m ρ c (Proc.devRef .tc main_arg3) := StableHlo.after_of_forall_not_mem (b := Proc.devRef .tc main_arg3) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg3) := W11_of_ne m ρ c main_arg3 (by decide)
    _ = W9 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg3) := W9_of_ne m ρ c main_arg3 (by decide)
    _ = W7 m ρ c (Proc.devRef .tc main_arg3) := StableHlo.after_of_forall_not_mem (b := Proc.devRef .tc main_arg3) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg3) := rfl

theorem W6_main_v1 (c : Dev nD) : W6 m ρ c (Proc.devRef .tc main_v1) = Cert.Spec.srcOf (F := Ideal) (m ((c.tc : Thread nD τ).loc main_arg1)) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := StableHlo.after_of_forall_not_mem (b := Proc.devRef .tc main_v1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.Spec.srcOf (F := Ideal) (m ((c.tc : Thread nD τ).loc main_arg1)) := by
          show StableHlo.after hostOps0 _ (Proc.devRef .tc main_v1) = _
          after_results
          rfl

theorem W6_main_v3 (c : Dev nD) : W6 m ρ c (Proc.devRef .tc main_v3) = Cert.Spec.dstOf (F := Ideal) (m ((c.tc : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.Spec.dstOf (F := Ideal) (m ((c.tc : Thread nD τ).loc main_arg1)) := by
          show StableHlo.after hostOps0 _ (Proc.devRef .tc main_v3) = _
          after_results
          rfl

theorem W11_main_v1 (c : Dev nD) : W11 m ρ c (Proc.devRef .tc main_v1) = Cert.Spec.srcOf (F := Ideal) (m ((c.tc : Thread nD τ).loc main_arg1)) :=
  calc W11 m ρ c (Proc.devRef .tc main_v1)
    _ = W10 m ρ c (Proc.devRef .tc main_v1) := W11_of_ne m ρ c main_v1 (by decide)
    _ = W9 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v1) := W9_of_ne m ρ c main_v1 (by decide)
    _ = W7 m ρ c (Proc.devRef .tc main_v1) := StableHlo.after_of_forall_not_mem (b := Proc.devRef .tc main_v1) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := StableHlo.after_of_forall_not_mem (b := Proc.devRef .tc main_v1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.Spec.srcOf (F := Ideal) (m ((c.tc : Thread nD τ).loc main_arg1)) := by
          show StableHlo.after hostOps0 _ (Proc.devRef .tc main_v1) = _
          after_results
          rfl

theorem W11_main_v3 (c : Dev nD) : W11 m ρ c (Proc.devRef .tc main_v3) = Cert.Spec.dstOf (F := Ideal) (m ((c.tc : Thread nD τ).loc main_arg1)) :=
  calc W11 m ρ c (Proc.devRef .tc main_v3)
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Cert.Spec.dstOf (F := Ideal) (m ((c.tc : Thread nD τ).loc main_arg1)) := by
          show StableHlo.after hostOps0 _ (Proc.devRef .tc main_v3) = _
          after_results
          rfl

end Cert.KernelIdeal.Net

end
-- ==== Proof.KValue.lean ====
import proofs.«415786_j61478161875137_1_alg».proof.Proof.Chain1
import proofs.«415786_j61478161875137_1_alg».proof.Proof.Chain2
import proofs.«415786_j61478161875137_1_alg».proof.Proof.Chain3
import proofs.«415786_j61478161875137_1_alg».proof.Proof.ChainTail
import proofs.«415786_j61478161875137_1_alg».proof.Proof.Keep
import Idealize.ShloMosaic.PureOps.Ideal

set_option maxRecDepth 16384

noncomputable section

namespace Cert.KernelIdeal.Net

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result buffer at the end of the run is the network of the launch contents: the last stretch pools
    the third layer's output, each layer is a layer of what the boundary before it holds, and those
    boundaries still hold the arguments and the two index rows. -/
theorem result_eq (c : Dev nD) (hs : SrcOk (Cert.Spec.srcOf (F := Ideal) (m ((c.tc : Thread nD τ).loc main_arg1)))) :
    W17 m ρ c (Proc.devRef .tc main_v39) = Cert.Spec.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  have hs6 : SrcOk (W6 m ρ c (Proc.devRef .tc main_v1)) := by rw [W6_main_v1]; exact hs
  have hs11 : SrcOk (W11 m ρ c (Proc.devRef .tc main_v1)) := by rw [W11_main_v1]; exact hs
  rw [v39_W17, W16_main_arg3, v27_W16 m ρ c hs11, v19_W11 m ρ c hs6, v11_W6 m ρ c hs,
    W11_main_v1, W11_main_v3, W11_main_arg2, W11_main_arg14, W11_main_arg15, W11_main_arg12, W11_main_arg13,
    W6_main_v1, W6_main_v3, W6_main_arg2, W6_main_arg10, W6_main_arg11, W6_main_arg8, W6_main_arg9]
  rfl

end Cert.KernelIdeal.Net

end
-- ==== Proof.RefSpec.lean ====
/-
  The reference's result term is the network of its arguments: its operations, in order, are the
  definitions of the three layers and of the pooling, unfolded.
-/
import proofs.«415786_j61478161875137_1_alg».proof.Proof.Gen.ReferenceIdeal.Run
import proofs.«415786_j61478161875137_1_alg».proof.Proof.Spec
import Idealize.ShloMosaic.PureOps.Ideal

set_option maxRecDepth 16384

noncomputable section

namespace Cert.ReferenceIdeal.Net

open Idealize.ShloMosaic Idealize.ShloMosaic.TcCoe Idealize.SL.Sem
open Cert.ReferenceIdeal Cert.ReferenceIdeal.Facts₀ Cert.ReferenceIdeal.Facts Cert.ReferenceIdeal.Gen

theorem res_eq (m : (ℓ : Loc nD τ sig) → Buf (Elt Ideal) ℓ) (c : Dev nD) :
    Cert.ReferenceIdeal.Value.res_main_v81 (F := Ideal) m c = Cert.Spec.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold Cert.ReferenceIdeal.Value.res_main_v81 Cert.Spec.net Cert.Spec.pool Cert.Spec.layer128 Cert.Spec.layer64 Cert.Spec.node128 Cert.Spec.node64 Cert.Spec.edge128 Cert.Spec.edge64 Cert.Spec.idxCol Cert.Spec.srcOf Cert.Spec.dstOf
  rfl

end Cert.ReferenceIdeal.Net

end
-- ==== Proof.lean ====
/-
  Three graph-convolution layers and a per-graph mean, tiled kernels against plain jnp.

  Each layer gathers the source row of every edge, adds the edge's projected attributes, clips at zero,
  sums the messages into their destination nodes and applies `relu((x + agg) · W + b)`.  The kernel
  program computes the two dense pieces in row blocks (4000 edges, 5000 nodes at a time) and leaves the
  gather, the scatter-sum and the pooling to the host, exactly as the reference does; over the extended
  reals a row block of a dense piece is the same function of the operands' row blocks, a bf16 narrowing
  is the identity and a matrix product into a zero accumulator is the plain sum of products.  The one
  place the programs differ is the gather: the kernel's `take` fills a row whose index is out of range,
  the reference's indexing clamps it.  Under the precondition's domain conjunct (every source index names
  a node) the fill never happens and both are the plain gather.

  The kernel's run is the generated frame's launch called again with the result buffer read
  (Proof/KRun.lean); Proof/KValue.lean reads that buffer back through the six regions and the host
  stretches to `Cert.Spec.net` of the arguments; Proof/RefSpec.lean says the reference's generated
  run ends at the same function.
-/
import proofs.«415786_j61478161875137_1_alg».proof.Defs
import proofs.«415786_j61478161875137_1_alg».proof.Proof.Gen.Kernel
import proofs.«415786_j61478161875137_1_alg».proof.Proof.Gen.Kernel.Frame
import proofs.«415786_j61478161875137_1_alg».proof.Proof.Gen.KernelIdeal
import proofs.«415786_j61478161875137_1_alg».proof.Proof.Gen.KernelIdeal.Frame
import proofs.«415786_j61478161875137_1_alg».proof.Proof.Gen.ReferenceIdeal
import proofs.«415786_j61478161875137_1_alg».proof.Proof.Gen.ReferenceIdeal.Run
import proofs.«415786_j61478161875137_1_alg».proof.Proof.Gen.Pre_finite_inputs
import proofs.«415786_j61478161875137_1_alg».proof.Proof.KRun
import proofs.«415786_j61478161875137_1_alg».proof.Proof.KValue
import proofs.«415786_j61478161875137_1_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the (agreeing) arguments in their result buffer. -/
theorem algebraic : Cert.algebraic_KernelIdeal_ReferenceIdeal := by
  intro m ρ m' ρ' hpre hagree
  refine ⟨fun c => Cert.Spec.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Net.result_eq m ρ c (Cert.KernelIdeal.Net.srcOk_of_pre m hpre c)), (h c).2⟩)
      (Cert.KernelIdeal.Net.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.Net.res_eq]
    obtain ⟨h0, h1, h2, h3, h4, h5, h6, h7, h8, h9, h10, h11, h12, h13, h14, h15⟩ := hagree c
    rw [h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
